-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x2048 : Shape := ⟨2, ![32000, 2048]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel

variable [Facts]

def fn {F : FTy → Type} [FloatOps F] (main_arg0 : IVec S4x2048 32) (main_arg1 : IVec S4x2048 32) (main_arg2 : FVec F S32000x2048 .f32) (main_arg3 : FVec F S32000x2048 .f32) : IVec S_ 1 :=
  let main_v0 : FVec F S32000x2048 .f32 := Host.absf main_arg2
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S32000x2048 .f32 := Host.absf main_arg3
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  main_v8
-- ==== Kernel.lean ====
abbrev S4x2048 : Shape := ⟨2, ![4, 2048]⟩
abbrev S32000x2048 : Shape := ⟨2, ![32000, 2048]⟩
abbrev S_ : Shape := ⟨0, ![]⟩
abbrev S4x2048x1 : Shape := ⟨3, ![4, 2048, 1]⟩
abbrev S4x2048x2048 : Shape := ⟨3, ![4, 2048, 2048]⟩
abbrev S8192x2048 : Shape := ⟨2, ![8192, 2048]⟩
abbrev S4x1 : Shape := ⟨2, ![4, 1]⟩
abbrev S4x2047 : Shape := ⟨2, ![4, 2047]⟩
abbrev S2048 : Shape := ⟨1, ![2048]⟩
abbrev S1x2048 : Shape := ⟨2, ![1, 2048]⟩
abbrev S8192x1 : Shape := ⟨2, ![8192, 1]⟩
abbrev S8192x32000 : Shape := ⟨2, ![8192, 32000]⟩
abbrev S4x2048x32000 : Shape := ⟨3, ![4, 2048, 32000]⟩
abbrev S8192x1x1 : Shape := ⟨3, ![8192, 1, 1]⟩
abbrev S1 : Shape := ⟨1, ![1]⟩
abbrev S1x1x1 : Shape := ⟨3, ![1, 1, 1]⟩
abbrev S1024x2048 : Shape := ⟨2, ![1024, 2048]⟩
abbrev S1280x2048 : Shape := ⟨2, ![1280, 2048]⟩
abbrev S1024x1280 : Shape := ⟨2, ![1024, 1280]⟩
abbrev S1024x1 : Shape := ⟨2, ![1024, 1]⟩
abbrev S1024x640 : Shape := ⟨2, ![1024, 640]⟩
abbrev S1024 : Shape := ⟨1, ![1024]⟩

abbrev nBuf : Space → Nat
  | .hbm => 75
  | .vmem => 10
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S32000x2048, .f32⟩
  | .hbm, ⟨3, _⟩ => ⟨S32000x2048, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x2048, .f32⟩
  | .hbm, ⟨13, _⟩ => ⟨S4x2048x2048, .bf16⟩
  | .hbm, ⟨14, _⟩ => ⟨S8192x2048, .bf16⟩
  | .hbm, ⟨15, _⟩ => ⟨S32000x2048, .bf16⟩
  | .hbm, ⟨16, _⟩ => ⟨S_, .i32⟩
  | .hbm, ⟨17, _⟩ => ⟨S4x1, .i32⟩
  | .hbm, ⟨18, _⟩ => ⟨S4x2047, .i32⟩
  | .hbm, ⟨19, _⟩ => ⟨S4x2048, .i32⟩
  | .hbm, ⟨20, _⟩ => ⟨S2048, .i32⟩
  | .hbm, ⟨21, _⟩ => ⟨S1x2048, .i32⟩
  | .hbm, ⟨22, _⟩ => ⟨S_, .i32⟩
  | .hbm, ⟨23, _⟩ => ⟨S1x2048, .i32⟩
  | .hbm, ⟨24, _⟩ => ⟨S1x2048, .i1⟩
  | .hbm, ⟨25, _⟩ => ⟨S4x2048, .i1⟩
  | .hbm, ⟨26, _⟩ => ⟨S_, .i32⟩
  | .hbm, ⟨27, _⟩ => ⟨S4x2048, .i32⟩
  | .hbm, ⟨28, _⟩ => ⟨S4x2048, .i1⟩
  | .hbm, ⟨29, _⟩ => ⟨S4x2048, .i1⟩
  | .hbm, ⟨30, _⟩ => ⟨S_, .i32⟩
  | .hbm, ⟨31, _⟩ => ⟨S_, .i32⟩
  | .hbm, ⟨32, _⟩ => ⟨S4x2048, .i32⟩
  | .hbm, ⟨33, _⟩ => ⟨S4x2048, .i32⟩
  | .hbm, ⟨34, _⟩ => ⟨S8192x1, .i32⟩
  | .hbm, ⟨35, _⟩ => ⟨S8192x1, .i1⟩
  | .hbm, ⟨36, _⟩ => ⟨S8192x32000, .f32⟩
  | .hbm, ⟨37, _⟩ => ⟨S8192x1, .f32⟩
  | .hbm, ⟨38, _⟩ => ⟨S4x2048x32000, .f32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S_, .i32⟩
  | .hbm, ⟨43, _⟩ => ⟨S8192x1, .i32⟩
  | .hbm, ⟨44, _⟩ => ⟨S8192x1, .i32⟩
  | .hbm, ⟨45, _⟩ => ⟨S8192x1, .i32⟩
  | .hbm, ⟨46, _⟩ => ⟨S8192x1x1, .i32⟩
  | .hbm, ⟨47, _⟩ => ⟨S1, .i32⟩
  | .hbm, ⟨48, _⟩ => ⟨S_, .i32⟩
  | .hbm, ⟨49, _⟩ => ⟨S8192x1x1, .i32⟩
  | .hbm, ⟨50, _⟩ => ⟨S8192x1x1, .i1⟩
  | .hbm, ⟨51, _⟩ => ⟨S1x1x1, .i32⟩
  | .hbm, ⟨52, _⟩ => ⟨S8192x1x1, .i32⟩
  | .hbm, ⟨53, _⟩ => ⟨S8192x1x1, .i1⟩
  | .hbm, ⟨54, _⟩ => ⟨S8192x1x1, .i1⟩
  | .hbm, ⟨55, _⟩ => ⟨S_, .i1⟩
  | .hbm, ⟨56, _⟩ => ⟨S8192x1, .i1⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c_1 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_2 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_c_3 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_c_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24_0 : Ref sig .tc := ⟨.hbm, 36, rfl⟩
abbrev main_call0_v24_1 : Ref sig .tc := ⟨.hbm, 37, rfl⟩
abbrev main_v0_1 : Ref sig .tc := ⟨.hbm, 38, rfl⟩
abbrev main_call0_call1_c : Ref sig .tc := ⟨.hbm, 39, rfl⟩
abbrev main_call0_call1_v0 : Ref sig .tc := ⟨.hbm, 40, rfl⟩
abbrev main_call0_call1_v1 : Ref sig .tc := ⟨.hbm, 41, rfl⟩
abbrev main_call0_call1_c_0 : Ref sig .tc := ⟨.hbm, 42, rfl⟩
abbrev main_call0_call1_v2 : Ref sig .tc := ⟨.hbm, 43, rfl⟩
abbrev main_call0_call1_v3 : Ref sig .tc := ⟨.hbm, 44, rfl⟩
abbrev main_call0_call1_v4 : Ref sig .tc := ⟨.hbm, 45, rfl⟩
abbrev main_call0_call1_v5 : Ref sig .tc := ⟨.hbm, 46, rfl⟩
abbrev main_call0_call1_c_1 : Ref sig .tc := ⟨.hbm, 47, rfl⟩
abbrev main_call0_call1_c_2 : Ref sig .tc := ⟨.hbm, 48, rfl⟩
abbrev main_call0_call1_v6 : Ref sig .tc := ⟨.hbm, 49, rfl⟩
abbrev main_call0_call1_v7 : Ref sig .tc := ⟨.hbm, 50, rfl⟩
abbrev main_call0_call1_v8 : Ref sig .tc := ⟨.hbm, 51, rfl⟩
abbrev main_call0_call1_v9 : Ref sig .tc := ⟨.hbm, 52, rfl⟩
abbrev main_call0_call1_v10 : Ref sig .tc := ⟨.hbm, 53, rfl⟩
abbrev main_call0_call1_v11 : Ref sig .tc := ⟨.hbm, 54, rfl⟩
abbrev main_call0_call1_c_3 : Ref sig .tc := ⟨.hbm, 55, rfl⟩
abbrev main_call0_call1_v12 : Ref sig .tc := ⟨.hbm, 56, rfl⟩
abbrev main_call0_call1_v13 : Ref sig .tc := ⟨.hbm, 57, rfl⟩
abbrev main_call0_call1_cst : Ref sig .tc := ⟨.hbm, 58, rfl⟩
abbrev main_call0_call1_v14 : Ref sig .tc := ⟨.hbm, 59, rfl⟩
abbrev main_call0_v26 : Ref sig .tc := ⟨.hbm, 60, rfl⟩
abbrev main_call0_v27 : Ref sig .tc := ⟨.hbm, 61, rfl⟩
abbrev main_call0_v28 : Ref sig .tc := ⟨.hbm, 62, rfl⟩
abbrev main_call0_cst : Ref sig .tc := ⟨.hbm, 63, rfl⟩
abbrev main_call0_call2_v0 : Ref sig .tc := ⟨.hbm, 64, rfl⟩
abbrev main_call0_call2_v1 : Ref sig .tc := ⟨.hbm, 65, rfl⟩
abbrev main_call0_v29 : Ref sig .tc := ⟨.hbm, 66, rfl⟩
abbrev main_call0_v30 : Ref sig .tc := ⟨.hbm, 67, rfl⟩
abbrev main_call0_cst_5 : Ref sig .tc := ⟨.hbm, 68, rfl⟩
abbrev main_call0_v31 : Ref sig .tc := ⟨.hbm, 69, rfl⟩
abbrev main_call0_cst_6 : Ref sig .tc := ⟨.hbm, 70, rfl⟩
abbrev main_call0_v32 : Ref sig .tc := ⟨.hbm, 71, rfl⟩
abbrev main_call0_cst_7 : Ref sig .tc := ⟨.hbm, 72, rfl⟩
abbrev main_call0_v33 : Ref sig .tc := ⟨.hbm, 73, rfl⟩
abbrev main_v0_0 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v53 : BitVec 1 := Scalar.cmpi .eq arg1 c24_i32
  let v54 : BitVec 32 := Scalar.extui v53
  let c0_i32_29 : BitVec 32 := 0#32
  let v55 : BitVec 1 := Scalar.cmpi .ne v54 c0_i32_29
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bitsLt_bf16_f32 : FTy.bits .bf16 < FTy.bits .f32
  shapeCasts_S4x2048x2048_S8192x2048 : S4x2048x2048.ShapeCasts S8192x2048
  bcast_S_S4x1 : S_.BroadcastsInDim S4x1 (![] : Fin 0 → Fin S4x1.rank)
  slices_S4x2048_S4x2047_0_1 : S4x2048.Slices ![0, 1] S4x2047
  concatenates_S4x2047_S4x1_S4x2048_d1 : Shape.Concatenates [S4x2047, S4x1] S4x2048 1
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S4x2048_0_1 : S1x2048.BroadcastsInDim S4x2048 (![0, 1] : Fin 2 → Fin S4x2048.rank)
  shapeCasts_S4x2048_S8192x1 : S4x2048.ShapeCasts S8192x1
  shapeCasts_S8192x32000_S4x2048x32000 : S8192x32000.ShapeCasts S4x2048x32000
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  reducesTo_S8192x1_S_d0_1 : S8192x1.ReducesTo [0, 1] S_
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1024x1280_S1024x1280_0_0 : ∀ a, (![0, 0] : Fin 2 → Nat) a + S1024x1280.size a ≤ S1024x1280.size a
  h_S1024x1280 : 0 < S1024x1280.numel
  inb_S1024x1280_S1024x640_0_0 : ∀ a, (![0, 0] : Fin 2 → Nat) a + S1024x640.size a ≤ S1024x1280.size a
  h_S1024x640 : 0 < S1024x640.numel
  shapeCasts_S1024x640_S1024x640 : S1024x640.ShapeCasts S1024x640
  reduces_S1024x640_S1024 : S1024x640.Reduces [1] S1024
  shapeCasts_S1024_S1024x1 : S1024.ShapeCasts S1024x1
  broadcasts_S1024x1_S1024x640 : S1024x1.Broadcasts S1024x640
  inb_S1024x1280_S1024x640_0_640 : ∀ a, (![0, 640] : Fin 2 → Nat) a + S1024x640.size a ≤ S1024x1280.size a
  gather_S32000x2048_S4x2048x1_S4x2048x2048_2_0_n_n_0_2_12048_wf : GatherDims.WF S32000x2048 S4x2048x1 S4x2048x2048 [2] [0] [] [0] [] 2 ![1, 2048]
  gather_S8192x32000_S8192x1x1_S8192x1_n_1_0_0_1_2_11_wf : GatherDims.WF S8192x32000 S8192x1x1 S8192x1 [] [1] [0] [1] [0] 2 ![1, 1]
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S8192x32000.size a
  hwx0_2 : ∀ i : grid0.Coords, EltTy.bits .f32 = 32 ∨ (Rect.block (s := S8192x32000) S1024x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def gather_S32000x2048_S4x2048x1_S4x2048x2048_2_0_n_n_0_2_12048 : GatherDims S32000x2048 S4x2048x1 S4x2048x2048 where
  offsetDims := [2]
  collapsedSliceDims := [0]
  operandBatchingDims := []
  startIndicesBatchingDims := []
  startIndexMap := [0]
  indexVectorDim := 2
  sliceSizes := ![1, 2048]
  wf := gather_S32000x2048_S4x2048x1_S4x2048x2048_2_0_n_n_0_2_12048_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_call0_v8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v24_0) S1024x1280.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v24_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048 : Shape := ⟨2, ![4, 2048]⟩
abbrev S32000x2048 : Shape := ⟨2, ![32000, 2048]⟩
abbrev S_ : Shape := ⟨0, ![]⟩
abbrev S4x2048x1 : Shape := ⟨3, ![4, 2048, 1]⟩
abbrev S4x2048x2048 : Shape := ⟨3, ![4, 2048, 2048]⟩
abbrev S4x2048x32000 : Shape := ⟨3, ![4, 2048, 32000]⟩
abbrev S4x2047x32000 : Shape := ⟨3, ![4, 2047, 32000]⟩
abbrev S8188x32000 : Shape := ⟨2, ![8188, 32000]⟩
abbrev S4x2047 : Shape := ⟨2, ![4, 2047]⟩
abbrev S8188 : Shape := ⟨1, ![8188]⟩
abbrev S8188x1 : Shape := ⟨2, ![8188, 1]⟩
abbrev S8188x1x1 : Shape := ⟨3, ![8188, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S32000x2048, .f32⟩
  | .hbm, ⟨3, _⟩ => ⟨S32000x2048, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x2048, .f32⟩
  | .hbm, ⟨13, _⟩ => ⟨S4x2048x32000, .f32⟩
  | .hbm, ⟨14, _⟩ => ⟨S4x2047x32000, .f32⟩
  | .hbm, ⟨15, _⟩ => ⟨S8188x32000, .f32⟩
  | .hbm, ⟨16, _⟩ => ⟨S4x2047, .i32⟩
  | .hbm, ⟨17, _⟩ => ⟨S8188, .i32⟩
  | .hbm, ⟨18, _⟩ => ⟨S_, .f32⟩
  | .hbm, ⟨19, _⟩ => ⟨S8188, .f32⟩
  | .hbm, ⟨20, _⟩ => ⟨S_, .f32⟩
  | .hbm, ⟨21, _⟩ => ⟨S8188, .f32⟩
  | .hbm, ⟨22, _⟩ => ⟨S8188, .f32⟩
  | .hbm, ⟨23, _⟩ => ⟨S8188x1, .f32⟩
  | .hbm, ⟨24, _⟩ => ⟨S8188x32000, .f32⟩
  | .hbm, ⟨25, _⟩ => ⟨S8188x32000, .f32⟩
  | .hbm, ⟨26, _⟩ => ⟨S8188x32000, .f32⟩
  | .hbm, ⟨27, _⟩ => ⟨S_, .f32⟩
  | .hbm, ⟨28, _⟩ => ⟨S8188, .f32⟩
  | .hbm, ⟨29, _⟩ => ⟨S8188x1, .f32⟩
  | .hbm, ⟨30, _⟩ => ⟨S8188x1, .f32⟩
  | .hbm, ⟨31, _⟩ => ⟨S8188x32000, .f32⟩
  | .hbm, ⟨32, _⟩ => ⟨S8188x32000, .f32⟩
  | .hbm, ⟨33, _⟩ => ⟨S_, .i32⟩
  | .hbm, ⟨34, _⟩ => ⟨S8188, .i32⟩
  | .hbm, ⟨35, _⟩ => ⟨S8188, .i1⟩
  | .hbm, ⟨36, _⟩ => ⟨S_, .i32⟩
  | .hbm, ⟨37, _⟩ => ⟨S_, .i32⟩
  | .hbm, ⟨38, _⟩ => ⟨S8188, .i32⟩
  | .hbm, ⟨39, _⟩ => ⟨S8188, .i32⟩
  | .hbm, ⟨40, _⟩ => ⟨S8188x1, .i32⟩
  | .hbm, ⟨41, _⟩ => ⟨S_, .i32⟩
  | .hbm, ⟨42, _⟩ => ⟨S8188x1, .i32⟩
  | .hbm, ⟨43, _⟩ => ⟨S8188x1, .i1⟩
  | .hbm, ⟨44, _⟩ => ⟨S_, .i32⟩
  | .hbm, ⟨45, _⟩ => ⟨S8188x1, .i32⟩
  | .hbm, ⟨46, _⟩ => ⟨S8188x1, .i32⟩
  | .hbm, ⟨47, _⟩ => ⟨S8188x1, .i32⟩
  | .hbm, ⟨48, _⟩ => ⟨S8188x1x1, .i32⟩
  | .hbm, ⟨49, _⟩ => ⟨S1, .i32⟩
  | .hbm, ⟨50, _⟩ => ⟨S_, .i32⟩
  | .hbm, ⟨51, _⟩ => ⟨S8188x1x1, .i32⟩
  | .hbm, ⟨52, _⟩ => ⟨S8188x1x1, .i1⟩
  | .hbm, ⟨53, _⟩ => ⟨S1x1x1, .i32⟩
  | .hbm, ⟨54, _⟩ => ⟨S8188x1x1, .i32⟩
  | .hbm, ⟨55, _⟩ => ⟨S8188x1x1, .i1⟩
  | .hbm, ⟨56, _⟩ => ⟨S8188x1x1, .i1⟩
  | .hbm, ⟨57, _⟩ => ⟨S_, .i1⟩
  | .hbm, ⟨58, _⟩ => ⟨S8188x1, .i1⟩
  | .hbm, ⟨59, _⟩ => ⟨S8188x1, .f32⟩
  | .hbm, ⟨60, _⟩ => ⟨S_, .f32⟩
  | .hbm, ⟨61, _⟩ => ⟨S8188x1, .f32⟩
  | .hbm, ⟨62, _⟩ => ⟨S8188x1, .f32⟩
  | .hbm, ⟨63, _⟩ => ⟨S8188, .f32⟩
  | .hbm, ⟨64, _⟩ => ⟨S8188, .f32⟩
  | .hbm, ⟨65, _⟩ => ⟨S_, .f32⟩
  | .hbm, ⟨66, _⟩ => ⟨S_, .f32⟩
  | .hbm, ⟨67, _⟩ => ⟨S8188, .f32⟩
  | .hbm, ⟨68, _⟩ => ⟨S8188, .f32⟩
  | .hbm, ⟨69, _⟩ => ⟨S_, .f32⟩
  | .hbm, ⟨70, _⟩ => ⟨S_, .f32⟩
  | .hbm, ⟨71, _⟩ => ⟨S8188, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .f32⟩
  | .hbm, ⟨77, _⟩ => ⟨S_, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_v15 : Ref sig .tc := ⟨.hbm, 39, rfl⟩
abbrev main_v16 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_v20 : Ref sig .tc := ⟨.hbm, 68, rfl⟩
abbrev main_cst_3 : Ref sig .tc := ⟨.hbm, 69, rfl⟩
abbrev main_v21 : Ref sig .tc := ⟨.hbm, 70, rfl⟩
abbrev main_v22 : Ref sig .tc := ⟨.hbm, 71, rfl⟩
abbrev main_c_4 : Ref sig .tc := ⟨.hbm, 72, rfl⟩
abbrev main_v23 : Ref sig .tc := ⟨.hbm, 73, rfl⟩
abbrev main_c_5 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  slices_S4x2048x32000_S4x2047x32000_0_0_0 : S4x2048x32000.Slices ![0, 0, 0] S4x2047x32000
  shapeCasts_S4x2047x32000_S8188x32000 : S4x2047x32000.ShapeCasts S8188x32000
  slices_S4x2048_S4x2047_0_1 : S4x2048.Slices ![0, 1] S4x2047
  shapeCasts_S4x2047_S8188 : S4x2047.ShapeCasts S8188
  reducesTo_S8188x32000_S8188_d1 : S8188x32000.ReducesTo [1] S8188
  h_S_ : 0 < S_.numel
  bcast_S_S8188 : S_.BroadcastsInDim S8188 (![] : Fin 0 → Fin S8188.rank)
  bcast_S8188_S8188x1_0 : S8188.BroadcastsInDim S8188x1 (![0] : Fin 1 → Fin S8188x1.rank)
  bcast_S8188x1_S8188x32000_0_1 : S8188x1.BroadcastsInDim S8188x32000 (![0, 1] : Fin 2 → Fin S8188x32000.rank)
  bcast_S_S8188x1 : S_.BroadcastsInDim S8188x1 (![] : Fin 0 → Fin S8188x1.rank)
  shapeCasts_S8188x1_S8188x1x1 : S8188x1.ShapeCasts S8188x1x1
  bcast_S_S8188x1x1 : S_.BroadcastsInDim S8188x1x1 (![] : Fin 0 → Fin S8188x1x1.rank)
  bcast_S1_S1x1x1_2 : S1.BroadcastsInDim S1x1x1 (![2] : Fin 1 → Fin S1x1x1.rank)
  bcast_S1x1x1_S8188x1x1_0_1_2 : S1x1x1.BroadcastsInDim S8188x1x1 (![0, 1, 2] : Fin 3 → Fin S8188x1x1.rank)
  reducesTo_S8188x1x1_S8188x1_d2 : S8188x1x1.ReducesTo [2] S8188x1
  shapeCasts_S8188x1_S8188 : S8188x1.ShapeCasts S8188
  reducesTo_S8188_S_d0 : S8188.ReducesTo [0] S_
  natLt_1_32 : 1 < 32
  gather_S32000x2048_S4x2048x1_S4x2048x2048_2_0_n_n_0_2_12048_wf : GatherDims.WF S32000x2048 S4x2048x1 S4x2048x2048 [2] [0] [] [0] [] 2 ![1, 2048]
  dot_S4x2048x2048_S32000x2048_S4x2048x32000_2_1_01_0_n_n_wf : DotDims.WF S4x2048x2048 S32000x2048 S4x2048x32000 [2] [1] [0, 1] [0] [] []
  gather_S8188x32000_S8188x1x1_S8188x1_n_1_0_0_1_2_11_wf : GatherDims.WF S8188x32000 S8188x1x1 S8188x1 [] [1] [0] [1] [0] 2 ![1, 1]

variable [Facts₀]

def gather_S32000x2048_S4x2048x1_S4x2048x2048_2_0_n_n_0_2_12048 : GatherDims S32000x2048 S4x2048x1 S4x2048x2048 where
  offsetDims := [2]
  collapsedSliceDims := [0]
  operandBatchingDims := []
  startIndicesBatchingDims := []
  startIndexMap := [0]
  indexVectorDim := 2
  sliceSizes := ![1, 2048]
  wf := gather_S32000x2048_S4x2048x1_S4x2048x2048_2_0_n_n_0_2_12048_wf
def dot_S4x2048x2048_S32000x2048_S4x2048x32000_2_1_01_0_n_n : DotDims S4x2048x2048 S32000x2048 S4x2048x32000 where
  lhsContracting := [2]
  rhsContracting := [1]
  lhsNonContracting := [0, 1]
  rhsNonContracting := [0]
  lhsBatch := []
  rhsBatch := []
  wf := dot_S4x2048x2048_S32000x2048_S4x2048x32000_2_1_01_0_n_n_wf
def gather_S8188x32000_S8188x1x1_S8188x1_n_1_0_0_1_2_11 : GatherDims S8188x32000 S8188x1x1 S8188x1 where
  offsetDims := []
  collapsedSliceDims := [1]
  operandBatchingDims := [0]
  startIndicesBatchingDims := [0]
  startIndexMap := [1]
  indexVectorDim := 2
  sliceSizes := ![1, 1]
  wf := gather_S8188x32000_S8188x1x1_S8188x1_n_1_0_0_1_2_11_wf

class Facts : Prop extends Facts₀ where

variable [Facts]
-- ==== Proof.KHostDefs.lean ====
/-
  The host side of the kernel's program as functions of arrays: what the lines before the kernel launch compute
  from the four arguments (the token rows of the embedding table cast and laid out as 8192 rows; the output
  table cast; the labels shifted one position left with a zero appended, masked, and laid out as a column;
  the mask itself), and what the lines after it compute from the launch's two result arrays (the scores and
  the row-wise log-sum-exp), those labels and that mask: the loss.
-/
import proofs.«402826_j3624952398524_3_alg».proof.Proof.Gen.KernelIdeal

noncomputable section

namespace Cert.KernelIdeal.KV

open Idealize.ShloMosaic Cert.KernelIdeal
open Cert.KernelIdeal.Facts₀ Cert.KernelIdeal.Facts

variable {F : FTy → Type} [FloatOps F]

/-- The token ids with a negative id i read as i + 32000, as a column of start positions. -/
def tokIdx (ids : IVec S4x2048 32) : IVec S4x2048x1 32 :=
  broadcastInDim S4x2048x1 ![0, 1] bcast_S4x2048_S4x2048x1_0_1
    (select (cmpi .slt ids (broadcastInDim S4x2048 ![] bcast_S_S4x2048 (constantI S_ 32 0#32)))
      (addi ids (broadcastInDim S4x2048 ![] bcast_S_S4x2048 (constantI S_ 32 32000#32))) ids)

/-- The hidden rows: the embedding table's rows at the token ids. -/
def hidden (ids : IVec S4x2048 32) (emb : Vec F S32000x2048 .f32) : Vec F S4x2048x2048 .f32 :=
  Host.gather gather_S32000x2048_S4x2048x1_S4x2048x2048_2_0_n_n_0_2_12048 emb (tokIdx ids)

/-- The kernel's first operand: the hidden rows cast and laid out as 8192 rows. -/
def hFlat (ids : IVec S4x2048 32) (emb : Vec F S32000x2048 .f32) : Vec F S8192x2048 .bf16 :=
  shapeCast S8192x2048 (truncf .bf16 (hidden ids emb) bitsLt_bf16_f32) shapeCasts_S4x2048x2048_S8192x2048

/-- The kernel's second operand: the output table cast. -/
def wCast (w : Vec F S32000x2048 .f32) : Vec F S32000x2048 .bf16 := truncf .bf16 w bitsLt_bf16_f32

/-- The labels shifted one position left, a zero appended. -/
def shiftRaw (lab : IVec S4x2048 32) : IVec S4x2048 32 :=
  concatenate S4x2048 1 [⟨S4x2047, extractStridedSlice S4x2047 ![0, 1] lab slices_S4x2048_S4x2047_0_1⟩,
    ⟨S4x1, broadcastInDim S4x1 ![] bcast_S_S4x1 (constantI S_ 32 0#32)⟩] concatenates_S4x2047_S4x1_S4x2048_d1

/-- The mask: the position is before the last and the shifted label is not −100. -/
def validMask (lab : IVec S4x2048 32) : IVec S4x2048 1 :=
  andi (broadcastInDim S4x2048 ![0, 1] bcast_S1x2048_S4x2048_0_1
      (cmpi .slt (broadcastInDim S1x2048 ![1] bcast_S2048_S1x2048_1 (iotaInDim S2048 32 0))
        (broadcastInDim S1x2048 ![] bcast_S_S1x2048 (constantI S_ 32 2047#32))))
    (cmpi .ne (shiftRaw lab) (broadcastInDim S4x2048 ![] bcast_S_S4x2048 (constantI S_ 32 4294967196#32)))

/-- The masked shifted labels as a column of 8192 rows. -/
def labFlat (lab : IVec S4x2048 32) : IVec S8192x1 32 :=
  shapeCast S8192x1 (select (validMask lab) (shiftRaw lab)
    (broadcastInDim S4x2048 ![] bcast_S_S4x2048 (id (constantI S_ 32 0#32)))) shapeCasts_S4x2048_S8192x1

/-- The mask as a column of 8192 rows. -/
def validFlat (lab : IVec S4x2048 32) : IVec S8192x1 1 :=
  shapeCast S8192x1 (validMask lab) shapeCasts_S4x2048_S8192x1

/-- The start positions of the take along the vocabulary axis: a negative label l read as l + 32000. -/
def takePos (lf : IVec S8192x1 32) : IVec S8192x1x1 32 :=
  shapeCast S8192x1x1 (select (cmpi .slt lf (broadcastInDim S8192x1 ![] bcast_S_S8192x1 (constantI S_ 32 0#32)))
    (addi lf (broadcastInDim S8192x1 ![] bcast_S_S8192x1 (constantI S_ 32 32000#32))) lf) shapeCasts_S8192x1_S8192x1x1

/-- The take is in bounds. -/
def takeInb (lf : IVec S8192x1 32) : IVec S8192x1 1 :=
  Host.reduce IntOp.andi
    (andi (cmpi .sge (takePos lf) (broadcastInDim S8192x1x1 ![] bcast_S_S8192x1x1 (constantI S_ 32 0#32)))
      (cmpi .sle (takePos lf) (broadcastInDim S8192x1x1 ![0, 1, 2] bcast_S1x1x1_S8192x1x1_0_1_2
        (broadcastInDim S1x1x1 ![2] bcast_S1_S1x1x1_2 (constantI S1 32 31999#32)))))
    (constantI S_ 1 1#1) reducesTo_S8192x1x1_S8192x1_d2 h_S_

/-- The taken scores: each row's score at its label, the fill value where the take is out of bounds. -/
def taken (X : Vec F S8192x32000 .f32) (lf : IVec S8192x1 32) : Vec F S8192x1 .f32 :=
  select (takeInb lf) (Host.gather gather_S8192x32000_S8192x1x1_S8192x1_n_1_0_0_1_2_11 X (takePos lf))
    (broadcastInDim S8192x1 ![] bcast_S_S8192x1 (constant S_ .f32 0x7FC00000#32))

/-- The masked negative log-likelihoods, row by row. -/
def nllCol (X : Vec F S8192x32000 .f32) (L : Vec F S8192x1 .f32) (lf : IVec S8192x1 32) (vf : IVec S8192x1 1) :
    Vec F S8192x1 .f32 :=
  select vf (Host.negf (subf (taken X lf) L))
    (broadcastInDim S8192x1 ![] bcast_S_S8192x1 (id (constant S_ .f32 0x00000000#32)))

/-- The loss: the sum of the masked negative log-likelihoods over the larger of the mask's count and 1. -/
def tailLoss (X : Vec F S8192x32000 .f32) (L : Vec F S8192x1 .f32) (lf : IVec S8192x1 32) (vf : IVec S8192x1 1) :
    Vec F S_ .f32 :=
  Host.divf (Host.reduceAdd (nllCol X L lf vf) (constant S_ .f32 0x00000000#32) reducesTo_S8192x1_S_d0_1 h_S_)
    (maximumf (Host.reduceAdd (uitofp .f32 vf) (constant S_ .f32 0x00000000#32) reducesTo_S8192x1_S_d0_1 h_S_)
      (constant S_ .f32 0x3F800000#32))

/-- The scores as the program returns them: 4 by 2048 by 32000. -/
def logitsOut (X : Vec F S8192x32000 .f32) : Vec F S4x2048x32000 .f32 :=
  shapeCast S4x2048x32000 X shapeCasts_S8192x32000_S4x2048x32000

end Cert.KernelIdeal.KV

end
-- ==== Proof.KHost.lean ====
/-
  The host side of the kernel's program, read off its frame run. The lines of @main before the kernel launch
  leave in the launch's two operand buffers the token rows of the embedding table cast and laid out as 8192 rows
  (V_h) and the output table cast (V_w), and in two further buffers the shifted, masked labels as a column (V_lab)
  and the mask as a column (V_valid). The launch leaves two arrays (Xarr: the scores, Larr: one value per row).
  The lines after the launch compute from those two arrays, the label column and the mask column the loss
  (tail_loss) and the scores laid out as 4 by 2048 by 32000 (tail_logits). The run (run) names the two results
  and keeps the four arguments. Everything is generic in the float operations F.
-/
import proofs.«402826_j3624952398524_3_alg».proof.Proof.Gen.KernelIdeal.Frame
import Idealize.ShloMosaic.Lib.Pipeline.Value
import Idealize.ShloMosaic.Lib.StableHlo.Run
import proofs.«402826_j3624952398524_3_alg».proof.Proof.KHostDefs

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo (after_cons after_nil)

variable {F : FTy → Type} [FloatOps F]
variable (m : (ℓ : Loc nD τ sig) → Buf (Elt F) ℓ) (ρ : Dev nD → PrngReg)

/-! ## What the lines before the launch leave -/

/-- The launch's first operand: the embedding table's rows at the token ids (a negative id i read as i + 32000),
    cast and laid out as 8192 rows. -/
theorem V_h (c : Dev nD) : V m c main_call0_v8 = hFlat (m ((c : Thread nD τ).loc main_arg0)) (m ((c : Thread nD τ).loc main_arg2)) := by
  show StableHlo.after hostOps0 (fun b => m (c, b)) (Proc.devRef .tc main_call0_v8) = _
  open Idealize.ShloMosaic.StableHlo in after_results
  rfl

/-- The launch's second operand: the output table cast. -/
theorem V_w (c : Dev nD) : V m c main_call0_v9 = wCast (m ((c : Thread nD τ).loc main_arg3)) := by
  show StableHlo.after hostOps0 (fun b => m (c, b)) (Proc.devRef .tc main_call0_v9) = _
  open Idealize.ShloMosaic.StableHlo in after_results
  rfl

set_option maxHeartbeats 1600000 in
/-- The label column: the labels shifted one position left with a zero appended, zero where the mask is off,
    as 8192 rows. -/
theorem V_lab (c : Dev nD) : V m c main_call0_v22 = labFlat (m ((c : Thread nD τ).loc main_arg1)) := by
  show StableHlo.after hostOps0 (fun b => m (c, b)) (Proc.devRef .tc main_call0_v22) = _
  open Idealize.ShloMosaic.StableHlo in after_results
  rfl

/-- The mask column: the position is before the last and the shifted label is not −100, as 8192 rows. -/
theorem V_valid (c : Dev nD) : V m c main_call0_v23 = validFlat (m ((c : Thread nD τ).loc main_arg1)) := by
  show StableHlo.after hostOps0 (fun b => m (c, b)) (Proc.devRef .tc main_call0_v23) = _
  open Idealize.ShloMosaic.StableHlo in after_results
  rfl

/-! ## What the lines after the launch compute -/

/-- the two arrays the launch leaves -/
abbrev Xarr (c : Dev nD) : Vec F S8192x32000 .f32 := (dats m 0 c).arrAt 2 cfg0.N
abbrev Larr (c : Dev nD) : Vec F S8192x1 .f32 := (dats m 0 c).arrAt 3 cfg0.N

/-- After the launch, the buffer of its first result holds the first array it leaves. -/
theorem wa_X0 (c : Dev nD) :
    Pipeline.withArrays (cfgs 0).spec c (V0 m c) (fun w => (dats m 0 c).arrAt w (cfgs 0).N) (Proc.devRef .tc main_call0_v24_0) = Xarr m c :=
  Pipeline.withArrays_arr spec0 launch0.win.arr_inj c _ _ 2

/-- After the launch, the buffer of its second result holds the second array it leaves. -/
theorem wa_L0 (c : Dev nD) :
    Pipeline.withArrays (cfgs 0).spec c (V0 m c) (fun w => (dats m 0 c).arrAt w (cfgs 0).N) (Proc.devRef .tc main_call0_v24_1) = Larr m c :=
  Pipeline.withArrays_arr spec0 launch0.win.arr_inj c _ _ 3

/-- The label column is no array of the launch: it holds what the lines before the launch left. -/
theorem wa_220 (c : Dev nD) :
    Pipeline.withArrays (cfgs 0).spec c (V0 m c) (fun w => (dats m 0 c).arrAt w (cfgs 0).N) (Proc.devRef .tc main_call0_v22) = V m c main_call0_v22 :=
  Pipeline.withArrays_of_ne spec0 c (V0 m c) _ main_call0_v22 (by exact (by decide : ∀ w, Pipeline.arrRef spec0 w ≠ main_call0_v22))

/-- The mask column is no array of the launch: it holds what the lines before the launch left. -/
theorem wa_230 (c : Dev nD) :
    Pipeline.withArrays (cfgs 0).spec c (V0 m c) (fun w => (dats m 0 c).arrAt w (cfgs 0).N) (Proc.devRef .tc main_call0_v23) = V m c main_call0_v23 :=
  Pipeline.withArrays_of_ne spec0 c (V0 m c) _ main_call0_v23 (by exact (by decide : ∀ w, Pipeline.arrRef spec0 w ≠ main_call0_v23))

/-- The same four read at the typed references of the lines after the launch (the transport along a
    reference's type equation is the identity at a literal reference). -/
theorem wa_X (c : Dev nD) (h1 h2 h3) :
    (StableHlo.TRef.of main_call0_v24_0 h1 h2 h3 : StableHlo.TRef sig ⟨S8192x32000, .f32⟩).ofBuf
      (Pipeline.withArrays (cfgs 0).spec c (V0 m c) (fun w => (dats m 0 c).arrAt w (cfgs 0).N) (Proc.devRef .tc main_call0_v24_0))
      = Xarr m c :=
  (rfl : _ = Pipeline.withArrays (cfgs 0).spec c (V0 m c) (fun w => (dats m 0 c).arrAt w (cfgs 0).N) (Proc.devRef .tc main_call0_v24_0)).trans (wa_X0 m c)
theorem wa_L (c : Dev nD) (h1 h2 h3) :
    (StableHlo.TRef.of main_call0_v24_1 h1 h2 h3 : StableHlo.TRef sig ⟨S8192x1, .f32⟩).ofBuf
      (Pipeline.withArrays (cfgs 0).spec c (V0 m c) (fun w => (dats m 0 c).arrAt w (cfgs 0).N) (Proc.devRef .tc main_call0_v24_1))
      = Larr m c :=
  (rfl : _ = Pipeline.withArrays (cfgs 0).spec c (V0 m c) (fun w => (dats m 0 c).arrAt w (cfgs 0).N) (Proc.devRef .tc main_call0_v24_1)).trans (wa_L0 m c)
theorem wa_22 (c : Dev nD) (h1 h2 h3) :
    (StableHlo.TRef.of main_call0_v22 h1 h2 h3 : StableHlo.TRef sig ⟨S8192x1, .i32⟩).ofBuf
      (Pipeline.withArrays (cfgs 0).spec c (V0 m c) (fun w => (dats m 0 c).arrAt w (cfgs 0).N) (Proc.devRef .tc main_call0_v22))
      = V m c main_call0_v22 :=
  (rfl : _ = Pipeline.withArrays (cfgs 0).spec c (V0 m c) (fun w => (dats m 0 c).arrAt w (cfgs 0).N) (Proc.devRef .tc main_call0_v22)).trans (wa_220 m c)
theorem wa_23 (c : Dev nD) (h1 h2 h3) :
    (StableHlo.TRef.of main_call0_v23 h1 h2 h3 : StableHlo.TRef sig ⟨S8192x1, .i1⟩).ofBuf
      (Pipeline.withArrays (cfgs 0).spec c (V0 m c) (fun w => (dats m 0 c).arrAt w (cfgs 0).N) (Proc.devRef .tc main_call0_v23))
      = V m c main_call0_v23 :=
  (rfl : _ = Pipeline.withArrays (cfgs 0).spec c (V0 m c) (fun w => (dats m 0 c).arrAt w (cfgs 0).N) (Proc.devRef .tc main_call0_v23)).trans (wa_230 m c)

set_option maxHeartbeats 800000 in
/-- The loss the lines after the launch compute: the tail's operations read one by one at the launch's two
    arrays, the label column and the mask column. -/
theorem tail_loss (c : Dev nD) : Pipeline.afterTail₀ cfgs (dats m) 0 (V0 m) [hostOps1] c main_v0_0 = tailLoss (Xarr m c) (Larr m c) (V m c main_call0_v22) (V m c main_call0_v23) := by
  unfold Pipeline.afterTail₀
  show StableHlo.after hostOps1 _ (Proc.devRef .tc main_v0_0) = _
  open Idealize.ShloMosaic.StableHlo in after_results_simp
  rw [wa_X, wa_L, wa_22, wa_23]
  simp only [StableHlo.TRef.ofBuf, StableHlo.TRef.toBuf, cast_cast, cast_eq]
  unfold tailLoss nllCol taken takeInb takePos
  rfl

/-- The scores the program returns: the launch's first array laid out as 4 by 2048 by 32000. -/
theorem tail_logits (c : Dev nD) : Pipeline.afterTail₀ cfgs (dats m) 0 (V0 m) [hostOps1] c main_v0_1 = logitsOut (Xarr m c) := by
  unfold Pipeline.afterTail₀
  show StableHlo.after hostOps1 _ (Proc.devRef .tc main_v0_1) = _
  open Idealize.ShloMosaic.StableHlo in after_results
  rw [wa_X0]; rfl

/-! ## The run -/

/-- THE RUN of the kernel's program with its two results named: from any memory with zero counters every weakly
    fair execution terminates, the loss buffer ends at the loss of the launch's two arrays under the shifted,
    masked labels, the scores buffer at the launch's first array laid out as 4 by 2048 by 32000, and the four
    arguments end as launched. The two results are buffers that bypass the launch, read off the frame run's post
    at what the lines after the launch leave; the arguments by the frame's own lemmas. -/
theorem run : θ_run defs (onTc (τ := τ) (main (F := F))) ⟨m, fun _ => 0, ρ⟩ (fun r => ∀ c : Dev nD,
      r.2.mem ((c.tc : Thread nD τ).loc main_v0_0) = tailLoss (Xarr m c) (Larr m c) (labFlat (m ((c.tc : Thread nD τ).loc main_arg1))) (validFlat (m ((c.tc : Thread nD τ).loc main_arg1)))
      ∧ r.2.mem ((c.tc : Thread nD τ).loc main_v0_1) = logitsOut (Xarr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v0_0 (Pipeline.mem_restRefs_of main_v0_0 (by decide) (by decide))).trans
        ((tail_loss m c).trans (congr (congrArg (tailLoss (Xarr m c) (Larr m c)) (V_lab m c)) (V_valid m c))),
      ((h c).2 main_v0_1 (Pipeline.mem_restRefs_of main_v0_1 (by decide) (by decide))).trans (tail_logits m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KV

end
-- ==== Proof.KPieces.lean ====
/-
  What one grid point of the kernel leaves behind, as values.

  A point holds a 1024 × 2048 block x0 of hidden rows and a 1280 × 2048 block x1 of output-table rows. It
  stores their product P = x0 · x1ᵀ (1024 × 1280 scores), and updates two running columns, the maximum m and
  the scaled sum l, twice: once with the left 640 columns of P, once with the right 640. One update with a
  half S takes (m, l) to (m', exp (m − m') · l + Σ exp (S − m')) with m' = max m (row maximum of S). At the first
  point of a row of blocks the columns are first reset to −∞ and 0; at the last, m + log l is stored as well.
-/
import proofs.«402826_j3624952398524_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz : (![0, 0] : Fin 2 → Nat) = fun _ => 0 := funext fun a => by fin_cases a <;> rfl

/-- The left 640 columns of a block of scores. -/
def halfL (P : Vec F S1024x1280 .f32) : Vec F S1024x640 .f32 :=
  View.ld P (Rect.unit (s := S1024x1280) ![0, 0] S1024x640.size inb_S1024x1280_S1024x640_0_0)

/-- The right 640 columns. -/
def halfR (P : Vec F S1024x1280 .f32) : Vec F S1024x640 .f32 :=
  View.ld P (Rect.unit (s := S1024x1280) ![0, 640] ![1024, 640] inb_S1024x1280_S1024x640_0_640)

/-- The running maximum after the left half. -/
def m1 (P : Vec F S1024x1280 .f32) (m0 : Vec F S1024x1 .f32) : Vec F S1024x1 .f32 := k0_pay12 (halfL P) m0

/-- The scaled sum after the left half. -/
def l1 (P : Vec F S1024x1280 .f32) (m0 l0 : Vec F S1024x1 .f32) : Vec F S1024x1 .f32 := k0_pay11 (halfL P) m0 l0

/-- The running maximum after both halves. -/
def m2 (P : Vec F S1024x1280 .f32) (m0 : Vec F S1024x1 .f32) : Vec F S1024x1 .f32 := k0_pay4 (halfR P) (m1 P m0)

/-- The scaled sum after both halves. -/
def l2 (P : Vec F S1024x1280 .f32) (m0 l0 : Vec F S1024x1 .f32) : Vec F S1024x1 .f32 :=
  k0_pay3 (halfR P) (m1 P m0) (l1 P m0 l0)

/-- Every index of the score block is in its whole rectangle. -/
theorem cov4 (P : Vec F S1024x1280 .f32) (y : S1024x1280.Idx) :
    ∃ p ∈ [(⟨Rect.unit (s := S1024x1280) ![0, 0] S1024x1280.size inb_S1024x1280_S1024x1280_0_0, P⟩ : View.Piece (Elt F) S1024x1280 .f32)], y ∈ p.1.set :=
  ⟨_, List.mem_singleton_self _, View.mem_set_unit_zero hz inb_S1024x1280_S1024x1280_0_0 y⟩

/-- The left half of a stored block of scores, loaded back. -/
theorem ldL {sg : RefSig} {κ : Kind} {sp : Space} (v : View sg κ sp S1024x1280 .f32) (P : Vec F S1024x1280 .f32) :
    v.readCov [(⟨Rect.unit (s := S1024x1280) ![0, 0] S1024x1280.size inb_S1024x1280_S1024x1280_0_0, P⟩ : View.Piece (Elt F) S1024x1280 .f32)]
      (Rect.unit (s := S1024x1280) ![0, 0] S1024x640.size inb_S1024x1280_S1024x640_0_0).toLoadRect = halfL P := by
  rw [View.readCov_eq_canon_ld _ _ _ (cov4 P), View.canon_unit_zero hz]
  rfl

/-- The right half likewise. -/
theorem ldR {sg : RefSig} {κ : Kind} {sp : Space} (v : View sg κ sp S1024x1280 .f32) (P : Vec F S1024x1280 .f32) :
    v.readCov [(⟨Rect.unit (s := S1024x1280) ![0, 0] S1024x1280.size inb_S1024x1280_S1024x1280_0_0, P⟩ : View.Piece (Elt F) S1024x1280 .f32)]
      (Rect.unit (s := S1024x1280) ![0, 640] ![1024, 640] inb_S1024x1280_S1024x640_0_640).toLoadRect = halfR P := by
  rw [View.readCov_eq_canon_ld _ _ _ (cov4 P), View.canon_unit_zero hz]
  rfl

/-- A point first in its row of blocks stores the block of scores. -/
theorem out_A_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .bf16) (x1 : Vec F S1280x2048 .bf16) :
    out0_A_2 c i arg2 harg2 arg3 harg3 arg4 harg4 arg5 harg5 arg6 harg6 arg7 harg7 hc0 hc1 x0 x1 = (k0_pay8 x0 x1) := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_unit_zero (S := S1024x1280) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A point first in its row of blocks: the running maximum it leaves, from the reset −∞. -/
theorem sout_A_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .bf16) (x1 : Vec F S1280x2048 .bf16) :
    sout0_A_0 c i arg2 harg2 arg3 harg3 arg4 harg4 arg5 harg5 arg6 harg6 arg7 harg7 hc0 hc1 x0 x1 = m2 (k0_pay8 x0 x1) k0_pay6 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- … and the scaled sum it leaves, from the reset 0. -/
theorem sout_A_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x2048 .bf16) (x1 : Vec F S1280x2048 .bf16) :
    sout0_A_1 c i arg2 harg2 arg3 harg3 arg4 harg4 arg5 harg5 arg6 harg6 arg7 harg7 hc0 hc1 x0 x1 = l2 (k0_pay8 x0 x1) k0_pay6 k0_pay7 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A middle point stores the block of scores. -/
theorem out_B_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .bf16) (x1 : Vec F S1280x2048 .bf16) (xs0 xs1 : Vec F S1024x1 .f32) :
    out0_B_2 c i arg2 harg2 arg3 harg3 arg4 harg4 arg5 harg5 arg6 harg6 arg7 harg7 hc0 hc1 x0 x1 xs0 xs1 = (k0_pay8 x0 x1) := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero (S := S1024x1280) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A middle point: the running maximum it leaves, from the one it found. -/
theorem sout_B_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .bf16) (x1 : Vec F S1280x2048 .bf16) (xs0 xs1 : Vec F S1024x1 .f32) :
    sout0_B_0 c i arg2 harg2 arg3 harg3 arg4 harg4 arg5 harg5 arg6 harg6 arg7 harg7 hc0 hc1 x0 x1 xs0 xs1 = m2 (k0_pay8 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- … and the scaled sum, from the pair it found. -/
theorem sout_B_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x2048 .bf16) (x1 : Vec F S1280x2048 .bf16) (xs0 xs1 : Vec F S1024x1 .f32) :
    sout0_B_1 c i arg2 harg2 arg3 harg3 arg4 harg4 arg5 harg5 arg6 harg6 arg7 harg7 hc0 hc1 x0 x1 xs0 xs1 = l2 (k0_pay8 x0 x1) xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A point last in its row of blocks stores the block of scores. -/
theorem out_C_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .bf16) (x1 : Vec F S1280x2048 .bf16) (xs0 xs1 : Vec F S1024x1 .f32) :
    out0_C_2 c i arg2 harg2 arg3 harg3 arg4 harg4 arg5 harg5 arg6 harg6 arg7 harg7 hc0 hc1 x0 x1 xs0 xs1 = (k0_pay8 x0 x1) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x1280) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A last point: the running maximum it leaves. -/
theorem sout_C_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .bf16) (x1 : Vec F S1280x2048 .bf16) (xs0 xs1 : Vec F S1024x1 .f32) :
    sout0_C_0 c i arg2 harg2 arg3 harg3 arg4 harg4 arg5 harg5 arg6 harg6 arg7 harg7 hc0 hc1 x0 x1 xs0 xs1 = m2 (k0_pay8 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- … and the scaled sum. -/
theorem sout_C_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .bf16) (x1 : Vec F S1280x2048 .bf16) (xs0 xs1 : Vec F S1024x1 .f32) :
    sout0_C_1 c i arg2 harg2 arg3 harg3 arg4 harg4 arg5 harg5 arg6 harg6 arg7 harg7 hc0 hc1 x0 x1 xs0 xs1 = l2 (k0_pay8 x0 x1) xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_cons_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

/-- A last point also stores the running maximum plus the log of the scaled sum. -/
theorem out_C_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1280 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x2048 .bf16) (x1 : Vec F S1280x2048 .bf16) (xs0 xs1 : Vec F S1024x1 .f32) :
    out0_C_3 c i arg2 harg2 arg3 harg3 arg4 harg4 arg5 harg5 arg6 harg6 arg7 harg7 hc0 hc1 x0 x1 xs0 xs1 = k0_pay5 (m2 (k0_pay8 x0 x1) xs0) (l2 (k0_pay8 x0 x1) xs0 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero (S := S1024x1) hz]
  simp only [View.readAt_eq_ld, harg2.read_unread, harg3.read_unread, harg6.read_unread, harg7.read_unread,
    View.ld_unit_zero (S := S1024x2048) hz, View.ld_unit_zero (S := S1280x2048) hz, View.ld_unit_zero (S := S1024x1) hz,
    View.readCov_unit_zero (S := S1024x1) _ hz, View.readCov_cons_toLoadRect]
  try rw [ldR arg4.view (k0_pay8 x0 x1)]
  try rw [ldL arg4.view (k0_pay8 x0 x1)]
  try rfl

end Cert.KernelIdeal.KV

end
-- ==== Proof.KIdx.lean ====
/-
  The grid of the kernel launch: 200 points, point t = 25·i + k working on the i-th block of 1024 rows and
  the k-th block of 1280 vocabulary columns. Row p of point t's blocks is row 1024·i + p of the 8192 rows;
  column q is column 1280·k + q of the 32000.
-/
import proofs.«402826_j3624952398524_3_alg».proof.Proof.Gen.KernelIdeal.Launch

noncomputable section

namespace Cert.KernelIdeal.KV

open Idealize.ShloMosaic Cert.KernelIdeal Cert.KernelIdeal.Gen

theorem N200 : cfg0.N = 200 := N_0

/-- The row of the 8192 that row p of point t's blocks is. -/
def rowAt (t : Fin cfg0.N) (p : Fin 1024) : Fin 8192 :=
  ⟨1024 * (t.val / 25) + p.val, by have := t.isLt; have h : cfg0.N = 200 := N_0; omega⟩

/-- The vocabulary column that column q of point t's block is. -/
def colAt (t : Fin cfg0.N) (q : Fin 1280) : Fin 32000 :=
  ⟨1280 * (t.val % 25) + q.val, by have := Nat.mod_lt t.val (show 25 > 0 by decide); omega⟩

end Cert.KernelIdeal.KV

end
-- ==== Proof.LibStreamSoftmax.lean ====
/-
  The scalar laws behind streaming softmax, on the extended reals with real data. A row's state after
  some key tiles is (μ, exp(−μ)·Z, exp(−μ)·N) for SOME real μ (the running maximum; its being a maximum is
  never used), Z the sum of exp(score) and N the weighted sum so far. A new tile with maximum-so-far μ'
  rescales the old sums by exp(μ − μ') and adds exp(score − μ'): both become exp(−μ')·(old + tile's).
  At the first tile the old maximum is −∞, the rescaling factor exp(−∞ − μ') is 0 and the old sums are 0.
  The final quotient cancels exp(−μ). The two-pass form Σ_k (exp(s_k − M)/Σ_j exp(s_j − M))·v_k cancels
  exp(−M) the same way.
-/
import Idealize.ShloMosaic.PureOps.Ideal
import Mathlib.Analysis.SpecialFunctions.Exp

noncomputable section

namespace Cert.Attn

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The f32 word of −∞ denotes ⊥. -/
theorem ofBits_neg_inf : Ideal.ofBits .f32 0xFF800000#32 = (⊥ : EReal) := by
  simp [Ideal.ofBits, Ideal.ieee]

/-- A dot product of real data is real. -/
theorem dot_coe (a b : ι → ℝ) : ∑ d, (a d : EReal) * (b d : EReal) = ((∑ d, a d * b d : ℝ) : EReal) := by
  rw [coe_sum]
  exact Finset.sum_congr rfl (fun d _ => (EReal.coe_mul _ _).symm)

/-- The maximum of finitely many (at least one) reals, folded from −∞, is real. -/
theorem foldmax_real [Nonempty ι] (σ : ι → ℝ) :
    ∃ μ : ℝ, (Finset.univ : Finset ι).fold max (⊥ : EReal) (fun k => (σ k : EReal)) = (μ : EReal) := by
  classical
  have key : ∀ s : Finset ι,
      (s = ∅ ∧ s.fold max (⊥ : EReal) (fun k => (σ k : EReal)) = ⊥)
        ∨ ∃ μ : ℝ, s.fold max (⊥ : EReal) (fun k => (σ k : EReal)) = (μ : EReal) := by
    intro s
    refine Finset.induction_on s ?_ ?_
    · exact Or.inl ⟨rfl, Finset.fold_empty⟩
    · intro a s ha ih
      refine Or.inr ?_
      rw [Finset.fold_insert ha]
      rcases ih with ⟨_, h⟩ | ⟨μ, h⟩
      · exact ⟨σ a, by rw [h, max_bot_right]⟩
      · exact ⟨max (σ a) μ, by rw [h]; exact (EReal.coe_strictMono.monotone.map_max).symm⟩
  rcases key Finset.univ with ⟨h, _⟩ | h
  · exact absurd h (Finset.univ_nonempty.ne_empty)
  · exact h

/-- … and so is its maximum with a real, or with −∞. -/
theorem max_real [Nonempty ι] (μ : ℝ) (σ : ι → ℝ) :
    ∃ μ' : ℝ, max (μ : EReal) ((Finset.univ : Finset ι).fold max (⊥ : EReal) (fun k => (σ k : EReal))) = (μ' : EReal) := by
  obtain ⟨m, h⟩ := foldmax_real σ
  exact ⟨max μ m, by rw [h]; exact (EReal.coe_strictMono.monotone.map_max).symm⟩

theorem max_real_first [Nonempty ι] (σ : ι → ℝ) :
    ∃ μ' : ℝ, max (⊥ : EReal) ((Finset.univ : Finset ι).fold max (⊥ : EReal) (fun k => (σ k : EReal))) = (μ' : EReal) := by
  obtain ⟨m, h⟩ := foldmax_real σ
  exact ⟨m, by rw [h, max_bot_left]⟩

/-- First tile: the factor exp(−∞ − μ') is 0, and it multiplies 0. -/
theorem rescale_first (μ' : ℝ) :
    Ideal.exp ((⊥ : EReal) - (μ' : EReal)) * (0 : EReal) = ((Real.exp (-μ') * 0 : ℝ) : EReal) := by
  rw [mul_zero, mul_zero, EReal.coe_zero]

/-- Later tiles: exp(μ − μ')·(exp(−μ)·Z) = exp(−μ')·Z. -/
theorem rescale (μ μ' Z : ℝ) :
    Ideal.exp ((μ : EReal) - (μ' : EReal)) * ((Real.exp (-μ) * Z : ℝ) : EReal) = ((Real.exp (-μ') * Z : ℝ) : EReal) := by
  rw [← EReal.coe_sub, Ideal.exp_coe, ← EReal.coe_mul, ← mul_assoc, ← Real.exp_add]
  congr 3
  ring

/-- A tile's contribution to the weight sum. -/
theorem tile_den (μ' : ℝ) (σ : ι → ℝ) :
    ∑ c, Ideal.exp ((σ c : EReal) - (μ' : EReal)) = ((Real.exp (-μ') * ∑ c, Real.exp (σ c) : ℝ) : EReal) := by
  rw [Finset.mul_sum, coe_sum]
  refine Finset.sum_congr rfl (fun c _ => ?_)
  rw [← EReal.coe_sub, Ideal.exp_coe, ← Real.exp_add]
  congr 2
  ring

/-- A tile's contribution to the weighted sum of a column. -/
theorem tile_num (μ' : ℝ) (σ v : ι → ℝ) :
    ∑ c, Ideal.exp ((σ c : EReal) - (μ' : EReal)) * (v c : EReal)
      = ((Real.exp (-μ') * ∑ c, Real.exp (σ c) * v c : ℝ) : EReal) := by
  rw [Finset.mul_sum, coe_sum]
  refine Finset.sum_congr rfl (fun c _ => ?_)
  rw [← EReal.coe_sub, Ideal.exp_coe, ← EReal.coe_mul, ← mul_assoc, ← Real.exp_add]
  congr 3
  ring

/-- Rescaled old sum plus the tile's. -/
theorem carry_add (μ' Z T : ℝ) :
    ((Real.exp (-μ') * Z : ℝ) : EReal) + ((Real.exp (-μ') * T : ℝ) : EReal) = ((Real.exp (-μ') * (Z + T) : ℝ) : EReal) := by
  rw [← EReal.coe_add, mul_add]

/-- The final quotient cancels exp(−μ). -/
theorem final_div (μ N Z : ℝ) (hZ : 0 < Z) :
    Ideal.div ((Real.exp (-μ) * N : ℝ) : EReal) ((Real.exp (-μ) * Z : ℝ) : EReal) = ((N / Z : ℝ) : EReal) := by
  have he : Real.exp (-μ) ≠ 0 := (Real.exp_pos _).ne'
  have hne : Real.exp (-μ) * Z ≠ 0 := mul_ne_zero he hZ.ne'
  rw [Ideal.div_coe hne, ← EReal.coe_mul]
  congr 1
  field_simp

/-- The two-pass form of a row: normalise the weights exp(s_k − M) by their sum (added to the initial 0),
    then take the weighted sum of a column. -/
theorem ref_row (M : ℝ) (σ v : ι → ℝ) (hpos : 0 < ∑ j, Real.exp (σ j)) :
    ∑ k, Ideal.div (Ideal.exp ((σ k : EReal) - (M : EReal))) ((0 : EReal) + ∑ j, Ideal.exp ((σ j : EReal) - (M : EReal))) * (v k : EReal)
      = (((∑ k, Real.exp (σ k) * v k) / (∑ k, Real.exp (σ k)) : ℝ) : EReal) := by
  have he : Real.exp (-M) ≠ 0 := (Real.exp_pos _).ne'
  have hne : Real.exp (-M) * ∑ j, Real.exp (σ j) ≠ 0 := mul_ne_zero he hpos.ne'
  rw [zero_add, tile_den, Finset.sum_div, coe_sum]
  refine Finset.sum_congr rfl (fun k _ => ?_)
  rw [Ideal.div_coe hne, ← EReal.coe_sub, Ideal.exp_coe, ← EReal.coe_mul, ← EReal.coe_mul, sub_eq_add_neg,
    Real.exp_add]
  congr 1
  field_simp

end Cert.Attn

end
-- ==== Proof.LibLogSumExp.lean ====
/-
  Scalar laws of the log-sum-exp of a row of real scores, on the extended reals.

  A streaming pass keeps (μ, exp(−μ)·Z) for some real μ and Z the sum of exp(score) so far; at the end
  μ + log(exp(−μ)·Z) is log Z. A two-pass log-softmax subtracts a real M first: (x − M) − log(0 + exp(−M)·Z)
  is x − log Z. Either way the negative log-likelihood of an entry x is log Z − x, a real.
-/
import Idealize.ShloMosaic.PureOps.Ideal
import Mathlib.Analysis.SpecialFunctions.Log.Basic

noncomputable section

namespace Cert.LogSumExp

open Idealize.ShloMosaic

/-- The log of a positive real is the real log. -/
theorem log_coe_pos (r : ℝ) (hr : 0 < r) : Ideal.log (r : EReal) = ((Real.log r : ℝ) : EReal) := by
  rw [Ideal.log_coe, if_neg (not_le.mpr hr)]

/-- End of a streaming pass: μ + log(exp(−μ)·Z) = log Z. -/
theorem stream_final (μ Z : ℝ) (hZ : 0 < Z) :
    (μ : EReal) + Ideal.log ((Real.exp (-μ) * Z : ℝ) : EReal) = ((Real.log Z : ℝ) : EReal) := by
  rw [log_coe_pos _ (mul_pos (Real.exp_pos _) hZ), ← EReal.coe_add,
    Real.log_mul (Real.exp_pos _).ne' hZ.ne', Real.log_exp]
  congr 1
  ring

/-- Two-pass log-softmax of an entry: (x − M) − log(0 + exp(−M)·Z) = x − log Z. -/
theorem twopass_entry (x M Z : ℝ) (hZ : 0 < Z) :
    ((x : EReal) - (M : EReal)) - Ideal.log ((0 : EReal) + ((Real.exp (-M) * Z : ℝ) : EReal))
      = ((x - Real.log Z : ℝ) : EReal) := by
  rw [zero_add, log_coe_pos _ (mul_pos (Real.exp_pos _) hZ), ← EReal.coe_sub, ← EReal.coe_sub,
    Real.log_mul (Real.exp_pos _).ne' hZ.ne', Real.log_exp]
  congr 1
  ring

/-- The streaming side's negative log-likelihood: −(x − log Z) = log Z − x. -/
theorem nll_stream (x Z : ℝ) :
    -((x : EReal) - ((Real.log Z : ℝ) : EReal)) = ((Real.log Z - x : ℝ) : EReal) := by
  rw [← EReal.coe_sub, ← EReal.coe_neg]
  congr 1
  ring

/-- The two-pass side's: −(x − log Z) as one real. -/
theorem nll_twopass (x Z : ℝ) :
    -(((x - Real.log Z : ℝ)) : EReal) = ((Real.log Z - x : ℝ) : EReal) := by
  rw [← EReal.coe_neg]
  congr 1
  ring

/-- A sum of exponentials over a nonempty index type is positive. -/
theorem sum_exp_pos {ι : Type} [Fintype ι] [Nonempty ι] (σ : ι → ℝ) : 0 < ∑ j, Real.exp (σ j) :=
  Finset.sum_pos (fun j _ => Real.exp_pos _) Finset.univ_nonempty

end Cert.LogSumExp

end
-- ==== Proof.KOuts.lean ====
/-
  What the launch's buffers hold after each point, in terms of the point's two input blocks and of what the
  point before left in the two carried columns: the stored block of scores is the product of the blocks at
  every point; the carried columns are the two half updates applied to the reset columns (first point of a
  row of blocks) or to the previous point's (any other point); the last point of a row of blocks also stores
  the running maximum plus the log of the scaled sum.
-/
import proofs.«402826_j3624952398524_3_alg».proof.Proof.KPieces

set_option maxRecDepth 16384

noncomputable section

open Idealize.ShloMosaic Idealize.ShloMosaic.TcCoe Idealize.SL.Sem

namespace Cert.KernelIdeal.KV

open Cert.KernelIdeal Cert.KernelIdeal.Gen

variable {F : FTy → Type} [FloatOps F]
variable (m : (ℓ : Loc nD τ sig) → Buf (Elt F) ℓ)

/-- The block of hidden rows of point t. -/
abbrev hblk (c : Dev nD) (t : Fin cfg0.N) : Vec F S1024x2048 .bf16 := iblk m c 0 t

/-- The block of output-table rows of point t. -/
abbrev wblk (c : Dev nD) (t : Fin cfg0.N) : Vec F S1280x2048 .bf16 := iblk m c 1 t

/-- The block of scores point t computes. -/
abbrev pblk (c : Dev nD) (t : Fin cfg0.N) : Vec F S1024x1280 .f32 := k0_pay8 (hblk m c t) (wblk m c t)

/-- The running-maximum column after point t. -/
abbrev mcol (c : Dev nD) (t : Fin cfg0.N) : Vec F S1024x1 .f32 := (outsAt0 m c t.val t.isLt).2.2.1

/-- The scaled-sum column after point t. -/
abbrev lcol (c : Dev nD) (t : Fin cfg0.N) : Vec F S1024x1 .f32 := (outsAt0 m c t.val t.isLt).2.2.2

/-- The point before t. -/
abbrev tprev (t : Fin cfg0.N) : Fin cfg0.N := ⟨t.val - 1, Nat.lt_of_le_of_lt (Nat.sub_le _ _) t.isLt⟩

theorem scores_A (c : Dev nD) (t : Fin cfg0.N) (h0 : t.val % 25 = 0) (h1 : ¬t.val % 25 = 24) :
    (outsAt0 m c t.val t.isLt).1 = pblk m c t := by
  rw [outsAt0_A m c t h0 h1]; dsimp only
  exact out_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem scores_B (c : Dev nD) (t : Fin cfg0.N) (h0 : ¬t.val % 25 = 0) (h1 : ¬t.val % 25 = 24) :
    (outsAt0 m c t.val t.isLt).1 = pblk m c t := by
  rw [outsAt0_B m c t h0 h1]; dsimp only
  exact out_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem scores_C (c : Dev nD) (t : Fin cfg0.N) (h0 : ¬t.val % 25 = 0) (h1 : t.val % 25 = 24) :
    (outsAt0 m c t.val t.isLt).1 = pblk m c t := by
  rw [outsAt0_C m c t h0 h1]; dsimp only
  exact out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At every point the stored block of scores is the product of the point's blocks. -/
theorem scores_all (c : Dev nD) (t : Fin cfg0.N) : (outsAt0 m c t.val t.isLt).1 = pblk m c t := by
  by_cases h0 : t.val % 25 = 0
  · exact scores_A m c t h0 (by omega)
  · by_cases h1 : t.val % 25 = 24
    · exact scores_C m c t h0 h1
    · exact scores_B m c t h0 h1

theorem mcol_A (c : Dev nD) (t : Fin cfg0.N) (h0 : t.val % 25 = 0) (h1 : ¬t.val % 25 = 24) :
    mcol m c t = m2 (pblk m c t) k0_pay6 := by
  show (outsAt0 m c t.val t.isLt).2.2.1 = _
  rw [outsAt0_A m c t h0 h1]; dsimp only
  exact sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem lcol_A (c : Dev nD) (t : Fin cfg0.N) (h0 : t.val % 25 = 0) (h1 : ¬t.val % 25 = 24) :
    lcol m c t = l2 (pblk m c t) k0_pay6 k0_pay7 := by
  show (outsAt0 m c t.val t.isLt).2.2.2 = _
  rw [outsAt0_A m c t h0 h1]; dsimp only
  exact sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem mcol_B (c : Dev nD) (t : Fin cfg0.N) (h0 : ¬t.val % 25 = 0) (h1 : ¬t.val % 25 = 24) :
    mcol m c t = m2 (pblk m c t) (mcol m c (tprev t)) := by
  show (outsAt0 m c t.val t.isLt).2.2.1 = _
  rw [outsAt0_B m c t h0 h1]; dsimp only
  exact sout_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem lcol_B (c : Dev nD) (t : Fin cfg0.N) (h0 : ¬t.val % 25 = 0) (h1 : ¬t.val % 25 = 24) :
    lcol m c t = l2 (pblk m c t) (mcol m c (tprev t)) (lcol m c (tprev t)) := by
  show (outsAt0 m c t.val t.isLt).2.2.2 = _
  rw [outsAt0_B m c t h0 h1]; dsimp only
  exact sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem mcol_C (c : Dev nD) (t : Fin cfg0.N) (h0 : ¬t.val % 25 = 0) (h1 : t.val % 25 = 24) :
    mcol m c t = m2 (pblk m c t) (mcol m c (tprev t)) := by
  show (outsAt0 m c t.val t.isLt).2.2.1 = _
  rw [outsAt0_C m c t h0 h1]; dsimp only
  exact sout_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem lcol_C (c : Dev nD) (t : Fin cfg0.N) (h0 : ¬t.val % 25 = 0) (h1 : t.val % 25 = 24) :
    lcol m c t = l2 (pblk m c t) (mcol m c (tprev t)) (lcol m c (tprev t)) := by
  show (outsAt0 m c t.val t.isLt).2.2.2 = _
  rw [outsAt0_C m c t h0 h1]; dsimp only
  exact sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the last point of a row of blocks the second output holds the maximum plus the log of the scaled sum. -/
theorem lse_C (c : Dev nD) (t : Fin cfg0.N) (h0 : ¬t.val % 25 = 0) (h1 : t.val % 25 = 24) :
    (outsAt0 m c t.val t.isLt).2.1
      = k0_pay5 (m2 (pblk m c t) (mcol m c (tprev t))) (l2 (pblk m c t) (mcol m c (tprev t)) (lcol m c (tprev t))) := by
  rw [outsAt0_C m c t h0 h1]; dsimp only
  exact out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.KV

end
-- ==== Proof.KPay.lean ====
/-
  The kernel body's payloads read at an index, on the extended reals.

  A grid point's stored score block is the product of its two operand blocks, entry (p, q) being the sum over the
  2048 hidden coordinates h of x0[p, h] · x1[q, h]. The two resets are −∞ (the running maximum) and 0 (the scaled
  sum). One update with a half S of 640 columns takes a row's pair (m, l) to
  (m', exp (m − m') · l + Σ_c exp (S[p, c] − m')) with m' = max m (max_c S[p, c]), and the value stored at the
  last point of a row of blocks is m + log l. The left and right halves of a block of scores are its columns
  0 … 639 and 640 … 1279.
-/
import proofs.«402826_j3624952398524_3_alg».proof.Proof.Gen.KernelIdeal.Skeleton
import proofs.«402826_j3624952398524_3_alg».proof.Proof.KPieces
import proofs.«402826_j3624952398524_3_alg».proof.Proof.LibStreamSoftmax
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.KernelIdeal.KV

open Cert.KernelIdeal Cert.KernelIdeal.Gen Idealize.ShloMosaic Idealize.ShloMosaic.ValueIdx

/-! ## Two layout operations at an index: a column made of a vector, a column spread over a row -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## A row's maximum and sum over the 640 columns of a half -/

/-- The lane maximum of a half at row p: the fold of max from −∞ over the row's 640 entries. -/
theorem red_max (X : Vec Ideal S1024x640 .f32) (p : Fin 1024) :
    multiReduction (F := Ideal) .maximumf [1] S1024 X 0xFF800000#32 reduces_S1024x640_S1024 (.inl rfl) rfl (ix1 p)
      = (Finset.univ : Finset (Fin 640)).fold max (⊥ : EReal) (fun c => X (ix2 p c)) := by
  refine (Ideal.multiReduction_maximumf_single X _ reduces_S1024x640_S1024 _ _ (ix1 p)).trans ?_
  rw [Ideal.ofBits_def, Cert.Attn.ofBits_neg_inf]
  refine congrArg (Finset.fold max (⊥ : EReal) · (Finset.univ : Finset (Fin 640))) ?_
  funext c
  exact congrArg X (funext fun a => Fin.ext (by match a with | ⟨0, _⟩ => rfl | ⟨1, _⟩ => rfl))

/-- The lane sum of a half at row p: the sum of the row's 640 entries. -/
theorem red_add (X : Vec Ideal S1024x640 .f32) (p : Fin 1024) :
    multiReduction (F := Ideal) .add [1] S1024 X 0x00000000#32 reduces_S1024x640_S1024 (.inl rfl) rfl (ix1 p)
      = ∑ c : Fin 640, X (ix2 p c) := by
  refine (Ideal.multiReduction_add_single X _ reduces_S1024x640_S1024 _ _ (ix1 p)).trans ?_
  refine Finset.sum_congr rfl fun c _ => ?_
  exact congrArg X (funext fun a => Fin.ext (by match a with | ⟨0, _⟩ => rfl | ⟨1, _⟩ => rfl))

/-! ## The resets, the two halves, the stored logarithm of the sum -/

/-- The running maximum is reset to −∞. -/
theorem pay_reset_m (p : Fin 1024) : k0_pay6 (F := Ideal) (ix2 p (0 : Fin 1)) = (⊥ : EReal) := by
  unfold k0_pay6
  rw [shapeCast_self]
  exact Cert.Attn.ofBits_neg_inf

/-- The scaled sum is reset to 0. -/
theorem pay_reset_l (p : Fin 1024) : k0_pay7 (F := Ideal) (ix2 p (0 : Fin 1)) = (0 : EReal) := by
  unfold k0_pay7
  rw [shapeCast_self]
  exact Ideal.ofBits_zero_f32

/-- The left half at (p, c) is the block at (p, c). -/
theorem halfL_apply (P : Vec Ideal S1024x1280 .f32) (p : Fin 1024) (c : Fin 640) :
    halfL P (ix2 p c) = P (ix2 p ⟨c.val, by omega⟩) := by
  unfold halfL
  exact congrArg P (funext fun a => Fin.ext (by
    match a with
    | ⟨0, _⟩ => show 0 + 1 * p.val = p.val; omega
    | ⟨1, _⟩ => show 0 + 1 * c.val = c.val; omega))

/-- The right half at (p, c) is the block at (p, 640 + c). -/
theorem halfR_apply (P : Vec Ideal S1024x1280 .f32) (p : Fin 1024) (c : Fin 640) :
    halfR P (ix2 p c) = P (ix2 p ⟨640 + c.val, by omega⟩) := by
  unfold halfR
  exact congrArg P (funext fun a => Fin.ext (by
    match a with
    | ⟨0, _⟩ => show 0 + 1 * p.val = p.val; omega
    | ⟨1, _⟩ => show 640 + 1 * c.val = 640 + c.val; omega))

/-- What the last point of a row of blocks stores: the maximum plus the logarithm of the scaled sum. -/
theorem pay_lse (mm ll : Vec Ideal S1024x1 .f32) (p : Fin 1024) :
    k0_pay5 (F := Ideal) mm ll (ix2 p (0 : Fin 1)) = mm (ix2 p (0 : Fin 1)) + Ideal.log (ll (ix2 p (0 : Fin 1))) := by
  unfold k0_pay5
  rfl

/-! ## The block of scores: the product of the two operand blocks -/

theorem lhs_k8_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide), dif_pos (show (0 : Fin S1024x2048.rank) ∈ dot_S1024x2048_S1280x2048_S1024x1280_1_1_0_0_n_n.lhsNonContracting by decide)]
  rfl
theorem lhs_k8_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_k8_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide), dif_pos (show (0 : Fin S1280x2048.rank) ∈ dot_S1024x2048_S1280x2048_S1024x1280_1_1_0_0_n_n.rhsNonContracting by decide)]
  rfl
theorem rhs_k8_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The score at (p, q): the sum over the hidden coordinate of the two rows' products. -/
theorem pay_scores (x0 : Vec Ideal S1024x2048 .bf16) (x1 : Vec Ideal S1280x2048 .bf16) (p : Fin 1024) (q : Fin 1280) :
    k0_pay8 (F := Ideal) x0 x1 (ix2 p q) = ∑ h : Fin 2048, x0 (ix2 p h) * x1 (ix2 q h) := by
  unfold k0_pay8
  simp only [shapeCast_self, matmul]
  rw [Ideal.matmul_constant_zero_apply, ← Equiv.sum_comp (ValueIdx.contrEquiv1 dot_S1024x2048_S1280x2048_S1024x1280_1_1_0_0_n_n 2048 rfl rfl).symm]
  refine Finset.sum_congr rfl fun k _ => ?_
  have hk := ValueIdx.contrEquiv1_symm_val dot_S1024x2048_S1280x2048_S1024x1280_1_1_0_0_n_n 2048 rfl rfl k
  have el : dot_S1024x2048_S1280x2048_S1024x1280_1_1_0_0_n_n.lhsIdx (ix2 p q) ((ValueIdx.contrEquiv1 dot_S1024x2048_S1280x2048_S1024x1280_1_1_0_0_n_n 2048 rfl rfl).symm k) = ix2 p k := funext fun a => Fin.ext (by
    match a with
    | ⟨0, _⟩ => exact lhs_k8_0 _ _
    | ⟨1, _⟩ => exact (lhs_k8_1 _ _).trans hk)
  have er : dot_S1024x2048_S1280x2048_S1024x1280_1_1_0_0_n_n.rhsIdx (ix2 p q) ((ValueIdx.contrEquiv1 dot_S1024x2048_S1280x2048_S1024x1280_1_1_0_0_n_n 2048 rfl rfl).symm k) = ix2 q k := funext fun a => Fin.ext (by
    match a with
    | ⟨0, _⟩ => exact rhs_k8_0 _ _
    | ⟨1, _⟩ => exact (rhs_k8_1 _ _).trans hk)
  rw [el, er]

/-! ## One update of the running maximum -/

/-- The running maximum after one half S, from m0. -/
theorem pay_max2 (S : Vec Ideal S1024x640 .f32) (m0 : Vec Ideal S1024x1 .f32) (p : Fin 1024) :
    k0_pay2 (F := Ideal) S m0 (ix2 p (0 : Fin 1))
      = max (m0 (ix2 p (0 : Fin 1))) ((Finset.univ : Finset (Fin 640)).fold max (⊥ : EReal) (fun c => S (ix2 p c))) := by
  unfold k0_pay2 k0_pay1
  refine congrArg (max (m0 (ix2 p (0 : Fin 1)))) ?_
  refine (shapeCast_a_a1_apply _ shapeCasts_S1024_S1024x1 p 0).trans ?_
  rw [shapeCast_self]
  exact red_max S p

/-- The same value as it is stored after the right half. -/
theorem pay_max4 (S : Vec Ideal S1024x640 .f32) (m0 : Vec Ideal S1024x1 .f32) (p : Fin 1024) :
    k0_pay4 (F := Ideal) S m0 (ix2 p (0 : Fin 1))
      = max (m0 (ix2 p (0 : Fin 1))) ((Finset.univ : Finset (Fin 640)).fold max (⊥ : EReal) (fun c => S (ix2 p c))) := by
  unfold k0_pay4
  rw [shapeCast_self]
  exact pay_max2 S m0 p

/-- The first half's copy of the update is the same function. -/
theorem pay10_eq (S : Vec Ideal S1024x640 .f32) (m0 : Vec Ideal S1024x1 .f32) :
    k0_pay10 (F := Ideal) S m0 = k0_pay2 (F := Ideal) S m0 := rfl

/-- The same value as it is stored after the left half. -/
theorem pay_max12 (S : Vec Ideal S1024x640 .f32) (m0 : Vec Ideal S1024x1 .f32) (p : Fin 1024) :
    k0_pay12 (F := Ideal) S m0 (ix2 p (0 : Fin 1))
      = max (m0 (ix2 p (0 : Fin 1))) ((Finset.univ : Finset (Fin 640)).fold max (⊥ : EReal) (fun c => S (ix2 p c))) := by
  unfold k0_pay12
  rw [shapeCast_self, pay10_eq]
  exact pay_max2 S m0 p

/-! ## One update of the scaled sum -/

/-- The scaled sum after one half S, from (m0, l0): the old sum rescaled to the new maximum plus the half's
    exponentials taken from the new maximum. -/
theorem pay_sum3 (S : Vec Ideal S1024x640 .f32) (m0 l0 : Vec Ideal S1024x1 .f32) (p : Fin 1024) :
    k0_pay3 (F := Ideal) S m0 l0 (ix2 p (0 : Fin 1))
      = Ideal.exp (m0 (ix2 p (0 : Fin 1)) - k0_pay2 (F := Ideal) S m0 (ix2 p (0 : Fin 1))) * l0 (ix2 p (0 : Fin 1))
        + ∑ c : Fin 640, Ideal.exp (S (ix2 p c) - k0_pay2 (F := Ideal) S m0 (ix2 p (0 : Fin 1))) := by
  unfold k0_pay3 k0_pay1
  simp only [shapeCast_self]
  show Ideal.exp (m0 (ix2 p (0 : Fin 1)) - k0_pay2 (F := Ideal) S m0 (ix2 p (0 : Fin 1))) * l0 (ix2 p (0 : Fin 1))
      + shapeCast S1024x1 _ shapeCasts_S1024_S1024x1 (ix2 p (0 : Fin 1)) = _
  refine congrArg (fun t : EReal => Ideal.exp (m0 (ix2 p (0 : Fin 1)) - k0_pay2 (F := Ideal) S m0 (ix2 p (0 : Fin 1))) * l0 (ix2 p (0 : Fin 1)) + t) ?_
  refine (shapeCast_a_a1_apply _ shapeCasts_S1024_S1024x1 p 0).trans ?_
  refine (red_add _ p).trans ?_
  refine Finset.sum_congr rfl fun c _ => ?_
  show Ideal.exp (S (ix2 p c) - broadcastTo S1024x640 (k0_pay2 (F := Ideal) S m0) broadcasts_S1024x1_S1024x640 (ix2 p c)) = _
  rw [broadcastTo_a1_ab_apply]

/-- The first half's copy of the update is the same function. -/
theorem pay11_eq (S : Vec Ideal S1024x640 .f32) (m0 l0 : Vec Ideal S1024x1 .f32) :
    k0_pay11 (F := Ideal) S m0 l0 = k0_pay3 (F := Ideal) S m0 l0 := rfl

/-- The same value as it is stored after the left half. -/
theorem pay_sum11 (S : Vec Ideal S1024x640 .f32) (m0 l0 : Vec Ideal S1024x1 .f32) (p : Fin 1024) :
    k0_pay11 (F := Ideal) S m0 l0 (ix2 p (0 : Fin 1))
      = Ideal.exp (m0 (ix2 p (0 : Fin 1)) - k0_pay2 (F := Ideal) S m0 (ix2 p (0 : Fin 1))) * l0 (ix2 p (0 : Fin 1))
        + ∑ c : Fin 640, Ideal.exp (S (ix2 p c) - k0_pay2 (F := Ideal) S m0 (ix2 p (0 : Fin 1))) := by
  rw [pay11_eq]
  exact pay_sum3 S m0 l0 p

end Cert.KernelIdeal.KV

end
-- ==== Proof.KInv.lean ====
/-
  The kernel launch, point by point, as a streaming log-sum-exp of real scores.

  With real operands A (8192 rows of 2048) and B (32000 rows of 2048) the score of row r and column v is the
  real x r v = Σ_h A r h · B v h. Point t = 25·i + k stores the scores of its 1024 rows against its 1280
  columns. The two carried columns hold, after point t, at each of its rows r: some real μ, and
  exp(−μ) · Σ_{v < 1280·(k+1)} exp (x r v). By induction on the point: the first point of a row of blocks
  starts from (−∞, 0), every other from what the point before left. At k = 24 the stored μ + log l is
  log Σ_v exp (x r v).
-/
import proofs.«402826_j3624952398524_3_alg».proof.Proof.KPieces
import proofs.«402826_j3624952398524_3_alg».proof.Proof.KIdx
import proofs.«402826_j3624952398524_3_alg».proof.Proof.LibStreamSoftmax
import proofs.«402826_j3624952398524_3_alg».proof.Proof.LibLogSumExp
import Idealize.ShloMosaic.PureOps.Ideal.Laws
import Idealize.ShloMosaic.Lib.ValueIdx
import proofs.«402826_j3624952398524_3_alg».proof.Proof.KOuts
import proofs.«402826_j3624952398524_3_alg».proof.Proof.KPay

set_option maxRecDepth 16384

noncomputable section

open Idealize.ShloMosaic Idealize.ShloMosaic.TcCoe Idealize.SL.Sem Idealize.ShloMosaic.ValueIdx

namespace Cert.KernelIdeal.KV

open Cert.KernelIdeal Cert.KernelIdeal.Gen

/-! ## One row, one point: two half updates -/

/-- One half update that starts from a real state. -/
theorem half_carry (μ Z : ℝ) (σ : Fin 640 → ℝ) :
    ∃ μ' : ℝ, max (μ : EReal) ((Finset.univ : Finset (Fin 640)).fold max (⊥ : EReal) (fun c => (σ c : EReal))) = (μ' : EReal)
      ∧ Ideal.exp ((μ : EReal) - (μ' : EReal)) * ((Real.exp (-μ) * Z : ℝ) : EReal)
          + ∑ c : Fin 640, Ideal.exp ((σ c : EReal) - (μ' : EReal))
        = ((Real.exp (-μ') * (Z + ∑ c, Real.exp (σ c)) : ℝ) : EReal) := by
  haveI : Nonempty (Fin 640) := ⟨⟨0, by decide⟩⟩
  obtain ⟨μ', hμ'⟩ := Cert.Attn.max_real μ σ
  exact ⟨μ', hμ', by rw [Cert.Attn.rescale, Cert.Attn.tile_den, Cert.Attn.carry_add]⟩

/-- One half update that starts from the reset state (−∞, 0). -/
theorem half_first (σ : Fin 640 → ℝ) :
    ∃ μ' : ℝ, max (⊥ : EReal) ((Finset.univ : Finset (Fin 640)).fold max (⊥ : EReal) (fun c => (σ c : EReal))) = (μ' : EReal)
      ∧ Ideal.exp ((⊥ : EReal) - (μ' : EReal)) * (0 : EReal)
          + ∑ c : Fin 640, Ideal.exp ((σ c : EReal) - (μ' : EReal))
        = ((Real.exp (-μ') * (0 + ∑ c, Real.exp (σ c)) : ℝ) : EReal) := by
  haveI : Nonempty (Fin 640) := ⟨⟨0, by decide⟩⟩
  obtain ⟨μ', hμ'⟩ := Cert.Attn.max_real_first σ
  exact ⟨μ', hμ', by rw [Cert.Attn.rescale_first, Cert.Attn.tile_den, Cert.Attn.carry_add]⟩

/-- The state a row is in before a point: reset with nothing summed, or real with the sum so far. -/
def RowState (mv lv : EReal) (Z0 : ℝ) : Prop :=
  (mv = ⊥ ∧ lv = 0 ∧ Z0 = 0) ∨ ∃ μ : ℝ, mv = (μ : EReal) ∧ lv = ((Real.exp (-μ) * Z0 : ℝ) : EReal)

/-- Both half updates of a point at row p: from a row state with sum Z0 to a real state with the two halves' exponentials added. -/
theorem row_update (P : Vec Ideal S1024x1280 .f32) (m0 l0 : Vec Ideal S1024x1 .f32) (p : Fin 1024)
    (σ : Fin 1280 → ℝ) (hP : ∀ q : Fin 1280, P (ix2 p q) = ((σ q : ℝ) : EReal)) (Z0 : ℝ)
    (h0 : RowState (m0 (ix2 p (0 : Fin 1))) (l0 (ix2 p (0 : Fin 1))) Z0) :
    ∃ μ' : ℝ, m2 P m0 (ix2 p (0 : Fin 1)) = (μ' : EReal)
      ∧ l2 P m0 l0 (ix2 p (0 : Fin 1))
          = ((Real.exp (-μ') * (Z0 + (∑ c : Fin 640, Real.exp (σ ⟨c.val, by omega⟩)) + ∑ c : Fin 640, Real.exp (σ ⟨640 + c.val, by omega⟩)) : ℝ) : EReal) := by
  have hL : (fun c : Fin 640 => halfL P (ix2 p c)) = fun c => ((σ ⟨c.val, by omega⟩ : ℝ) : EReal) :=
    funext fun c => by rw [halfL_apply, hP]
  have hR : (fun c : Fin 640 => halfR P (ix2 p c)) = fun c => ((σ ⟨640 + c.val, by omega⟩ : ℝ) : EReal) :=
    funext fun c => by rw [halfR_apply, hP]
  -- the first half
  have h1 : ∃ μ1 : ℝ, m1 P m0 (ix2 p (0 : Fin 1)) = (μ1 : EReal)
      ∧ l1 P m0 l0 (ix2 p (0 : Fin 1)) = ((Real.exp (-μ1) * (Z0 + ∑ c : Fin 640, Real.exp (σ ⟨c.val, by omega⟩)) : ℝ) : EReal) := by
    unfold m1 l1
    rw [pay_max12, pay_sum11, pay_max2, hL]
    simp only [hL, halfL_apply, hP]
    rcases h0 with ⟨hm, hl, hz⟩ | ⟨μ, hm, hl⟩
    · obtain ⟨μ1, e1, e2⟩ := half_first (fun c : Fin 640 => σ ⟨c.val, by omega⟩)
      refine ⟨μ1, by rw [hm]; exact e1, ?_⟩
      rw [hm, hl, e1, hz]; exact e2
    · obtain ⟨μ1, e1, e2⟩ := half_carry μ Z0 (fun c : Fin 640 => σ ⟨c.val, by omega⟩)
      refine ⟨μ1, by rw [hm]; exact e1, ?_⟩
      rw [hm, hl, e1]; exact e2
  obtain ⟨μ1, hm1, hl1⟩ := h1
  -- the second half
  unfold m2 l2
  rw [pay_max4, pay_sum3, pay_max2, hR]
  simp only [hR, halfR_apply, hP]
  obtain ⟨μ2, e1, e2⟩ := half_carry μ1 (Z0 + ∑ c : Fin 640, Real.exp (σ ⟨c.val, by omega⟩)) (fun c : Fin 640 => σ ⟨640 + c.val, by omega⟩)
  refine ⟨μ2, by rw [hm1]; exact e1, ?_⟩
  rw [hm1, hl1, e1]; exact e2

/-! ## The blocks of a point, read off the operand arrays -/

variable (m : (ℓ : Loc nD τ sig) → Buf (Elt Ideal) ℓ) (c : Dev nD)
variable (A : Fin 8192 → Fin 2048 → ℝ) (B : Fin 32000 → Fin 2048 → ℝ)

/-- The real score of row r against vocabulary row v. -/
def xr (r : Fin 8192) (v : Fin 32000) : ℝ := ∑ h, A r h * B v h

theorem idx0 : ∀ t : Fin grid0.N, win0_0.index t 0 = t.val / 25 ∧ win0_0.index t 1 = 0 := by decide +kernel
theorem idx1 : ∀ t : Fin grid0.N, win0_1.index t 0 = t.val % 25 ∧ win0_1.index t 1 = 0 := by decide +kernel

/-- Row p of point t's block of hidden rows is row 1024·i + p of the operand. -/
theorem hblk_apply (hA : ∀ r h, (V m c main_call0_v8 : Vec Ideal S8192x2048 .bf16) (ix2 r h) = ((A r h : ℝ) : EReal))
    (t : Fin cfg0.N) (p : Fin 1024) (h : Fin 2048) :
    hblk m c t (ix2 p h) = ((A (rowAt t p) h : ℝ) : EReal) := by
  have hi := idx0 t
  rw [← hA]
  show iblk m c 0 t (ix2 p h) = _
  unfold iblk
  rw [View.read_apply]
  show V m c main_call0_v8 _ = V m c main_call0_v8 _
  congr 1
  funext a
  apply Fin.ext
  match a with
  | ⟨0, _⟩ => show win0_0.index t 0 * 1024 + 1 * p.val = 1024 * (t.val / 25) + p.val; rw [hi.1]; omega
  | ⟨1, _⟩ => show win0_0.index t 1 * 2048 + 1 * h.val = h.val; rw [hi.2]; omega

/-- Row q of point t's block of output-table rows is row 1280·k + q of the operand. -/
theorem wblk_apply (hB : ∀ v h, (V m c main_call0_v9 : Vec Ideal S32000x2048 .bf16) (ix2 v h) = ((B v h : ℝ) : EReal))
    (t : Fin cfg0.N) (q : Fin 1280) (h : Fin 2048) :
    wblk m c t (ix2 q h) = ((B (colAt t q) h : ℝ) : EReal) := by
  have hi := idx1 t
  rw [← hB]
  show iblk m c 1 t (ix2 q h) = _
  unfold iblk
  rw [View.read_apply]
  show V m c main_call0_v9 _ = V m c main_call0_v9 _
  congr 1
  funext a
  apply Fin.ext
  match a with
  | ⟨0, _⟩ => show win0_1.index t 0 * 1280 + 1 * q.val = 1280 * (t.val % 25) + q.val; rw [hi.1]; omega
  | ⟨1, _⟩ => show win0_1.index t 1 * 2048 + 1 * h.val = h.val; rw [hi.2]; omega

/-- The block of scores of point t holds the real scores of its rows against its columns. -/
theorem pblk_apply (hA : ∀ r h, (V m c main_call0_v8 : Vec Ideal S8192x2048 .bf16) (ix2 r h) = ((A r h : ℝ) : EReal))
    (hB : ∀ v h, (V m c main_call0_v9 : Vec Ideal S32000x2048 .bf16) (ix2 v h) = ((B v h : ℝ) : EReal))
    (t : Fin cfg0.N) (p : Fin 1024) (q : Fin 1280) :
    pblk m c t (ix2 p q) = ((xr A B (rowAt t p) (colAt t q) : ℝ) : EReal) := by
  refine (pay_scores (hblk m c t) (wblk m c t) p q).trans ?_
  rw [Finset.sum_congr rfl (fun h _ => by rw [hblk_apply m c A hA t p h, wblk_apply m c B hB t q h])]
  exact Cert.Attn.dot_coe _ _

/-! ## The partition sum so far -/

/-- exp of the score of row r at column j, 0 past the last column. -/
def ex (r : Fin 8192) (j : ℕ) : ℝ := if h : j < 32000 then Real.exp (xr A B r ⟨j, h⟩) else 0

/-- The partition sum of row r over the columns below n. -/
def St (r : Fin 8192) (n : ℕ) : ℝ := ∑ j ∈ Finset.range n, ex A B r j

theorem St_zero (r : Fin 8192) : St A B r 0 = 0 := by unfold St; rw [Finset.range_zero, Finset.sum_empty]

theorem St_full (r : Fin 8192) : St A B r 32000 = ∑ v : Fin 32000, Real.exp (xr A B r v) := by
  unfold St
  rw [Finset.sum_range]
  refine Finset.sum_congr rfl fun v _ => ?_
  unfold ex
  rw [dif_pos v.isLt]

/-- 640 consecutive columns from n on. -/
theorem chunk (r : Fin 8192) (n : ℕ) (hn : n + 640 ≤ 32000) :
    ∑ cc : Fin 640, Real.exp (xr A B r ⟨n + cc.val, by have := cc.isLt; omega⟩) = ∑ j ∈ Finset.range 640, ex A B r (n + j) := by
  rw [Finset.sum_range]
  refine Finset.sum_congr rfl fun cc _ => ?_
  unfold ex
  rw [dif_pos (by have := cc.isLt; omega)]

theorem St_step (r : Fin 8192) (n : ℕ) (hn : n + 1280 ≤ 32000) :
    St A B r n + (∑ cc : Fin 640, Real.exp (xr A B r ⟨n + cc.val, by have := cc.isLt; omega⟩))
      + (∑ cc : Fin 640, Real.exp (xr A B r ⟨n + 640 + cc.val, by have := cc.isLt; omega⟩)) = St A B r (n + 1280) := by
  rw [chunk A B r n (by omega), chunk A B r (n + 640) (by omega)]
  unfold St
  rw [show n + 1280 = n + 640 + 640 from by omega, Finset.sum_range_add, Finset.sum_range_add]

/-! ## The carried columns, by induction on the point -/

/-- After point t each of its rows is in a real state holding the partition sum over the columns of the blocks done so far. -/
def Inv (t : Fin cfg0.N) : Prop :=
  ∀ p : Fin 1024, ∃ μ : ℝ, mcol m c t (ix2 p (0 : Fin 1)) = (μ : EReal)
    ∧ lcol m c t (ix2 p (0 : Fin 1)) = ((Real.exp (-μ) * St A B (rowAt t p) (1280 * (t.val % 25 + 1)) : ℝ) : EReal)

/-- The scores of row p of point t against its 1280 columns, as reals. -/
def sgm (t : Fin cfg0.N) (p : Fin 1024) (q : Fin 1280) : ℝ := xr A B (rowAt t p) (colAt t q)

variable (hA : ∀ r h, (V m c main_call0_v8 : Vec Ideal S8192x2048 .bf16) (ix2 r h) = ((A r h : ℝ) : EReal))
variable (hB : ∀ v h, (V m c main_call0_v9 : Vec Ideal S32000x2048 .bf16) (ix2 v h) = ((B v h : ℝ) : EReal))
include hA hB

/-- The update of a point's row, in terms of the partition sum: from the sum over the columns below 1280·k to the sum below 1280·(k+1). -/
theorem row_step (t : Fin cfg0.N) (p : Fin 1024) (m0 l0 : Vec Ideal S1024x1 .f32)
    (h0 : RowState (m0 (ix2 p (0 : Fin 1))) (l0 (ix2 p (0 : Fin 1))) (St A B (rowAt t p) (1280 * (t.val % 25)))) :
    ∃ μ' : ℝ, m2 (pblk m c t) m0 (ix2 p (0 : Fin 1)) = (μ' : EReal)
      ∧ l2 (pblk m c t) m0 l0 (ix2 p (0 : Fin 1))
          = ((Real.exp (-μ') * St A B (rowAt t p) (1280 * (t.val % 25 + 1)) : ℝ) : EReal) := by
  obtain ⟨μ', e1, e2⟩ := row_update (pblk m c t) m0 l0 p (sgm A B t p) (fun q => pblk_apply m c A B hA hB t p q) _ h0
  refine ⟨μ', e1, e2.trans ?_⟩
  have hk : t.val % 25 < 25 := Nat.mod_lt _ (by decide)
  have hs := St_step A B (rowAt t p) (1280 * (t.val % 25)) (by omega)
  rw [show 1280 * (t.val % 25 + 1) = 1280 * (t.val % 25) + 1280 from by ring, ← hs]
  rfl

theorem inv : ∀ (n : ℕ) (hn : n < cfg0.N), Inv m c A B ⟨n, hn⟩
  | 0, hn => fun p => by
    have h0 : (⟨0, hn⟩ : Fin cfg0.N).val % 25 = 0 := rfl
    have h1 : ¬(⟨0, hn⟩ : Fin cfg0.N).val % 25 = 24 := by show ¬(0 % 25 = 24); decide
    rw [mcol_A m c ⟨0, hn⟩ h0 h1, lcol_A m c ⟨0, hn⟩ h0 h1]
    refine row_step m c A B hA hB ⟨0, hn⟩ p (k0_pay6 (F := Ideal)) (k0_pay7 (F := Ideal)) (Or.inl ⟨pay_reset_m p, pay_reset_l p, ?_⟩)
    show St A B _ (1280 * (0 % 25)) = 0
    rw [Nat.zero_mod, Nat.mul_zero]; exact St_zero A B _
  | n + 1, hn => fun p => by
    have hN : cfg0.N = 200 := N200
    by_cases h0 : (n + 1) % 25 = 0
    · have h1 : ¬(n + 1) % 25 = 24 := by omega
      rw [mcol_A m c ⟨n + 1, hn⟩ h0 h1, lcol_A m c ⟨n + 1, hn⟩ h0 h1]
      refine row_step m c A B hA hB ⟨n + 1, hn⟩ p (k0_pay6 (F := Ideal)) (k0_pay7 (F := Ideal)) (Or.inl ⟨pay_reset_m p, pay_reset_l p, ?_⟩)
      show St A B _ (1280 * ((n + 1) % 25)) = 0
      rw [h0, Nat.mul_zero]; exact St_zero A B _
    · obtain ⟨μ, hm, hl⟩ := inv n (Nat.lt_of_succ_lt hn) p
      have hprev : (tprev (⟨n + 1, hn⟩ : Fin cfg0.N)) = ⟨n, Nat.lt_of_succ_lt hn⟩ := Fin.ext (by simp)
      have hrow : rowAt (⟨n, Nat.lt_of_succ_lt hn⟩ : Fin cfg0.N) p = rowAt (⟨n + 1, hn⟩ : Fin cfg0.N) p := by
        unfold rowAt; apply Fin.ext; show 1024 * (n / 25) + p.val = 1024 * ((n + 1) / 25) + p.val; omega
      have hcol : 1280 * (n % 25 + 1) = 1280 * ((n + 1) % 25) := by omega
      have hst : RowState (mcol m c (tprev ⟨n + 1, hn⟩) (ix2 p (0 : Fin 1))) (lcol m c (tprev ⟨n + 1, hn⟩) (ix2 p (0 : Fin 1)))
          (St A B (rowAt (⟨n + 1, hn⟩ : Fin cfg0.N) p) (1280 * ((⟨n + 1, hn⟩ : Fin cfg0.N).val % 25))) := by
        rw [hprev]
        refine Or.inr ⟨μ, hm, ?_⟩
        rw [hl, hrow]
        show _ = ((Real.exp (-μ) * St A B _ (1280 * ((n + 1) % 25)) : ℝ) : EReal)
        rw [← hcol]
      by_cases h1 : (n + 1) % 25 = 24
      · rw [mcol_C m c ⟨n + 1, hn⟩ h0 h1, lcol_C m c ⟨n + 1, hn⟩ h0 h1]
        exact row_step m c A B hA hB ⟨n + 1, hn⟩ p _ _ hst
      · rw [mcol_B m c ⟨n + 1, hn⟩ h0 h1, lcol_B m c ⟨n + 1, hn⟩ h0 h1]
        exact row_step m c A B hA hB ⟨n + 1, hn⟩ p _ _ hst

/-! ## What the launch's two outputs hold, point by point -/

/-- The stored scores. -/
theorem outs_scores (t : Fin cfg0.N) (p : Fin 1024) (q : Fin 1280) :
    (outsAt0 m c t.val t.isLt).1 (ix2 p q) = ((xr A B (rowAt t p) (colAt t q) : ℝ) : EReal) := by
  rw [scores_all m c t]
  exact pblk_apply m c A B hA hB t p q

/-- The stored log-sum-exp at the last point of a row of blocks. -/
theorem outs_lse (t : Fin cfg0.N) (ht : t.val % 25 = 24) (p : Fin 1024) :
    (outsAt0 m c t.val t.isLt).2.1 (ix2 p (0 : Fin 1))
      = ((Real.log (∑ v : Fin 32000, Real.exp (xr A B (rowAt t p) v)) : ℝ) : EReal) := by
  have hN : cfg0.N = 200 := N200
  have h0 : ¬t.val % 25 = 0 := by omega
  rw [lse_C m c t h0 ht]
  refine (pay_lse _ _ p).trans ?_
  -- the state this point leaves is the invariant's
  obtain ⟨μ, hm, hl⟩ := inv m c A B hA hB t.val t.isLt p
  have hmc : mcol m c t = m2 (pblk m c t) (mcol m c (tprev t)) := mcol_C m c t h0 ht
  have hlc : lcol m c t = l2 (pblk m c t) (mcol m c (tprev t)) (lcol m c (tprev t)) := lcol_C m c t h0 ht
  rw [← hmc, ← hlc]
  have hm' : mcol m c t (ix2 p (0 : Fin 1)) = (μ : EReal) := hm
  have hl' : lcol m c t (ix2 p (0 : Fin 1)) = ((Real.exp (-μ) * St A B (rowAt t p) (1280 * (t.val % 25 + 1)) : ℝ) : EReal) := hl
  rw [hm', hl', ht, show 1280 * (24 + 1) = 32000 from rfl, St_full]
  exact Cert.LogSumExp.stream_final μ _ (Cert.LogSumExp.sum_exp_pos _)

end Cert.KernelIdeal.KV

end
-- ==== Proof.KFinal.lean ====
/-
  FROM BLOCKS TO ARRAYS for the kernel launch's two output windows.

  The grid has 200 points, point t = 25·i + k. The scores' window (array f32[8192, 32000], block 1024 × 1280, block
  index (i, k)) is written back at every point; the row statistic's window (array f32[8192, 1], block 1024 × 1, block
  index (i, 0)) is written back only at the last point of each row block, t % 25 = 24.

  An element (p, q) of the block written back at point t sits in its array at row 1024·(t / 25) + p and column
  1280·(t % 25) + q (column 0 for the row statistic): a block's coordinate is the block index times the block size plus
  the coordinate inside the block. So when every written-back block holds, element by element, one function of the
  array's row and column, each write-back writes a block of that one function; and since every index (r, v) of the
  scores array is in the block of the point 25·(r / 1024) + v / 1280, and every index (r, 0) of the row-statistic array
  in the block of the writing-back point 25·(r / 1024) + 24, each array ends holding that function everywhere.
-/
import proofs.«402826_j3624952398524_3_alg».proof.Proof.Gen.KernelIdeal.Frame
import Idealize.ShloMosaic.Lib.Pipeline.Value
import Idealize.ShloMosaic.Lib.ValueIdx
import proofs.«402826_j3624952398524_3_alg».proof.Proof.KIdx

noncomputable section

namespace Cert.KernelIdeal.KV

open Cert.KernelIdeal Cert.KernelIdeal.Gen Idealize.ShloMosaic Idealize.ShloMosaic.TcCoe Idealize.ShloMosaic.ValueIdx
open Idealize.ShloMosaic.Pipeline (Dat)

variable {F : FTy → Type} [FloatOps F]
variable (m : (ℓ : Loc nD τ sig) → Buf (Elt F) ℓ)

/-! ## The scores' window (window 2): written back at every point -/

/-- The printed index map of the scores' window, decided over the grid: block row t / 25, block column t % 25. -/
theorem idx_scores : ∀ t : Fin cfg0.N, win0_2.index t (0 : Fin 2) = t.val / 25 ∧ win0_2.index t (1 : Fin 2) = t.val % 25 :=
  (by decide +kernel : ∀ t : Fin grid0.N, win0_2.index t (0 : Fin 2) = t.val / 25 ∧ win0_2.index t (1 : Fin 2) = t.val % 25)

/-- The whole scores array as one function of its index. -/
def G2 (Xf : Fin 8192 → Fin 32000 → F .f32) : S8192x32000.Idx → Elt F .f32 :=
  fun i => Xf ⟨(i 0).val, idx2_lt0 i⟩ ⟨(i 1).val, idx2_lt1 i⟩

/-- What point t writes back into the scores array is block t of the one function: element (p, q) of the block
    sits at row 1024·(t / 25) + p and column 1280·(t % 25) + q. -/
theorem flushed_scores (c : Dev nD) (Xf : Fin 8192 → Fin 32000 → F .f32)
    (hout : ∀ (t : Fin cfg0.N) (p : Fin 1024) (q : Fin 1280),
      (outsAt0 m c t.val t.isLt).1 (ix2 p q) = Xf (rowAt t p) (colAt t q)) (t : Fin cfg0.N) :
    (dats m 0 c).flushed 2 t = ((cfg0.win 2).blk t).view.read (Elt F) (G2 Xf) := by
  show (cfg0.win 2).cut (grid0.coords t) ((dats m 0 c).after 2 t) = _
  rw [after0_2]
  funext y
  have hp : (y 0).val < 1024 := (y 0).isLt
  have hq : (y 1).val < 1280 := (y 1).isLt
  obtain ⟨e0, e1⟩ := idx_scores t
  have hx : win0_2.xinj (grid0.coords t) y = ix2 (⟨(y 0).val, hp⟩ : Fin 1024) (⟨(y 1).val, hq⟩ : Fin 1280) := by
    funext a
    match a with
    | ⟨0, _⟩ => rfl
    | ⟨1, _⟩ => rfl
  show (outsAt0 m c t.val t.isLt).1 (win0_2.xinj (grid0.coords t) y) = G2 Xf (((cfg0.win 2).blk t).view.emb y)
  rw [hx, hout]
  unfold G2
  congr 1
  · apply Fin.ext
    show 1024 * (t.val / 25) + (y 0).val = win0_2.index t (0 : Fin 2) * 1024 + 1 * (y 0).val
    rw [e0]; omega
  · apply Fin.ext
    show 1280 * (t.val % 25) + (y 1).val = win0_2.index t (1 : Fin 2) * 1280 + 1 * (y 1).val
    rw [e1]; omega

/-- An index of the scores array is in point t's block iff each coordinate is in the block's range on its axis. -/
theorem mem_blk_scores (t : Fin cfg0.N) (i : S8192x32000.Idx) :
    i ∈ ((cfg0.win 2).blk t).view.set ↔ ∀ a : Fin 2, win0_2.index t a * S1024x1280.size a ≤ (i a).val ∧ (i a).val < win0_2.index t a * S1024x1280.size a + S1024x1280.size a := by
  show i ∈ ((View.whole main_call0_v24_0).slice (win0_2.rect t)).set ↔ _
  rw [View.set_slice_whole, Rect.mem_set_unit]
  exact Iff.rfl

/-- Every index (r, v) of the scores array is in the block of the point 25·(r / 1024) + v / 1280. -/
theorem cover_scores (i : S8192x32000.Idx) :
    ∃ t : Fin cfg0.N, (cfg0.win 2).flush t = true ∧ i ∈ ((cfg0.win 2).blk t).view.set := by
  have hi0 : (i 0).val < 8192 := idx2_lt0 i
  have hi1 : (i 1).val < 32000 := idx2_lt1 i
  have hlt : 25 * ((i 0).val / 1024) + (i 1).val / 1280 < cfg0.N := lt_of_lt_of_eq (by omega) N200.symm
  refine ⟨⟨25 * ((i 0).val / 1024) + (i 1).val / 1280, hlt⟩, flush0_2 _, ?_⟩
  obtain ⟨e0, e1⟩ := idx_scores ⟨25 * ((i 0).val / 1024) + (i 1).val / 1280, hlt⟩
  have f0 : (25 * ((i 0).val / 1024) + (i 1).val / 1280) / 25 = (i 0).val / 1024 := by omega
  have f1 : (25 * ((i 0).val / 1024) + (i 1).val / 1280) % 25 = (i 1).val / 1280 := by omega
  rw [mem_blk_scores]
  intro a
  match a with
  | ⟨0, _⟩ =>
    show win0_2.index ⟨25 * ((i 0).val / 1024) + (i 1).val / 1280, hlt⟩ (0 : Fin 2) * 1024 ≤ (i 0).val ∧ (i 0).val < win0_2.index ⟨25 * ((i 0).val / 1024) + (i 1).val / 1280, hlt⟩ (0 : Fin 2) * 1024 + 1024
    rw [e0]
    show (25 * ((i 0).val / 1024) + (i 1).val / 1280) / 25 * 1024 ≤ (i 0).val ∧ (i 0).val < (25 * ((i 0).val / 1024) + (i 1).val / 1280) / 25 * 1024 + 1024
    rw [f0]; omega
  | ⟨1, _⟩ =>
    show win0_2.index ⟨25 * ((i 0).val / 1024) + (i 1).val / 1280, hlt⟩ (1 : Fin 2) * 1280 ≤ (i 1).val ∧ (i 1).val < win0_2.index ⟨25 * ((i 0).val / 1024) + (i 1).val / 1280, hlt⟩ (1 : Fin 2) * 1280 + 1280
    rw [e1]
    show (25 * ((i 0).val / 1024) + (i 1).val / 1280) % 25 * 1280 ≤ (i 1).val ∧ (i 1).val < (25 * ((i 0).val / 1024) + (i 1).val / 1280) % 25 * 1280 + 1280
    rw [f1]; omega

/-- THE SCORES ARRAY after the run: element (r, v) is the one function at (r, v), when every point's block holds it. -/
theorem final_scores (c : Dev nD) (Xf : Fin 8192 → Fin 32000 → F .f32)
    (hout : ∀ (t : Fin cfg0.N) (p : Fin 1024) (q : Fin 1280),
      (outsAt0 m c t.val t.isLt).1 (ix2 p q) = Xf (rowAt t p) (colAt t q)) :
    ∀ (r : Fin 8192) (v : Fin 32000), ((dats m 0 c).arrAt 2 cfg0.N : Vec F S8192x32000 .f32) (ix2 r v) = Xf r v := by
  intro r v
  have h := (dats m 0 c).arrAt_eq_of_cover 2 (G2 Xf) (fun t _ => flushed_scores m c Xf hout t) cover_scores
  exact congrFun h (ix2 r v)

/-! ## The row statistic's window (window 3): written back at the last point of each row block only -/

/-- The printed index map of the row statistic's window: block row t / 25, block column 0. -/
theorem idx_lse : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

/-- The whole row-statistic array as one function of its index. -/
def G3 (Lf : Fin 8192 → F .f32) : S8192x1.Idx → Elt F .f32 :=
  fun i => Lf ⟨(i 0).val, idx2_lt0 i⟩

/-- What a point t with t % 25 = 24 writes back into the row-statistic array is block t of the one function: element
    (p, 0) of the block sits at row 1024·(t / 25) + p. -/
theorem flushed_lse (c : Dev nD) (Lf : Fin 8192 → F .f32)
    (hout : ∀ (t : Fin cfg0.N), t.val % 25 = 24 → ∀ (p : Fin 1024),
      (outsAt0 m c t.val t.isLt).2.1 (ix2 p (0 : Fin 1)) = Lf (rowAt t p))
    (t : Fin cfg0.N) (hf : (cfg0.win 3).flush t = true) :
    (dats m 0 c).flushed 3 t = ((cfg0.win 3).blk t).view.read (Elt F) (G3 Lf) := by
  have h24 : t.val % 25 = 24 := (flush0_3 t).mp hf
  show (cfg0.win 3).cut (grid0.coords t) ((dats m 0 c).after 3 t) = _
  rw [after0_3]
  funext y
  have hp : (y 0).val < 1024 := (y 0).isLt
  have hq : (y 1).val < 1 := (y 1).isLt
  obtain ⟨e0, e1⟩ := idx_lse t
  have hx : win0_3.xinj (grid0.coords t) y = ix2 (⟨(y 0).val, hp⟩ : Fin 1024) (0 : Fin 1) := by
    funext a
    match a with
    | ⟨0, _⟩ => rfl
    | ⟨1, _⟩ => exact Fin.ext (by show (y 1).val = 0; omega)
  show (outsAt0 m c t.val t.isLt).2.1 (win0_3.xinj (grid0.coords t) y) = G3 Lf (((cfg0.win 3).blk t).view.emb y)
  rw [hx, hout t h24]
  unfold G3
  congr 1
  apply Fin.ext
  show 1024 * (t.val / 25) + (y 0).val = win0_3.index t (0 : Fin 2) * 1024 + 1 * (y 0).val
  rw [e0]; omega

/-- An index of the row-statistic array is in point t's block iff each coordinate is in the block's range on its axis. -/
theorem mem_blk_lse (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_call0_v24_1).slice (win0_3.rect t)).set ↔ _
  rw [View.set_slice_whole, Rect.mem_set_unit]
  exact Iff.rfl

/-- Every index (r, 0) of the row-statistic array is in the block of the writing-back point 25·(r / 1024) + 24. -/
theorem cover_lse (i : S8192x1.Idx) :
    ∃ t : Fin cfg0.N, (cfg0.win 3).flush t = true ∧ i ∈ ((cfg0.win 3).blk t).view.set := by
  have hi0 : (i 0).val < 8192 := idx2_lt0 i
  have hi1 : (i 1).val < 1 := idx2_lt1 i
  have hlt : 25 * ((i 0).val / 1024) + 24 < cfg0.N := lt_of_lt_of_eq (by omega) N200.symm
  have f0 : (25 * ((i 0).val / 1024) + 24) / 25 = (i 0).val / 1024 := by omega
  have f1 : (25 * ((i 0).val / 1024) + 24) % 25 = 24 := by omega
  refine ⟨⟨25 * ((i 0).val / 1024) + 24, hlt⟩, (flush0_3 _).mpr f1, ?_⟩
  obtain ⟨e0, e1⟩ := idx_lse ⟨25 * ((i 0).val / 1024) + 24, hlt⟩
  rw [mem_blk_lse]
  intro a
  match a with
  | ⟨0, _⟩ =>
    show win0_3.index ⟨25 * ((i 0).val / 1024) + 24, hlt⟩ (0 : Fin 2) * 1024 ≤ (i 0).val ∧ (i 0).val < win0_3.index ⟨25 * ((i 0).val / 1024) + 24, hlt⟩ (0 : Fin 2) * 1024 + 1024
    rw [e0]
    show (25 * ((i 0).val / 1024) + 24) / 25 * 1024 ≤ (i 0).val ∧ (i 0).val < (25 * ((i 0).val / 1024) + 24) / 25 * 1024 + 1024
    rw [f0]; omega
  | ⟨1, _⟩ =>
    show win0_3.index ⟨25 * ((i 0).val / 1024) + 24, hlt⟩ (1 : Fin 2) * 1 ≤ (i 1).val ∧ (i 1).val < win0_3.index ⟨25 * ((i 0).val / 1024) + 24, hlt⟩ (1 : Fin 2) * 1 + 1
    rw [e1]; omega

/-- THE ROW-STATISTIC ARRAY after the run: element (r, 0) is the one function at r, when the block of every point that
    writes back holds it. -/
theorem final_lse (c : Dev nD) (Lf : Fin 8192 → F .f32)
    (hout : ∀ (t : Fin cfg0.N), t.val % 25 = 24 → ∀ (p : Fin 1024),
      (outsAt0 m c t.val t.isLt).2.1 (ix2 p (0 : Fin 1)) = Lf (rowAt t p)) :
    ∀ (r : Fin 8192), ((dats m 0 c).arrAt 3 cfg0.N : Vec F S8192x1 .f32) (ix2 r (0 : Fin 1)) = Lf r := by
  intro r
  have h := (dats m 0 c).arrAt_eq_of_cover 3 (G3 Lf) (fun t hf => flushed_lse m c Lf hout t hf) cover_lse
  exact congrFun h (ix2 r (0 : Fin 1))

end Cert.KernelIdeal.KV

end
-- ==== Proof.Spec.lean ====
/-
  The loss both programs compute, as one expression of real data.

  For every batch row b and position s < 2047 the logits of (b, s) are a real row L = Lg b s of 32000
  scores, and the target is the label word at (b, s + 1). A label equal to −100 contributes 0 and is not
  counted. Otherwise the word goes through the position arithmetic of a take along the vocabulary axis:
  a negative word w becomes w + 32000; the take is in bounds when 0 ≤ w ≤ 31999, and then it reads column w,
  contributing log (∑ᵥ exp (L v)) − L w; out of bounds the take's fill value is the junk −∞ and the
  contribution is +∞ on both sides. The loss is the sum of the contributions (added to an initial 0)
  divided by the larger of the count of counted labels and 1.
-/
import Idealize.ShloMosaic.PureOps.Ideal
import Idealize.ShloMosaic.Lib.ValueIdx
import Mathlib.Analysis.SpecialFunctions.Log.Basic

noncomputable section

namespace Cert.Spec

open Idealize.ShloMosaic

/-- A negative position w is read as w + 32000. -/
def wrapW (l : BitVec 32) : BitVec 32 := Scalar.select (IntOp.cmpi .slt l 0#32) (IntOp.addi l 32000#32) l

/-- The take is in bounds: 0 ≤ w ≤ 31999, signed. -/
def inbW (p : BitVec 32) : BitVec 1 := IntOp.andi (IntOp.cmpi .sge p 0#32) (IntOp.cmpi .sle p 31999#32)

/-- The column a take reads: the word read signed, clamped into [0, 31999]. -/
def colW (p : BitVec 32) : Fin 32000 := ⟨min p.toInt.toNat 31999, by omega⟩

/-- The label is counted: it is not −100. -/
def validW (l : BitVec 32) : BitVec 1 := IntOp.cmpi .ne l 4294967196#32

/-- The label with an uncounted one replaced by 0. -/
def safeW (l : BitVec 32) : BitVec 32 := Scalar.select (validW l) l 0#32

/-- The partition sum of a row of real scores. -/
def zsum (L : Fin 32000 → ℝ) : ℝ := ∑ v, Real.exp (L v)

theorem zsum_pos (L : Fin 32000 → ℝ) : 0 < zsum L :=
  Finset.sum_pos (fun v _ => Real.exp_pos _) ⟨⟨0, by decide⟩, Finset.mem_univ _⟩

/-- One row's contribution, from its real scores and its target word. -/
def nllW (L : Fin 32000 → ℝ) (l : BitVec 32) : EReal :=
  if validW l = 1#1 then
    (if inbW (wrapW (safeW l)) = 1#1 then ((Real.log (zsum L) - L (colW (wrapW (safeW l))) : ℝ) : EReal) else ⊤)
  else 0

/-- Position s < 2047 among the 2048 positions. -/
def sw (s : Fin 2047) : Fin 2048 := ⟨s.val, by omega⟩

/-- The position after it. -/
def sn (s : Fin 2047) : Fin 2048 := ⟨s.val + 1, by omega⟩

/-- Row 2048·b + s of the 8192 flattened rows. -/
def row (b : Fin 4) (s : Fin 2048) : Fin 8192 := ⟨2048 * b.val + s.val, by omega⟩

/-- Row 2047·b + s of the 8188 flattened rows that leave out each batch row's last position. -/
def row' (b : Fin 4) (s : Fin 2047) : Fin 8188 := ⟨2047 * b.val + s.val, by omega⟩

variable (Lg : Fin 4 → Fin 2048 → Fin 32000 → ℝ) (lab : Fin 4 → Fin 2048 → BitVec 32)

/-- The sum of the contributions. -/
def num : EReal := ∑ b : Fin 4, ∑ s : Fin 2047, nllW (Lg b (sw s)) (lab b (sn s))

/-- The number of counted labels. -/
def cnt : ℕ := ∑ b : Fin 4, ∑ s : Fin 2047, if validW (lab b (sn s)) = 1#1 then 1 else 0

/-- The loss. -/
def loss : EReal := Ideal.div ((0 : EReal) + num Lg lab) (max (((cnt lab : ℕ) : ℝ) : EReal) 1)

/-- The real logits of hidden rows Hd against the output table Wr. -/
def lg (Hd : Fin 4 → Fin 2048 → Fin 2048 → ℝ) (Wr : Fin 32000 → Fin 2048 → ℝ) (b : Fin 4) (s : Fin 2048) (v : Fin 32000) : ℝ :=
  ∑ h, Hd b s h * Wr v h

end Cert.Spec

end
-- ==== Proof.LibTakeAlong.lean ====
/-
  A take along the second axis of an n × V table, one column per row, read at a row; and an and-reduction over an
  axis of extent one.

  The take: the table's row axis is a batching axis shared with the n × 1 × 1 array of start positions, the column
  axis is indexed by the row's start position and collapsed, and the result is n × 1. Its element (r, 0) is the
  table's entry (r, c) where c is the start position of row r read as a signed integer and clamped into [0, V − 1].
  The reduction: over an axis with the single coordinate 0, folding "and" from the initial bit 1 returns the operand.
-/
import Idealize.ShloMosaic.PureOps
import Idealize.ShloMosaic.Lib.ValueIdx
import Idealize.ShloMosaic.Lib.DynamicIndex
import Idealize.ShloMosaic.PureOps.Reduce

namespace Cert.TakeAlong
open Idealize.ShloMosaic Idealize.ShloMosaic.ValueIdx

/-- The dimension numbers of a take along the second axis of an n × V table by an n × 1 × 1 array of start positions: the row axis is a batching axis of table and positions, the column axis is indexed and collapsed, no offset axes, slice sizes 1 × 1. -/
abbrev takeDims (n V : Nat)
    (wf : GatherDims.WF ⟨2, ![n, V]⟩ ⟨3, ![n, 1, 1]⟩ ⟨2, ![n, 1]⟩ [] [1] [0] [1] [0] 2 ![1, 1]) :
    GatherDims ⟨2, ![n, V]⟩ ⟨3, ![n, 1, 1]⟩ ⟨2, ![n, 1]⟩ where
  offsetDims := []
  collapsedSliceDims := [1]
  operandBatchingDims := [0]
  startIndicesBatchingDims := [0]
  startIndexMap := [1]
  indexVectorDim := 2
  sliceSizes := ![1, 1]
  wf := wf

/-- The column a start position selects: the word read signed and clamped into [0, V − 1]. -/
def colOf {w : Nat} (V : Nat) (hV : 0 < V) (p : BitVec w) : Fin V := ⟨min p.toInt.toNat (V - 1), by omega⟩

/-- The take read at row r: the table's entry of row r at the column the row's start position selects. -/
theorem gather_take_along_apply {α : Type} {n V w : Nat} (hV : 0 < V)
    (wf : GatherDims.WF ⟨2, ![n, V]⟩ ⟨3, ![n, 1, 1]⟩ ⟨2, ![n, 1]⟩ [] [1] [0] [1] [0] 2 ![1, 1])
    (x : (⟨2, ![n, V]⟩ : Shape).Idx → α) (idx : IVec ⟨3, ![n, 1, 1]⟩ w) (r : Fin n) :
    Host.gather (takeDims n V wf) x idx (ix2 r (0 : Fin 1)) = x (ix2 r (colOf V hV (idx (ix3 r (0 : Fin 1) (0 : Fin 1))))) := by
  unfold Host.gather
  refine congrArg x ?_
  funext a
  refine Fin.ext ?_
  match a with
  | ⟨0, _⟩ =>
    show (takeDims n V wf).start (ix2 r (0 : Fin 1)) idx 0 + (takeDims n V wf).batchCoord (ix2 r (0 : Fin 1)) 0
      + (takeDims n V wf).offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (takeDims n V wf).operandBatchingDims from List.mem_singleton.mpr rfl)]
    rfl
  | ⟨1, _⟩ =>
    show (takeDims n V wf).start (ix2 r (0 : Fin 1)) idx 1 + (takeDims n V wf).batchCoord (ix2 r (0 : Fin 1)) 1
      + (takeDims n V wf).offCoord (ix2 r (0 : Fin 1)) 1 = (colOf V hV (idx (ix3 r (0 : Fin 1) (0 : Fin 1)))).val
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeDims n V wf).startIndexMap from List.mem_singleton.mpr rfl)]
    have hsi : (takeDims n V wf).siIdx (ix2 r (0 : Fin 1)) ⟨List.idxOf (1 : Fin 2) (takeDims n V wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- An and-reduction over an axis of extent one, from the initial value 1, is the operand. -/
theorem reduce_andi_unit_axis {n : Nat} (x : IVec ⟨3, ![n, 1, 1]⟩ 1) (init : IVec ⟨0, ![]⟩ 1) (hinit : init ix0 = 1#1)
    (h' : (⟨3, ![n, 1, 1]⟩ : Shape).ReducesTo [2] ⟨2, ![n, 1]⟩) (hu : 0 < (⟨0, ![]⟩ : Shape).numel) (r : Fin n) :
    Host.reduce IntOp.andi x init h' hu (ix2 r (0 : Fin 1)) = x (ix3 r (0 : Fin 1) (0 : Fin 1)) := by
  have h : (⟨3, ![n, 1, 1]⟩ : Shape).Reduces [2] ⟨2, ![n, 1]⟩ := ⟨h'.1, Nat.succ_pos 1, h'.2⟩
  rw [Host.reduce_eq_fold_single IntOp.andi x init h' h hu (ix2 r (0 : Fin 1)), eq_ix0 (Shape.Idx.first hu), hinit]
  -- the reduced axis has the one coordinate 0
  have huniv : (Finset.univ : Finset (Fin ((⟨3, ![n, 1, 1]⟩ : Shape).size 2))) = {⟨0, Nat.one_pos⟩} := by
    ext k
    simp only [Finset.mem_univ, Finset.mem_singleton, true_iff]
    exact Fin.ext (show k.val = 0 from Nat.lt_one_iff.mp k.isLt)
  -- and over row r that coordinate's index is (r, 0, 0)
  have hl : h.lift (ix2 r (0 : Fin 1)) ⟨0, Nat.one_pos⟩ = ix3 r (0 : Fin 1) (0 : Fin 1) := by
    funext c; refine Fin.ext ?_
    match c with
    | ⟨0, _⟩ => rfl
    | ⟨1, _⟩ => rfl
    | ⟨2, _⟩ => rfl
  rw [huniv, Finset.fold_singleton, Function.comp_apply, hl]
  show x (ix3 r (0 : Fin 1) (0 : Fin 1)) &&& 1#1 = _
  generalize x (ix3 r (0 : Fin 1) (0 : Fin 1)) = b
  revert b; decide

end Cert.TakeAlong
-- ==== Proof.KSpec.lean ====
/-
  The host lines after the kernel launch, read at the extended reals with real data.

  The launch returns the scores X (8192 rows of 32000) and the row-wise log-sum-exp L (8192 × 1). Row
  2048·b + s of the 8192 is position s of batch row b. The labels are shifted one position left, so row (b, s)
  with s < 2047 carries the label at (b, s + 1), and the last position of every batch row is masked out. For a
  row that is counted the take along the vocabulary axis reads the row's score at its label (a negative label
  moved up by 32000; out of bounds the fill value, which denotes ⊥), and the row's entry is
  −(score − log Σᵥ exp) = log Σᵥ exp − score, or +∞ out of bounds; a row that is not counted enters 0. The loss
  is the sum of the entries (added to the initial 0) divided by the larger of the number of counted rows and 1:
  the specification's loss. The returned scores are X laid out as 4 × 2048 × 32000.
-/
import proofs.«402826_j3624952398524_3_alg».proof.Proof.KHostDefs
import proofs.«402826_j3624952398524_3_alg».proof.Proof.Spec
import proofs.«402826_j3624952398524_3_alg».proof.Proof.LibTakeAlong
import proofs.«402826_j3624952398524_3_alg».proof.Proof.LibLogSumExp
import proofs.«402826_j3624952398524_3_alg».proof.Proof.LibStreamSoftmax
import Idealize.ShloMosaic.PureOps.Ideal
import Idealize.ShloMosaic.PureOps.Ideal.Laws
import Idealize.ShloMosaic.Lib.ValueIdx
import Idealize.ShloMosaic.Lib.IdealHost
import Idealize.ShloMosaic.Lib.Affine
import Idealize.ShloMosaic.Lib.Pipeline.Value
import Idealize.ShloMosaic.Lib.StableHlo.Predicate
import Mathlib.Algebra.BigOperators.Fin
import Mathlib.Data.EReal.Operations

noncomputable section

namespace Cert.KernelIdeal.KSpec

open Cert.KernelIdeal Cert.KernelIdeal.KV Idealize.ShloMosaic Idealize.ShloMosaic.ValueIdx
open Cert.Spec

/-! ## The shifted labels, the mask and the masked labels at a row -/

/-- Before the last position the shifted labels read the label one position later. -/
theorem shiftRaw_apply (lab : IVec S4x2048 32) (b : Fin 4) (s : Fin 2047) :
    shiftRaw lab (ix2 b (sw s)) = lab (ix2 b (sn s)) := by
  unfold shiftRaw
  refine (concatenate_pair_apply_left (t := S4x2048) (s₁ := S4x2047) (s₂ := S4x1) (1 : Fin 2) _ _ _ (ix2 b (sw s)) rfl (ix2 b s) ?_).trans ?_
  · intro a
    match a with
    | ⟨0, _⟩ => rfl
    | ⟨1, _⟩ => rfl
  · refine extractStridedSlice_apply _ lab _ (ix2 b s) (ix2 b (sn s)) ?_
    intro a
    match a with
    | ⟨0, _⟩ => exact (Nat.zero_add _).symm
    | ⟨1, _⟩ => exact Nat.add_comm _ _

/-- The position bit: position s is before the last. -/
def posW (s : Fin 2048) : BitVec 1 := IntOp.cmpi .slt (BitVec.ofNat 32 s.val) 2047#32

theorem posW_sw (s : Fin 2047) : posW (sw s) = 1#1 := by
  unfold posW
  rw [IntOp.cmpi_slt, StableHlo.Predicate.toInt_ofNat_small _ (by have := s.isLt; show s.val < 2 ^ 31; omega)]
  have : (2047#32 : BitVec 32).toInt = 2047 := by decide
  rw [this]
  have := s.isLt
  show (s.val : Int) < 2047
  omega

theorem posW_last : posW (Fin.last 2047) = 0#1 := by decide

/-- The mask at (b, s): the position bit and the shifted label's being counted. -/
theorem validMask_apply (lab : IVec S4x2048 32) (b : Fin 4) (s : Fin 2048) :
    validMask lab (ix2 b s) = IntOp.andi (posW s) (validW (shiftRaw lab (ix2 b s))) := rfl

theorem andi_one_left (x : BitVec 1) : IntOp.andi 1#1 x = x := by revert x; decide

theorem andi_zero_left (x : BitVec 1) : IntOp.andi 0#1 x = 0#1 := by revert x; decide

/-- Entry (row b s, 0) of the 8192 × 1 column is entry (b, s) of the 4 × 2048 array. -/
theorem col_apply {α : Type} (x : S4x2048.Idx → α) (h : S4x2048.ShapeCasts S8192x1) (b : Fin 4) (s : Fin 2048) :
    shapeCast S8192x1 x h (ix2 (row b s) (0 : Fin 1)) = x (ix2 b s) := by
  refine shapeCast_apply x h _ (ix2 b s) ?_
  rw [Shape.rowMajor_val_two, Shape.rowMajor_val_two]
  show b.val * 2048 + s.val = (2048 * b.val + s.val) * 1 + 0
  omega

theorem validFlat_apply (lab : IVec S4x2048 32) (b : Fin 4) (s : Fin 2048) :
    validFlat lab (ix2 (row b s) (0 : Fin 1)) = IntOp.andi (posW s) (validW (shiftRaw lab (ix2 b s))) := by
  unfold validFlat
  rw [col_apply, validMask_apply]

theorem labFlat_apply (lab : IVec S4x2048 32) (b : Fin 4) (s : Fin 2048) :
    labFlat lab (ix2 (row b s) (0 : Fin 1))
      = Scalar.select (IntOp.andi (posW s) (validW (shiftRaw lab (ix2 b s)))) (shiftRaw lab (ix2 b s)) 0#32 := by
  unfold labFlat
  rw [col_apply]
  rfl

/-- Before the last position the mask bit is the label's being counted … -/
theorem validFlat_sw (lab : IVec S4x2048 32) (b : Fin 4) (s : Fin 2047) :
    validFlat lab (ix2 (row b (sw s)) (0 : Fin 1)) = validW (lab (ix2 b (sn s))) := by
  rw [validFlat_apply, posW_sw, shiftRaw_apply, andi_one_left]

/-- … and the masked label is the label with an uncounted one replaced by 0. -/
theorem labFlat_sw (lab : IVec S4x2048 32) (b : Fin 4) (s : Fin 2047) :
    labFlat lab (ix2 (row b (sw s)) (0 : Fin 1)) = safeW (lab (ix2 b (sn s))) := by
  rw [labFlat_apply, posW_sw, shiftRaw_apply, andi_one_left]
  rfl

/-- At the last position the mask bit is 0. -/
theorem validFlat_last (lab : IVec S4x2048 32) (b : Fin 4) :
    validFlat lab (ix2 (row b (Fin.last 2047)) (0 : Fin 1)) = 0#1 := by
  rw [validFlat_apply, posW_last, andi_zero_left]

/-! ## The take along the vocabulary axis, at a row -/

/-- The program's take has the dimension numbers of a take along the second axis. -/
theorem gatherDims_eq :
    gather_S8192x32000_S8192x1x1_S8192x1_n_1_0_0_1_2_11
      = Cert.TakeAlong.takeDims 8192 32000 Facts₀.gather_S8192x32000_S8192x1x1_S8192x1_n_1_0_0_1_2_11_wf := rfl

/-- The start position of row r: the row's label with a negative one moved up by 32000. -/
theorem takePos_apply (lf : IVec S8192x1 32) (r : Fin 8192) :
    takePos lf (ix3 r (0 : Fin 1) (0 : Fin 1)) = wrapW (lf (ix2 r (0 : Fin 1))) := by
  unfold takePos
  refine (shapeCast_apply _ _ _ (ix2 r (0 : Fin 1)) ?_).trans rfl
  rw [Shape.rowMajor_val_two, Shape.rowMajor_val_three]
  show r.val * 1 + 0 = (r.val * 1 + 0) * 1 + 0
  omega

/-- The in-bounds bit of row r. -/
theorem takeInb_apply (lf : IVec S8192x1 32) (r : Fin 8192) :
    takeInb lf (ix2 r (0 : Fin 1)) = inbW (wrapW (lf (ix2 r (0 : Fin 1)))) := by
  unfold takeInb
  refine (Cert.TakeAlong.reduce_andi_unit_axis _ _ rfl _ _ r).trans ?_
  show IntOp.andi (IntOp.cmpi .sge (takePos lf (ix3 r (0 : Fin 1) (0 : Fin 1))) 0#32)
      (IntOp.cmpi .sle (takePos lf (ix3 r (0 : Fin 1) (0 : Fin 1))) 31999#32) = _
  rw [takePos_apply]
  rfl

/-- The quiet-NaN word denotes the junk value ⊥. -/
theorem ofBits_nan : Ideal.ofBits .f32 0x7FC00000#32 = (⊥ : EReal) := by
  simp [Ideal.ofBits, Ideal.ieee]

/-- The taken score of row r: the score at the row's column when the take is in bounds, ⊥ otherwise. -/
theorem taken_apply (X : FVec Ideal S8192x32000 .f32) (lf : IVec S8192x1 32) (r : Fin 8192) :
    taken (F := Ideal) X lf (ix2 r (0 : Fin 1))
      = Scalar.select (inbW (wrapW (lf (ix2 r (0 : Fin 1)))))
          (X (ix2 r (colW (wrapW (lf (ix2 r (0 : Fin 1))))))) (⊥ : EReal) := by
  unfold taken
  rw [select_apply, takeInb_apply, gatherDims_eq,
    Cert.TakeAlong.gather_take_along_apply (by decide : 0 < 32000), takePos_apply]
  show Scalar.select _ _ (Ideal.ofBits .f32 0x7FC00000#32) = _
  rw [ofBits_nan]
  rfl

/-- The masked negative log-likelihood of row r. -/
theorem nllCol_apply (X : FVec Ideal S8192x32000 .f32) (L : FVec Ideal S8192x1 .f32) (lf : IVec S8192x1 32)
    (vf : IVec S8192x1 1) (r : Fin 8192) :
    nllCol (F := Ideal) X L lf vf (ix2 r (0 : Fin 1))
      = Scalar.select (vf (ix2 r (0 : Fin 1)))
          (-(taken (F := Ideal) X lf (ix2 r (0 : Fin 1)) - L (ix2 r (0 : Fin 1)))) (0 : EReal) := by
  unfold nllCol
  rw [select_apply]
  show Scalar.select _ (-(_ - _)) (Ideal.ofBits .f32 0x00000000#32) = _
  rw [Ideal.ofBits_zero_f32]

section rows
variable (lab : IVec S4x2048 32) (X : FVec Ideal S8192x32000 .f32) (L : FVec Ideal S8192x1 .f32)
  (Lg : Fin 4 → Fin 2048 → Fin 32000 → ℝ)
  (hX : ∀ (b : Fin 4) (s : Fin 2048) (v : Fin 32000), X (ix2 (Cert.Spec.row b s) v) = ((Lg b s v : ℝ) : EReal))
  (hL : ∀ (b : Fin 4) (s : Fin 2048),
    L (ix2 (Cert.Spec.row b s) (0 : Fin 1)) = ((Real.log (Cert.Spec.zsum (Lg b s)) : ℝ) : EReal))

include hX hL in
/-- Before the last position a row's entry is its contribution to the specification's sum. -/
theorem nll_row_sw (b : Fin 4) (s : Fin 2047) :
    nllCol (F := Ideal) X L (labFlat lab) (validFlat lab) (ix2 (row b (sw s)) (0 : Fin 1))
      = nllW (Lg b (sw s)) (lab (ix2 b (sn s))) := by
  rw [nllCol_apply, taken_apply, validFlat_sw, labFlat_sw, hX, hL]
  unfold nllW
  by_cases hv : validW (lab (ix2 b (sn s))) = 1#1
  · rw [if_pos hv, hv, select_one]
    by_cases hi : inbW (wrapW (safeW (lab (ix2 b (sn s))))) = 1#1
    · rw [if_pos hi, hi, select_one, Cert.LogSumExp.nll_stream]
    · rw [if_neg hi, eq_zero_of_ne_one hi, select_zero, EReal.bot_sub, EReal.neg_bot]
  · rw [if_neg hv, eq_zero_of_ne_one hv, select_zero]

/-- At the last position it is 0. -/
theorem nll_row_last (b : Fin 4) :
    nllCol (F := Ideal) X L (labFlat lab) (validFlat lab) (ix2 (row b (Fin.last 2047)) (0 : Fin 1)) = 0 := by
  rw [nllCol_apply, validFlat_last, select_zero]

end rows

/-! ## The two sums over the 8192 rows -/

/-- Row 2048·b + s of the 8192 is the pair (b, s). -/
def rowEquiv : Fin 4 × Fin 2048 ≃ Fin 8192 where
  toFun p := row p.1 p.2
  invFun r := (⟨r.val / 2048, by have := r.isLt; omega⟩, ⟨r.val % 2048, Nat.mod_lt _ (by decide)⟩)
  left_inv p := by
    obtain ⟨b, s⟩ := p
    have hb := b.isLt
    have hs := s.isLt
    refine Prod.ext (Fin.ext ?_) (Fin.ext ?_)
    · show (2048 * b.val + s.val) / 2048 = b.val
      omega
    · show (2048 * b.val + s.val) % 2048 = s.val
      omega
  right_inv r := by
    refine Fin.ext ?_
    show 2048 * (r.val / 2048) + r.val % 2048 = r.val
    omega

/-- A sum over the 8192 × 1 column is the double sum over batch rows and positions. -/
theorem sum_col {M : Type} [AddCommMonoid M] (f : S8192x1.Idx → M) :
    ∑ i, f i = ∑ b : Fin 4, ∑ s : Fin 2048, f (ix2 (row b s) (0 : Fin 1)) := by
  rw [sum_idx2, ← Equiv.sum_comp rowEquiv (fun a : Fin 8192 => ∑ c : Fin 1, f (ix2 a c)), Fintype.sum_prod_type]
  refine Finset.sum_congr rfl (fun b _ => Finset.sum_congr rfl (fun s _ => ?_))
  exact (Fin.sum_univ_one _).trans rfl

/-- A sum over the 2048 positions: the first 2047 and the last. -/
theorem sum_pos_split {M : Type} [AddCommMonoid M] (g : Fin 2048 → M) :
    ∑ s : Fin 2048, g s = ∑ s : Fin 2047, g (sw s) + g (Fin.last 2047) :=
  Fin.sum_univ_castSucc g

section sums
variable (lab : IVec S4x2048 32) (X : FVec Ideal S8192x32000 .f32) (L : FVec Ideal S8192x1 .f32)
  (Lg : Fin 4 → Fin 2048 → Fin 32000 → ℝ)
  (hX : ∀ (b : Fin 4) (s : Fin 2048) (v : Fin 32000), X (ix2 (Cert.Spec.row b s) v) = ((Lg b s v : ℝ) : EReal))
  (hL : ∀ (b : Fin 4) (s : Fin 2048),
    L (ix2 (Cert.Spec.row b s) (0 : Fin 1)) = ((Real.log (Cert.Spec.zsum (Lg b s)) : ℝ) : EReal))

include hX hL in
/-- The numerator: the rows' entries sum to the specification's sum of contributions. -/
theorem num_eq :
    ∑ i, nllCol (F := Ideal) X L (labFlat lab) (validFlat lab) i = num Lg (fun b s => lab (ix2 b s)) := by
  rw [sum_col]
  unfold num
  refine Finset.sum_congr rfl (fun b _ => ?_)
  rw [sum_pos_split, nll_row_last, add_zero]
  exact Finset.sum_congr rfl (fun s _ => nll_row_sw lab X L Lg hX hL b s)

theorem toNat_bit (x : BitVec 1) : x.toNat = if x = 1#1 then 1 else 0 := by revert x; decide

/-- A mask bit as a float is 1 or 0. -/
theorem cnt_row_sw (b : Fin 4) (s : Fin 2047) :
    (uitofp .f32 (validFlat lab) : FVec Ideal S8192x1 .f32) (ix2 (row b (sw s)) (0 : Fin 1))
      = ((((if validW (lab (ix2 b (sn s))) = 1#1 then 1 else 0 : ℕ) : ℕ) : ℝ) : EReal) := by
  show ((((validFlat lab (ix2 (row b (sw s)) (0 : Fin 1))).toNat : ℕ) : ℝ) : EReal) = _
  rw [validFlat_sw, toNat_bit]

theorem cnt_row_last (b : Fin 4) :
    (uitofp .f32 (validFlat lab) : FVec Ideal S8192x1 .f32) (ix2 (row b (Fin.last 2047)) (0 : Fin 1)) = 0 := by
  show ((((validFlat lab (ix2 (row b (Fin.last 2047)) (0 : Fin 1))).toNat : ℕ) : ℝ) : EReal) = _
  rw [validFlat_last]
  show (((0 : ℕ) : ℝ) : EReal) = 0
  rw [Nat.cast_zero, EReal.coe_zero]

/-- The denominator's sum: the number of counted labels. -/
theorem den_eq :
    ∑ i, (uitofp .f32 (validFlat lab) : FVec Ideal S8192x1 .f32) i
      = (((cnt (fun b s => lab (ix2 b s)) : ℕ) : ℝ) : EReal) := by
  rw [sum_col]
  unfold cnt
  rw [Nat.cast_sum, Cert.Attn.coe_sum]
  refine Finset.sum_congr rfl (fun b _ => ?_)
  rw [Nat.cast_sum, Cert.Attn.coe_sum, sum_pos_split, cnt_row_last, add_zero]
  exact Finset.sum_congr rfl (fun s _ => cnt_row_sw lab b s)

end sums

/-! ## The two statements -/

/-- The returned scores: entry (b, s, v) of the 4 × 2048 × 32000 array is entry (row b s, v) of the kernel's. -/
theorem k_logits (X : FVec Ideal S8192x32000 .f32) (Lg : Fin 4 → Fin 2048 → Fin 32000 → ℝ)
    (hX : ∀ (b : Fin 4) (s : Fin 2048) (v : Fin 32000), X (ix2 (Cert.Spec.row b s) v) = ((Lg b s v : ℝ) : EReal))
    (b : Fin 4) (s : Fin 2048) (v : Fin 32000) :
    logitsOut (F := Ideal) X (ix3 b s v) = ((Lg b s v : ℝ) : EReal) := by
  unfold logitsOut
  refine (shapeCast_apply X _ (ix3 b s v) (ix2 (Cert.Spec.row b s) v) ?_).trans (hX b s v)
  rw [Shape.rowMajor_val_two, Shape.rowMajor_val_three]
  show (2048 * b.val + s.val) * 32000 + v.val = (b.val * 2048 + s.val) * 32000 + v.val
  rw [Nat.mul_comm 2048 b.val]

/-- The loss the host lines after the launch compute is the specification's. -/
theorem k_loss (lab : IVec S4x2048 32) (X : FVec Ideal S8192x32000 .f32) (L : FVec Ideal S8192x1 .f32)
    (Lg : Fin 4 → Fin 2048 → Fin 32000 → ℝ)
    (hX : ∀ (b : Fin 4) (s : Fin 2048) (v : Fin 32000), X (ix2 (Cert.Spec.row b s) v) = ((Lg b s v : ℝ) : EReal))
    (hL : ∀ (b : Fin 4) (s : Fin 2048),
      L (ix2 (Cert.Spec.row b s) (0 : Fin 1)) = ((Real.log (Cert.Spec.zsum (Lg b s)) : ℝ) : EReal)) :
    tailLoss (F := Ideal) X L (labFlat lab) (validFlat lab) ix0 = Cert.Spec.loss Lg (fun b s => lab (ix2 b s)) := by
  unfold tailLoss
  rw [hostDivf_apply, maximumf_apply, hostReduceAdd_apply, hostReduceAdd_apply,
    Ideal.hostReduceAdd_total _ (fun b => b.elim0), Ideal.hostReduceAdd_total _ (fun b => b.elim0),
    constant_apply, constant_apply, Ideal.ofBits_zero_f32, Ideal.ofBits_one_f32,
    num_eq lab X L Lg hX hL, den_eq lab,
    zero_add ((((cnt (fun b s => lab (ix2 b s)) : ℕ) : ℝ) : EReal))]
  rfl

end Cert.KernelIdeal.KSpec

end
-- ==== Proof.KBridge.lean ====
/-
  Small facts about the host lines before the kernel launch, read at the extended reals: the kernel's first
  operand, row 2048·b + s, is the hidden row (b, s); the cast of the output table changes nothing; every hidden
  entry is an entry of the embedding table; and the hidden rows are the reference program's.
-/
import proofs.«402826_j3624952398524_3_alg».proof.Proof.KHostDefs
import proofs.«402826_j3624952398524_3_alg».proof.Proof.RefReadP
import proofs.«402826_j3624952398524_3_alg».proof.Proof.Spec
import Idealize.ShloMosaic.Lib.Pipeline.Value
import Idealize.ShloMosaic.Lib.ValueIdx

noncomputable section

namespace Cert.Bridge

open Idealize.ShloMosaic Idealize.ShloMosaic.ValueIdx

/-- The kernel's first operand, row 2048·b + s, is the hidden row (b, s): the cast is the identity on extended
    reals and the reshape is row-major. -/
theorem hFlat_apply (ids : IVec Cert.KernelIdeal.S4x2048 32) (emb : FVec Ideal Cert.KernelIdeal.S32000x2048 .f32)
    (b : Fin 4) (s : Fin 2048) (h : Fin 2048) :
    Cert.KernelIdeal.KV.hFlat (F := Ideal) ids emb (ix2 (Cert.Spec.row b s) h)
      = Cert.KernelIdeal.KV.hidden (F := Ideal) ids emb (ix3 b s h) := by
  have hk : (Cert.KernelIdeal.S4x2048x2048.rowMajor (ix3 b s h)).val
      = (Cert.KernelIdeal.S8192x2048.rowMajor (ix2 (Cert.Spec.row b s) h)).val := by
    rw [Shape.rowMajor_val_three, Shape.rowMajor_val_two]
    show (b.val * 2048 + s.val) * 2048 + h.val = (2048 * b.val + s.val) * 2048 + h.val
    omega
  unfold Cert.KernelIdeal.KV.hFlat
  rw [shapeCast_apply _ _ (ix2 (Cert.Spec.row b s) h) (ix3 b s h) hk]
  rfl

/-- The cast of the output table is the identity on extended reals. -/
theorem wCast_apply (w : FVec Ideal Cert.KernelIdeal.S32000x2048 .f32) (v : Fin 32000) (h : Fin 2048) :
    Cert.KernelIdeal.KV.wCast (F := Ideal) w (ix2 v h) = w (ix2 v h) := rfl

/-- Every hidden entry is an entry of the table, so it is real when the table's entries are. -/
theorem hidden_real (ids : IVec Cert.KernelIdeal.S4x2048 32) (emb : FVec Ideal Cert.KernelIdeal.S32000x2048 .f32)
    (hemb : ∀ i, ∃ r : ℝ, emb i = (r : EReal)) :
    ∀ j, ∃ r : ℝ, Cert.KernelIdeal.KV.hidden (F := Ideal) ids emb j = (r : EReal) := by
  intro j
  unfold Cert.KernelIdeal.KV.hidden Host.gather
  exact hemb _

/-- The kernel program's hidden rows are the reference program's: the same operations of the same arrays. -/
theorem hidden_eq_ref (ids : IVec Cert.KernelIdeal.S4x2048 32) (emb : FVec Ideal Cert.KernelIdeal.S32000x2048 .f32) :
    Cert.KernelIdeal.KV.hidden (F := Ideal) ids emb = Cert.ReferenceIdeal.ReadP.val_main_v6 (F := Ideal) ids emb := rfl

end Cert.Bridge

end
-- ==== Proof.RSpec.lean ====
/-
  The reference program's two results, read at the extended reals with real data, are the specification's.

  The logits: entry (b, s, v) of the contraction is the real dot product of hidden row (b, s) with table row v.

  The loss: row 2047·b + s of the 8188 flattened rows is position (b, s) of the logits with the last position of each
  batch row left out, and its label is the word at (b, s + 1). Per row: the maximum against −∞ is SOME real M, the
  shifted exponentials sum to exp(−M)·Z with Z the partition sum, and the log-softmax entry at column v is
  L v − log Z. The take reads the column the wrapped safe label selects when it is in bounds, and the junk −∞
  otherwise; negated, and selected on the label's being counted, the row contributes exactly the specification's
  term. The 8188 contributions and the 8188 counted bits are then summed as double sums over (b, s); the count, a
  natural number at most 8188, does not wrap, and its signed maximum with 1, converted, is max (count, 1).
-/
import proofs.«402826_j3624952398524_3_alg».proof.Proof.RefReadP
import proofs.«402826_j3624952398524_3_alg».proof.Proof.Spec
import proofs.«402826_j3624952398524_3_alg».proof.Proof.LibStreamSoftmax
import proofs.«402826_j3624952398524_3_alg».proof.Proof.LibLogSumExp
import proofs.«402826_j3624952398524_3_alg».proof.Proof.LibTakeAlong
import Idealize.ShloMosaic.Lib.ValueIdx
import Idealize.ShloMosaic.Lib.ValueIdxRank1
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.RSpec

open Cert.ReferenceIdeal Cert.ReferenceIdeal.Gen Cert.ReferenceIdeal.ReadP Idealize.ShloMosaic Idealize.ShloMosaic.ValueIdx
open Cert.Spec (wrapW inbW colW validW safeW zsum zsum_pos nllW sw sn row' num cnt loss lg)

/-! ## The logits -/

theorem ref_logits (x0 : IVec S4x2048 32) (x2 x3 : FVec Ideal S32000x2048 .f32)
    (Hd : Fin 4 → Fin 2048 → Fin 2048 → ℝ) (Wr : Fin 32000 → Fin 2048 → ℝ)
    (hH : ∀ (b : Fin 4) (s : Fin 2048) (h : Fin 2048), val_main_v6 (F := Ideal) x0 x2 (ix3 b s h) = ((Hd b s h : ℝ) : EReal))
    (hW : ∀ (v : Fin 32000) (h : Fin 2048), x3 (ix2 v h) = ((Wr v h : ℝ) : EReal))
    (b : Fin 4) (s : Fin 2048) (v : Fin 32000) :
    val_main_v7 (F := Ideal) x0 x2 x3 (ix3 b s v) = ((Cert.Spec.lg Hd Wr b s v : ℝ) : EReal) := by
  rw [val_main_v7_apply]
  have hl : ∀ k : Fin 2048, lidx_main_v7 (ix3 b s v) k = ix3 b s k := fun k =>
    funext fun a => by match a with | ⟨0, _⟩ => rfl | ⟨1, _⟩ => rfl | ⟨2, _⟩ => rfl
  have hr : ∀ k : Fin 2048, ridx_main_v7 (ix3 b s v) k = ix2 v k := fun k =>
    funext fun a => by match a with | ⟨0, _⟩ => rfl | ⟨1, _⟩ => rfl
  refine (Finset.sum_congr rfl fun k _ => ?_).trans (Cert.Attn.dot_coe (fun k => Hd b s k) (fun k => Wr v k))
  rw [hl, hr, hH, hW]

/-! ## Rows of the flattened logits and labels -/

/-- Row 2047·b + s, column c of the flattened logits is position (b, s, c). -/
theorem idx_logit (b : Fin 4) (s : Fin 2047) (c : Fin 32000) :
    idx_main_v8 (idx_main_v9 (ix2 (row' b s) c)) = ix3 b (sw s) c := by
  funext a
  refine Fin.ext ?_
  have hb := b.isLt
  have hs := s.isLt
  have hc := c.isLt
  match a with
  | ⟨0, _⟩ => show ((2047 * b.val + s.val) * 32000 + c.val) / 65504000 = b.val; omega
  | ⟨1, _⟩ => show ((2047 * b.val + s.val) * 32000 + c.val) / 32000 % 2047 = s.val; omega
  | ⟨2, _⟩ => show ((2047 * b.val + s.val) * 32000 + c.val) % 32000 = c.val; omega

/-- Row 2047·b + s of the flattened labels is position (b, s + 1). -/
theorem idx_label (b : Fin 4) (s : Fin 2047) :
    idx_main_v10 (idx_main_v11 (ix1 (row' b s))) = ix2 b (sn s) := by
  funext a
  refine Fin.ext ?_
  have hb := b.isLt
  have hs := s.isLt
  match a with
  | ⟨0, _⟩ => show (2047 * b.val + s.val) / 2047 = b.val; omega
  | ⟨1, _⟩ => show 1 + (2047 * b.val + s.val) % 2047 = s.val + 1; omega

theorem row_logits (x0 : IVec S4x2048 32) (x2 x3 : FVec Ideal S32000x2048 .f32)
    (Hd : Fin 4 → Fin 2048 → Fin 2048 → ℝ) (Wr : Fin 32000 → Fin 2048 → ℝ)
    (hH : ∀ (b : Fin 4) (s : Fin 2048) (h : Fin 2048), val_main_v6 (F := Ideal) x0 x2 (ix3 b s h) = ((Hd b s h : ℝ) : EReal))
    (hW : ∀ (v : Fin 32000) (h : Fin 2048), x3 (ix2 v h) = ((Wr v h : ℝ) : EReal))
    (b : Fin 4) (s : Fin 2047) (c : Fin 32000) :
    val_main_v9 (F := Ideal) x0 x2 x3 (ix2 (row' b s) c) = ((lg Hd Wr b (sw s) c : ℝ) : EReal) := by
  rw [val_main_v9_apply, val_main_v8_apply, idx_logit, ref_logits x0 x2 x3 Hd Wr hH hW]

theorem row_label (x1 : IVec S4x2048 32) (b : Fin 4) (s : Fin 2047) :
    val_main_v11 (F := Ideal) x1 (ix1 (row' b s)) = x1 (ix2 b (sn s)) := by
  rw [val_main_v11_apply, val_main_v10_apply, idx_label]

/-! ## One row's label arithmetic -/

section Label

variable (x1 : IVec S4x2048 32) (r : Fin 8188) (l : BitVec 32)

/-- The label is counted. -/
theorem row_valid (hl : val_main_v11 (F := Ideal) x1 (ix1 r) = l) :
    val_main_v14 (F := Ideal) x1 (ix1 r) = validW l := by
  rw [val_main_v14_apply, val_main_v13_apply, val_main_c_1_apply, hl]
  rfl

/-- The label with an uncounted one replaced by 0. -/
theorem row_safe (hl : val_main_v11 (F := Ideal) x1 (ix1 r) = l) :
    val_main_v15 (F := Ideal) x1 (ix1 r) = safeW l := by
  rw [val_main_v15_apply, row_valid x1 r l hl, hl, val_main_call1_v1_apply, val_main_call1_v0_apply,
    val_main_c_2_apply]
  rfl

theorem idx_col (r : Fin 8188) : idx_main_v16 (ix2 r (0 : Fin 1)) = ix1 r := by
  funext a
  match a with
  | ⟨0, _⟩ => rfl

theorem row_safe_col (hl : val_main_v11 (F := Ideal) x1 (ix1 r) = l) :
    val_main_v16 (F := Ideal) x1 (ix2 r (0 : Fin 1)) = safeW l := by
  rw [val_main_v16_apply, idx_col, row_safe x1 r l hl]

/-- A negative position is wrapped. -/
theorem row_wrap (hl : val_main_v11 (F := Ideal) x1 (ix1 r) = l) :
    val_main_call2_v4 (F := Ideal) x1 (ix2 r (0 : Fin 1)) = wrapW (safeW l) := by
  rw [val_main_call2_v4_apply, val_main_call2_v1_apply, val_main_call2_v3_apply, row_safe_col x1 r l hl,
    val_main_call2_v0_apply, val_main_call2_c_apply, val_main_call2_v2_apply, val_main_call2_c_0_apply]
  rfl

theorem idx_pos (r : Fin 8188) : idx_main_call2_v5 (ix3 r (0 : Fin 1) (0 : Fin 1)) = ix2 r (0 : Fin 1) := by
  funext a
  refine Fin.ext ?_
  match a with
  | ⟨0, _⟩ => show ((r.val * 1 + 0) * 1 + 0) / 1 = r.val; omega
  | ⟨1, _⟩ => rfl

/-- The position the take starts at. -/
theorem row_pos (hl : val_main_v11 (F := Ideal) x1 (ix1 r) = l) :
    val_main_call2_v5 (F := Ideal) x1 (ix3 r (0 : Fin 1) (0 : Fin 1)) = wrapW (safeW l) := by
  rw [val_main_call2_v5_apply, idx_pos, row_wrap x1 r l hl]

/-- The take is in bounds. -/
theorem row_inb (hl : val_main_v11 (F := Ideal) x1 (ix1 r) = l) :
    val_main_call2_v12 (F := Ideal) x1 (ix2 r (0 : Fin 1)) = inbW (wrapW (safeW l)) := by
  unfold val_main_call2_v12
  rw [Cert.TakeAlong.reduce_andi_unit_axis (n := 8188) (val_main_call2_v11 (F := Ideal) x1)
      (val_main_call2_c_3 (F := Ideal)) (val_main_call2_c_3_apply _) reducesTo_S8188x1x1_S8188x1_d2 h_S_ r,
    val_main_call2_v11_apply, val_main_call2_v7_apply, val_main_call2_v10_apply, row_pos x1 r l hl,
    val_main_call2_v6_apply, val_main_call2_c_2_apply, val_main_call2_v9_apply, val_main_call2_v8_apply,
    val_main_call2_c_1_apply]
  rfl

end Label

/-! ## One row's log-softmax -/

section Softmax

variable (x0 : IVec S4x2048 32) (x2 x3 : FVec Ideal S32000x2048 .f32) (r : Fin 8188) (L : Fin 32000 → ℝ)

/-- The row's maximum against −∞ is some real. -/
theorem row_max (hL : ∀ c : Fin 32000, val_main_v9 (F := Ideal) x0 x2 x3 (ix2 r c) = ((L c : ℝ) : EReal)) :
    ∃ M : ℝ, val_main_call0_v2 (F := Ideal) x0 x2 x3 (ix1 r) = ((M : ℝ) : EReal) := by
  have hred : Shape.Reduces S8188x32000 [1] S8188 := by decide
  have hcomp : (val_main_v9 (F := Ideal) x0 x2 x3 ∘ hred.lift (ix1 r)) = fun k : Fin 32000 => ((L k : ℝ) : EReal) := by
    funext k
    show val_main_v9 (F := Ideal) x0 x2 x3 (hred.lift (ix1 r) k) = _
    rw [← hL k]
    exact congrArg _ (funext fun a => Fin.ext (by match a with | ⟨0, _⟩ => rfl | ⟨1, _⟩ => rfl))
  obtain ⟨M, hM⟩ := Cert.Attn.max_real_first L
  refine ⟨M, ?_⟩
  rw [val_main_call0_v2_apply, val_main_call0_v1_apply, val_main_call0_cst_0_apply]
  unfold val_main_call0_v0
  rw [Host.reduce_eq_fold_single FloatOps.maximumf _ _ reducesTo_S8188x32000_S8188_d1 hred h_S_ (ix1 r),
    val_main_call0_cst_apply, hcomp, Ideal.ofBits_def, Cert.Attn.ofBits_neg_inf]
  exact hM

/-- The log-softmax of the row at column c. -/
theorem row_lsm (hL : ∀ c : Fin 32000, val_main_v9 (F := Ideal) x0 x2 x3 (ix2 r c) = ((L c : ℝ) : EReal))
    (c : Fin 32000) :
    val_main_v12 (F := Ideal) x0 x2 x3 (ix2 r c) = ((L c - Real.log (zsum L) : ℝ) : EReal) := by
  obtain ⟨M, hM⟩ := row_max x0 x2 x3 r L hL
  have h4 : ∀ c' : Fin 32000, val_main_call0_v4 (F := Ideal) x0 x2 x3 (ix2 r c') = ((M : ℝ) : EReal) := by
    intro c'
    have hi : idx_main_call0_v3 (idx_main_call0_v4 (ix2 r c')) = ix1 r := by
      funext a
      match a with
      | ⟨0, _⟩ => rfl
    rw [val_main_call0_v4_apply, val_main_call0_v3_apply, hi, hM]
  have h5 : ∀ c' : Fin 32000,
      val_main_call0_v5 (F := Ideal) x0 x2 x3 (ix2 r c') = ((L c' : ℝ) : EReal) - ((M : ℝ) : EReal) := by
    intro c'
    rw [val_main_call0_v5_apply, hL, h4]
    rfl
  have h7 : val_main_call0_v7 (F := Ideal) x0 x2 x3 (ix1 r)
      = (0 : EReal) + ((Real.exp (-M) * zsum L : ℝ) : EReal) := by
    have hidx : ∀ k : Fin 32000, idx_main_call0_v7 (ix1 r) k = ix2 r k := fun k =>
      funext fun a => by match a with | ⟨0, _⟩ => rfl | ⟨1, _⟩ => rfl
    have hterm : ∀ k : Fin 32000, val_main_call0_v6 (F := Ideal) x0 x2 x3 (idx_main_call0_v7 (ix1 r) k)
        = Ideal.exp (((L k : ℝ) : EReal) - ((M : ℝ) : EReal)) := by
      intro k
      rw [hidx, val_main_call0_v6_apply, h5]
      rfl
    rw [val_main_call0_v7_apply, val_main_call0_cst_1_apply, Finset.sum_congr rfl (fun k _ => hterm k),
      Cert.Attn.tile_den, Ideal.ofBits_def, Ideal.ofBits_zero_f32]
    rfl
  have hi : idx_main_call0_v8 (idx_main_call0_v10 (ix2 r c)) = ix1 r := by
    funext a
    match a with
    | ⟨0, _⟩ => rfl
  rw [val_main_v12_apply, h5, val_main_call0_v10_apply, val_main_call0_v9_apply, val_main_call0_v8_apply, hi, h7]
  exact Cert.LogSumExp.twopass_entry (L c) M (zsum L) (zsum_pos L)

end Softmax

/-! ## One row's contribution -/

/-- The f32 word of a quiet NaN denotes the junk ⊥. -/
theorem ofBits_nan : Ideal.ofBits .f32 0x7FC00000#32 = (⊥ : EReal) := by
  simp [Ideal.ofBits, Ideal.ieee]

/-- The program's take is the take along the vocabulary axis. -/
theorem gather_eq : gather_S8188x32000_S8188x1x1_S8188x1_n_1_0_0_1_2_11
    = Cert.TakeAlong.takeDims 8188 32000 gather_S8188x32000_S8188x1x1_S8188x1_n_1_0_0_1_2_11_wf := rfl

section Contribution

variable (x0 x1 : IVec S4x2048 32) (x2 x3 : FVec Ideal S32000x2048 .f32) (r : Fin 8188) (L : Fin 32000 → ℝ)
  (l : BitVec 32)

/-- The take: the log-softmax entry at the selected column when in bounds, the junk −∞ otherwise. -/
theorem row_take (hL : ∀ c : Fin 32000, val_main_v9 (F := Ideal) x0 x2 x3 (ix2 r c) = ((L c : ℝ) : EReal))
    (hl : val_main_v11 (F := Ideal) x1 (ix1 r) = l) :
    val_main_v17 (F := Ideal) x0 x1 x2 x3 (ix2 r (0 : Fin 1))
      = Scalar.select (inbW (wrapW (safeW l)))
          (((L (colW (wrapW (safeW l))) - Real.log (zsum L) : ℝ)) : EReal) (⊥ : EReal) := by
  have hg : val_main_call2_v13 (F := Ideal) x0 x1 x2 x3 (ix2 r (0 : Fin 1))
      = ((L (colW (wrapW (safeW l))) - Real.log (zsum L) : ℝ) : EReal) := by
    unfold val_main_call2_v13
    rw [gather_eq, Cert.TakeAlong.gather_take_along_apply (by decide : 0 < 32000), row_pos x1 r l hl]
    exact row_lsm x0 x2 x3 r L hL _
  rw [val_main_v17_apply, row_inb x1 r l hl, hg, val_main_call2_v14_apply, val_main_call2_cst_apply,
    Ideal.ofBits_def, ofBits_nan]

theorem idx_flat (r : Fin 8188) : idx_main_v18 (ix1 r) = ix2 r (0 : Fin 1) := by
  funext a
  refine Fin.ext ?_
  match a with
  | ⟨0, _⟩ => show r.val / 1 = r.val; omega
  | ⟨1, _⟩ => rfl

/-- The row contributes the specification's term. -/
theorem row_nll (hL : ∀ c : Fin 32000, val_main_v9 (F := Ideal) x0 x2 x3 (ix2 r c) = ((L c : ℝ) : EReal))
    (hl : val_main_v11 (F := Ideal) x1 (ix1 r) = l) :
    val_main_v20 (F := Ideal) x0 x1 x2 x3 (ix1 r) = nllW L l := by
  rw [val_main_v20_apply, row_valid x1 r l hl, val_main_v19_apply, val_main_v18_apply, idx_flat,
    row_take x0 x1 x2 x3 r L l hL hl, val_main_call3_v1_apply, val_main_call3_v0_apply, val_main_cst_apply,
    Ideal.ofBits_def, Ideal.ofBits_zero_f32, Ideal.hostNegf_def, Ideal.negf_def]
  unfold nllW
  generalize validW l = V
  generalize inbW (wrapW (safeW l)) = I
  rcases BitVec.eq_zero_or_eq_one V with rfl | rfl
  · rw [select_zero, if_neg (by decide)]
  · rw [select_one, if_pos rfl]
    rcases BitVec.eq_zero_or_eq_one I with rfl | rfl
    · rw [select_zero, if_neg (by decide)]
      exact EReal.neg_bot
    · rw [select_one, if_pos rfl]
      exact Cert.LogSumExp.nll_twopass _ _

end Contribution

/-! ## The 8188 rows as the pairs (b, s) -/

/-- Row 2047·b + s of the 8188 rows, as a bijection. -/
def rowEquiv : Fin 4 × Fin 2047 ≃ Fin 8188 where
  toFun p := row' p.1 p.2
  invFun k := (⟨k.val / 2047, by have := k.isLt; omega⟩, ⟨k.val % 2047, Nat.mod_lt _ (by decide)⟩)
  left_inv := by
    rintro ⟨b, s⟩
    have hb := b.isLt
    have hs := s.isLt
    refine Prod.ext (Fin.ext ?_) (Fin.ext ?_)
    · show (2047 * b.val + s.val) / 2047 = b.val; omega
    · show (2047 * b.val + s.val) % 2047 = s.val; omega
  right_inv := by
    intro k
    refine Fin.ext ?_
    show 2047 * (k.val / 2047) + k.val % 2047 = k.val
    omega

theorem sum_rows {M : Type*} [AddCommMonoid M] (f : Fin 8188 → M) :
    ∑ k, f k = ∑ b : Fin 4, ∑ s : Fin 2047, f (row' b s) := by
  rw [← Equiv.sum_comp rowEquiv, Fintype.sum_prod_type]
  rfl

theorem sum_rows_idx {M : Type*} [AddCommMonoid M] (f : S8188.Idx → M) :
    ∑ j, f j = ∑ b : Fin 4, ∑ s : Fin 2047, f (ix1 (row' b s)) := by
  rw [← Equiv.sum_comp (idxEquiv1 (n := 8188)).symm f, sum_rows]
  rfl

/-! ## The numerator -/

theorem ref_num (x0 x1 : IVec S4x2048 32) (x2 x3 : FVec Ideal S32000x2048 .f32)
    (Hd : Fin 4 → Fin 2048 → Fin 2048 → ℝ) (Wr : Fin 32000 → Fin 2048 → ℝ)
    (hH : ∀ (b : Fin 4) (s : Fin 2048) (h : Fin 2048), val_main_v6 (F := Ideal) x0 x2 (ix3 b s h) = ((Hd b s h : ℝ) : EReal))
    (hW : ∀ (v : Fin 32000) (h : Fin 2048), x3 (ix2 v h) = ((Wr v h : ℝ) : EReal)) :
    ∑ j : S8188.Idx, val_main_v20 (F := Ideal) x0 x1 x2 x3 j = num (lg Hd Wr) (fun b s => x1 (ix2 b s)) := by
  rw [sum_rows_idx]
  unfold num
  refine Finset.sum_congr rfl fun b _ => Finset.sum_congr rfl fun s _ => ?_
  exact row_nll x0 x1 x2 x3 (row' b s) (lg Hd Wr b (sw s)) (x1 (ix2 b (sn s)))
    (fun c => row_logits x0 x2 x3 Hd Wr hH hW b s c) (row_label x1 b s)

/-! ## The count -/

theorem cnt_le (lab : Fin 4 → Fin 2048 → BitVec 32) : cnt lab ≤ 8188 := by
  unfold cnt
  calc _ ≤ ∑ b : Fin 4, ∑ s : Fin 2047, 1 :=
        Finset.sum_le_sum fun b _ => Finset.sum_le_sum fun s _ => by split_ifs <;> omega
    _ = 8188 := by simp

/-- The integer sum of the widened counted bits is the number of counted labels. -/
theorem ref_cnt (x1 : IVec S4x2048 32) :
    (val_main_v23 (F := Ideal) x1 ix0).toNat = cnt (fun b s => x1 (ix2 b s)) := by
  classical
  have hval : ∀ j : S8188.Idx, (val_main_v22 (F := Ideal) x1 j).toNat
      = if val_main_v14 (F := Ideal) x1 j = 1#1 then 1 else 0 := by
    intro j
    rw [val_main_v22_apply]
    exact StableHlo.Predicate.toNat_setWidth_bit _
  have hsum : ∑ j : S8188.Idx, (val_main_v22 (F := Ideal) x1 j).toNat = cnt (fun b s => x1 (ix2 b s)) := by
    rw [Finset.sum_congr rfl (fun j _ => hval j), sum_rows_idx]
    unfold cnt
    refine Finset.sum_congr rfl fun b _ => Finset.sum_congr rfl fun s _ => ?_
    rw [row_valid x1 (row' b s) _ (row_label x1 b s)]
  have hlt : ∑ j ∈ (Finset.univ : Finset S8188.Idx), (val_main_v22 (F := Ideal) x1 j).toNat < 2 ^ 32 := by
    rw [hsum]
    have := cnt_le (fun b s => x1 (ix2 b s))
    omega
  unfold val_main_v23
  -- every index of the operand drops to the one index of the rank-0 result
  rw [Host.reduce_eq_fold IntOp.addi _ _ reducesTo_S8188_S_d0 h_S_ ix0,
    Finset.filter_true_of_mem (fun i _ => funext fun a => a.elim0), val_main_c_4_apply]
  exact (StableHlo.Predicate.toNat_fold_addi _ _ hlt).trans hsum

theorem maxsi_one_toInt (w : BitVec 32) (n : ℕ) (hn : w.toNat = n) (hle : n ≤ 8188) :
    (IntOp.maxsi w 1#32).toInt = max (n : ℤ) 1 := by
  have hti : w.toInt = (n : ℤ) := by
    rw [StableHlo.Predicate.toInt_eq_toNat_of_lt (by omega), hn]
  have h1 : (1#32 : BitVec 32).toInt = 1 := by decide
  unfold IntOp.maxsi
  split <;> rename_i hc <;> simp only [BitVec.slt, hti, h1, decide_eq_true_eq] at hc
  · rw [hti]; omega
  · rw [h1]; omega

theorem den_cast (n : ℕ) : (((max (n : ℤ) 1 : ℤ) : ℝ) : EReal) = max (((n : ℕ) : ℝ) : EReal) 1 := by
  rw [Int.cast_max, Int.cast_natCast, Int.cast_one, EReal.coe_strictMono.monotone.map_max, EReal.coe_one]

/-- The denominator: the larger of the count and 1. -/
theorem ref_den (x1 : IVec S4x2048 32) :
    val_main_v25 (F := Ideal) x1 ix0 = max (((cnt (fun b s => x1 (ix2 b s)) : ℕ) : ℝ) : EReal) 1 := by
  rw [val_main_v25_apply, val_main_v24_apply, val_main_c_5_apply]
  show ((((IntOp.maxsi (val_main_v23 (F := Ideal) x1 ix0) 1#32).toInt : ℤ) : ℝ) : EReal) = _
  rw [maxsi_one_toInt _ _ (ref_cnt x1) (cnt_le _), den_cast]

/-! ## The loss -/

theorem ref_loss (x0 x1 : IVec S4x2048 32) (x2 x3 : FVec Ideal S32000x2048 .f32)
    (Hd : Fin 4 → Fin 2048 → Fin 2048 → ℝ) (Wr : Fin 32000 → Fin 2048 → ℝ)
    (hH : ∀ (b : Fin 4) (s : Fin 2048) (h : Fin 2048), val_main_v6 (F := Ideal) x0 x2 (ix3 b s h) = ((Hd b s h : ℝ) : EReal))
    (hW : ∀ (v : Fin 32000) (h : Fin 2048), x3 (ix2 v h) = ((Wr v h : ℝ) : EReal)) :
    val_main_v26 (F := Ideal) x0 x1 x2 x3 ix0 = Cert.Spec.loss (Cert.Spec.lg Hd Wr) (fun b s => x1 (ix2 b s)) := by
  rw [val_main_v26_apply, val_main_v21_apply, val_main_cst_3_apply, ref_num x0 x1 x2 x3 Hd Wr hH hW,
    ref_den x1, Ideal.ofBits_def, Ideal.ofBits_zero_f32, Ideal.hostDivf_def]
  rfl

end Cert.ReferenceIdeal.RSpec

end
-- ==== Proof.RefRun.lean ====
/-
  The reference program's run, stage by stage.

  The program is a straight line of 74 host operations on one device. Read in order, it computes:
  (1) the token ids with a negative id moved up by 32000, the rows of the embedding table at those ids, and the
      scores of every position against the output table (4 × 2048 × 32000: the second result); the scores of the
      first 2047 positions of every batch row laid out as 8188 rows of 32000, and the labels from the second
      position on laid out as 8188 words;
  (2) the row-wise log-softmax of the 8188 rows: each row minus its maximum, minus the logarithm of the sum of the
      exponentials of those differences;
  (3) the mask of the labels that are not −100, the labels with a masked-out one replaced by 0, and those as a
      column;
  (4) the take along the vocabulary axis: every row's log-softmax entry at its label (a negative label moved up by
      32000), the fill value where the label is out of bounds;
  (5) the negated taken entries with a masked-out row replaced by 0, their sum, and the quotient of that sum by the
      larger of the number of counted labels and 1 (the first result).
  Every operation writes one buffer as a function of the buffers it reads, so after each stretch of the line the
  buffers later stretches read hold the values the stretch's operations compute from the four arguments, and the
  arguments are unchanged. Every weakly fair execution terminates in such a state.
-/
import proofs.«402826_j3624952398524_3_alg».proof.Proof.RefRunP
import proofs.«402826_j3624952398524_3_alg».proof.Proof.RefReadP
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The token rows of the embedding table, the scores against the output table, their first 2047 positions as 8188 rows, and the labels from the second position on as 8188 words. -/
abbrev ops1 : List (HloOp τ sig (Elt F)) :=
  [ nullary main_c (constantI S_ 32 0#32),
    unary main_c main_v0 (broadcastInDim S4x2048 ![] bcast_S_S4x2048 : (⟨S_, .i32⟩ : BufTy).Contents (Elt F) → (⟨S4x2048, .i32⟩ : BufTy).Contents (Elt F)),
    binary main_arg0 main_v0 main_v1 (cmpi .slt : (⟨S4x2048, .i32⟩ : BufTy).Contents (Elt F) → (⟨S4x2048, .i32⟩ : BufTy).Contents (Elt F) → (⟨S4x2048, .i1⟩ : BufTy).Contents (Elt F)),
    nullary main_c_0 (constantI S_ 32 32000#32),
    unary main_c_0 main_v2 (broadcastInDim S4x2048 ![] bcast_S_S4x2048 : (⟨S_, .i32⟩ : BufTy).Contents (Elt F) → (⟨S4x2048, .i32⟩ : BufTy).Contents (Elt F)),
    binary main_arg0 main_v2 main_v3 (addi : (⟨S4x2048, .i32⟩ : BufTy).Contents (Elt F) → (⟨S4x2048, .i32⟩ : BufTy).Contents (Elt F) → (⟨S4x2048, .i32⟩ : BufTy).Contents (Elt F)),
    ternary main_v1 main_v3 main_arg0 main_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v4 main_v5 (broadcastInDim S4x2048x1 ![0, 1] bcast_S4x2048_S4x2048x1_0_1 : (⟨S4x2048, .i32⟩ : BufTy).Contents (Elt F) → (⟨S4x2048x1, .i32⟩ : BufTy).Contents (Elt F)),
    binary main_arg2 main_v5 main_v6 ((fun x i => Host.gather gather_S32000x2048_S4x2048x1_S4x2048x2048_2_0_n_n_0_2_12048 x i) : (⟨S32000x2048, .f32⟩ : BufTy).Contents (Elt F) → (⟨S4x2048x1, .i32⟩ : BufTy).Contents (Elt F) → (⟨S4x2048x2048, .f32⟩ : BufTy).Contents (Elt F)),
    binary main_v6 main_arg3 main_v7 ((fun l r => Host.dotGeneral dot_S4x2048x2048_S32000x2048_S4x2048x32000_2_1_01_0_n_n none l r) : (⟨S4x2048x2048, .f32⟩ : BufTy).Contents (Elt F) → (⟨S32000x2048, .f32⟩ : BufTy).Contents (Elt F) → (⟨S4x2048x32000, .f32⟩ : BufTy).Contents (Elt F)),
    unary main_v7 main_v8 ((extractStridedSlice S4x2047x32000 ![0, 0, 0] · slices_S4x2048x32000_S4x2047x32000_0_0_0) : (⟨S4x2048x32000, .f32⟩ : BufTy).Contents (Elt F) → (⟨S4x2047x32000, .f32⟩ : BufTy).Contents (Elt F)),
    reshape main_v8 main_v9 rfl shapeCasts_S4x2047x32000_S8188x32000,
    unary main_arg1 main_v10 ((extractStridedSlice S4x2047 ![0, 1] · slices_S4x2048_S4x2047_0_1) : (⟨S4x2048, .i32⟩ : BufTy).Contents (Elt F) → (⟨S4x2047, .i32⟩ : BufTy).Contents (Elt F)),
    reshape main_v10 main_v11 rfl shapeCasts_S4x2047_S8188 ]

/-- The row-wise log-softmax of the 8188 rows of scores. -/
abbrev ops2 : List (HloOp τ sig (Elt F)) :=
  [ TRef.nullary (TRef.of (T := ⟨S_, .f32⟩) main_call0_cst) (constant S_ .f32 0xFF800000#32),
    TRef.binary (TRef.of (T := ⟨S8188x32000, .f32⟩) main_v9) (TRef.of (T := ⟨S_, .f32⟩) main_call0_cst) (TRef.of (T := ⟨S8188, .f32⟩) main_call0_v0) (fun x v => Host.reduce FloatOps.maximumf x v reducesTo_S8188x32000_S8188_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8188, .f32⟩) main_call0_v1) (broadcastInDim S8188 ![] bcast_S_S8188),
    TRef.binary (TRef.of (T := ⟨S8188, .f32⟩) main_call0_v1) (TRef.of (T := ⟨S8188, .f32⟩) main_call0_v0) (TRef.of (T := ⟨S8188, .f32⟩) main_call0_v2) maximumf,
    TRef.unary (TRef.of (T := ⟨S8188, .f32⟩) main_call0_v2) (TRef.of (T := ⟨S8188x1, .f32⟩) main_call0_v3) (broadcastInDim S8188x1 ![0] bcast_S8188_S8188x1_0),
    TRef.unary (TRef.of (T := ⟨S8188x1, .f32⟩) main_call0_v3) (TRef.of (T := ⟨S8188x32000, .f32⟩) main_call0_v4) (broadcastInDim S8188x32000 ![0, 1] bcast_S8188x1_S8188x32000_0_1),
    TRef.binary (TRef.of (T := ⟨S8188x32000, .f32⟩) main_v9) (TRef.of (T := ⟨S8188x32000, .f32⟩) main_call0_v4) (TRef.of (T := ⟨S8188x32000, .f32⟩) main_call0_v5) subf,
    TRef.unary (TRef.of (T := ⟨S8188x32000, .f32⟩) main_call0_v5) (TRef.of (T := ⟨S8188x32000, .f32⟩) main_call0_v6) Host.exp,
    TRef.nullary (TRef.of (T := ⟨S_, .f32⟩) main_call0_cst_1) (constant S_ .f32 0x00000000#32),
    TRef.binary (TRef.of (T := ⟨S8188x32000, .f32⟩) main_call0_v6) (TRef.of (T := ⟨S_, .f32⟩) main_call0_cst_1) (TRef.of (T := ⟨S8188, .f32⟩) main_call0_v7) (fun x v => Host.reduceAdd x v reducesTo_S8188x32000_S8188_d1 h_S_),
    TRef.unary (TRef.of (T := ⟨S8188, .f32⟩) main_call0_v7) (TRef.of (T := ⟨S8188x1, .f32⟩) main_call0_v8) (broadcastInDim S8188x1 ![0] bcast_S8188_S8188x1_0),
    TRef.unary (TRef.of (T := ⟨S8188x1, .f32⟩) main_call0_v8) (TRef.of (T := ⟨S8188x1, .f32⟩) main_call0_v9) Host.log,
    TRef.unary (TRef.of (T := ⟨S8188x1, .f32⟩) main_call0_v9) (TRef.of (T := ⟨S8188x32000, .f32⟩) main_call0_v10) (broadcastInDim S8188x32000 ![0, 1] bcast_S8188x1_S8188x32000_0_1),
    TRef.binary (TRef.of (T := ⟨S8188x32000, .f32⟩) main_call0_v5) (TRef.of (T := ⟨S8188x32000, .f32⟩) main_call0_v10) (TRef.of (T := ⟨S8188x32000, .f32⟩) main_v12) subf ]

/-- The mask of counted labels, the masked labels, and the masked labels as a column. -/
abbrev ops3 : List (HloOp τ sig (Elt F)) :=
  [ nullary main_c_1 (constantI S_ 32 4294967196#32),
    unary main_c_1 main_v13 (broadcastInDim S8188 ![] bcast_S_S8188 : (⟨S_, .i32⟩ : BufTy).Contents (Elt F) → (⟨S8188, .i32⟩ : BufTy).Contents (Elt F)),
    binary main_v11 main_v13 main_v14 (cmpi .ne : (⟨S8188, .i32⟩ : BufTy).Contents (Elt F) → (⟨S8188, .i32⟩ : BufTy).Contents (Elt F) → (⟨S8188, .i1⟩ : BufTy).Contents (Elt F)),
    nullary main_c_2 (constantI S_ 32 0#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S8188, .i32⟩) main_call1_v1) (broadcastInDim S8188 ![] bcast_S_S8188),
    TRef.ternary (TRef.of (T := ⟨S8188, .i1⟩) main_v14) (TRef.of (T := ⟨S8188, .i32⟩) main_v11) (TRef.of (T := ⟨S8188, .i32⟩) main_call1_v1) (TRef.of (T := ⟨S8188, .i32⟩) main_v15) select,
    unary main_v15 main_v16 (broadcastInDim S8188x1 ![0] bcast_S8188_S8188x1_0 : (⟨S8188, .i32⟩ : BufTy).Contents (Elt F) → (⟨S8188x1, .i32⟩ : BufTy).Contents (Elt F)) ]

/-- The take along the vocabulary axis of the log-softmax at the masked labels. -/
abbrev ops4 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8188x1, .i32⟩) main_call2_v0) (broadcastInDim S8188x1 ![] bcast_S_S8188x1),
    TRef.binary (TRef.of (T := ⟨S8188x1, .i32⟩) main_v16) (TRef.of (T := ⟨S8188x1, .i32⟩) main_call2_v0) (TRef.of (T := ⟨S8188x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S8188x1, .i32⟩) main_call2_v2) (broadcastInDim S8188x1 ![] bcast_S_S8188x1),
    TRef.binary (TRef.of (T := ⟨S8188x1, .i32⟩) main_v16) (TRef.of (T := ⟨S8188x1, .i32⟩) main_call2_v2) (TRef.of (T := ⟨S8188x1, .i32⟩) main_call2_v3) addi,
    TRef.ternary (TRef.of (T := ⟨S8188x1, .i1⟩) main_call2_v1) (TRef.of (T := ⟨S8188x1, .i32⟩) main_call2_v3) (TRef.of (T := ⟨S8188x1, .i32⟩) main_v16) (TRef.of (T := ⟨S8188x1, .i32⟩) main_call2_v4) select,
    TRef.reshape (TRef.of (T := ⟨S8188x1, .i32⟩) main_call2_v4) (TRef.of (T := ⟨S8188x1x1, .i32⟩) main_call2_v5) rfl shapeCasts_S8188x1_S8188x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S8188x1x1, .i32⟩) main_call2_v6) (broadcastInDim S8188x1x1 ![] bcast_S_S8188x1x1),
    TRef.binary (TRef.of (T := ⟨S8188x1x1, .i32⟩) main_call2_v5) (TRef.of (T := ⟨S8188x1x1, .i32⟩) main_call2_v6) (TRef.of (T := ⟨S8188x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8188x1x1, .i32⟩) main_call2_v9) (broadcastInDim S8188x1x1 ![0, 1, 2] bcast_S1x1x1_S8188x1x1_0_1_2),
    TRef.binary (TRef.of (T := ⟨S8188x1x1, .i32⟩) main_call2_v5) (TRef.of (T := ⟨S8188x1x1, .i32⟩) main_call2_v9) (TRef.of (T := ⟨S8188x1x1, .i1⟩) main_call2_v10) (cmpi .sle),
    TRef.binary (TRef.of (T := ⟨S8188x1x1, .i1⟩) main_call2_v7) (TRef.of (T := ⟨S8188x1x1, .i1⟩) main_call2_v10) (TRef.of (T := ⟨S8188x1x1, .i1⟩) main_call2_v11) andi,
    TRef.nullary (TRef.of (T := ⟨S_, .i1⟩) main_call2_c_3) (constantI S_ 1 1#1),
    TRef.binary (TRef.of (T := ⟨S8188x1x1, .i1⟩) main_call2_v11) (TRef.of (T := ⟨S_, .i1⟩) main_call2_c_3) (TRef.of (T := ⟨S8188x1, .i1⟩) main_call2_v12) (fun x v => Host.reduce IntOp.andi x v reducesTo_S8188x1x1_S8188x1_d2 h_S_),
    TRef.binary (TRef.of (T := ⟨S8188x32000, .f32⟩) main_v12) (TRef.of (T := ⟨S8188x1x1, .i32⟩) main_call2_v5) (TRef.of (T := ⟨S8188x1, .f32⟩) main_call2_v13) (fun x i => Host.gather gather_S8188x32000_S8188x1x1_S8188x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8188x1, .f32⟩) main_call2_v14) (broadcastInDim S8188x1 ![] bcast_S_S8188x1),
    TRef.ternary (TRef.of (T := ⟨S8188x1, .i1⟩) main_call2_v12) (TRef.of (T := ⟨S8188x1, .f32⟩) main_call2_v13) (TRef.of (T := ⟨S8188x1, .f32⟩) main_call2_v14) (TRef.of (T := ⟨S8188x1, .f32⟩) main_v17) select ]

/-- The masked negated entries summed, over the larger of the count of counted labels and 1. -/
abbrev ops5 : List (HloOp τ sig (Elt F)) :=
  [ reshape main_v17 main_v18 rfl shapeCasts_S8188x1_S8188,
    unary main_v18 main_v19 (Host.negf : (⟨S8188, .f32⟩ : BufTy).Contents (Elt F) → (⟨S8188, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8188, .f32⟩) main_call3_v1) (broadcastInDim S8188 ![] bcast_S_S8188),
    TRef.ternary (TRef.of (T := ⟨S8188, .i1⟩) main_v14) (TRef.of (T := ⟨S8188, .f32⟩) main_v19) (TRef.of (T := ⟨S8188, .f32⟩) main_call3_v1) (TRef.of (T := ⟨S8188, .f32⟩) main_v20) select,
    nullary main_cst_3 (constant S_ .f32 0x00000000#32),
    binary main_v20 main_cst_3 main_v21 ((fun x v => Host.reduceAdd x v reducesTo_S8188_S_d0 h_S_) : (⟨S8188, .f32⟩ : BufTy).Contents (Elt F) → (⟨S_, .f32⟩ : BufTy).Contents (Elt F) → (⟨S_, .f32⟩ : BufTy).Contents (Elt F)),
    unary main_v14 main_v22 ((extui 32 · natLt_1_32) : (⟨S8188, .i1⟩ : BufTy).Contents (Elt F) → (⟨S8188, .i32⟩ : BufTy).Contents (Elt F)),
    nullary main_c_4 (constantI S_ 32 0#32),
    binary main_v22 main_c_4 main_v23 ((fun x v => Host.reduce IntOp.addi x v reducesTo_S8188_S_d0 h_S_) : (⟨S8188, .i32⟩ : BufTy).Contents (Elt F) → (⟨S_, .i32⟩ : BufTy).Contents (Elt F) → (⟨S_, .i32⟩ : BufTy).Contents (Elt F)),
    nullary main_c_5 (constantI S_ 32 1#32),
    binary main_v23 main_c_5 main_v24 (maxsi : (⟨S_, .i32⟩ : BufTy).Contents (Elt F) → (⟨S_, .i32⟩ : BufTy).Contents (Elt F) → (⟨S_, .i32⟩ : BufTy).Contents (Elt F)),
    unary main_v24 main_v25 (sitofp .f32 : (⟨S_, .i32⟩ : BufTy).Contents (Elt F) → (⟨S_, .f32⟩ : BufTy).Contents (Elt F)),
    binary main_v21 main_v25 main_v26 (Host.divf : (⟨S_, .f32⟩ : BufTy).Contents (Elt F) → (⟨S_, .f32⟩ : BufTy).Contents (Elt F) → (⟨S_, .f32⟩ : BufTy).Contents (Elt F)) ]

set_option maxRecDepth 8192 in
/-- The 74 operations are the five stretches in a row. -/
theorem ops_eq : (ops : List (HloOp τ sig (Elt F))) = ops1 ++ (ops2 ++ (ops3 ++ (ops4 ++ ops5))) := rfl

/-- The four arguments' contents in a valuation. -/
structure Args (x0 x1 : (⟨S4x2048, .i32⟩ : BufTy).Contents (Elt F)) (x2 x3 : (⟨S32000x2048, .f32⟩ : BufTy).Contents (Elt F))
    (W : Valuation τ sig (Elt F)) : Prop where
  a0 : W (Proc.devRef .tc main_arg0) = x0
  a1 : W (Proc.devRef .tc main_arg1) = x1
  a2 : W (Proc.devRef .tc main_arg2) = x2
  a3 : W (Proc.devRef .tc main_arg3) = x3

/-- After the first stretch: the scores, their 8188 rows, the 8188 labels. -/
structure At1 (x0 x1 : (⟨S4x2048, .i32⟩ : BufTy).Contents (Elt F)) (x2 x3 : (⟨S32000x2048, .f32⟩ : BufTy).Contents (Elt F))
    (W : Valuation τ sig (Elt F)) : Prop extends Args x0 x1 x2 x3 W where
  v7 : W (Proc.devRef .tc main_v7) = val_main_v7 (F := F) x0 x2 x3
  v9 : W (Proc.devRef .tc main_v9) = val_main_v9 (F := F) x0 x2 x3
  v11 : W (Proc.devRef .tc main_v11) = val_main_v11 (F := F) x1

section stage1
variable (W : Valuation τ sig (Elt F))

theorem pass1_a0 : after (ops1 (F := F)) W (Proc.devRef .tc main_arg0) = W (Proc.devRef .tc main_arg0) := by after_results_simp
theorem pass1_a1 : after (ops1 (F := F)) W (Proc.devRef .tc main_arg1) = W (Proc.devRef .tc main_arg1) := by after_results_simp
theorem pass1_a2 : after (ops1 (F := F)) W (Proc.devRef .tc main_arg2) = W (Proc.devRef .tc main_arg2) := by after_results_simp
theorem pass1_a3 : after (ops1 (F := F)) W (Proc.devRef .tc main_arg3) = W (Proc.devRef .tc main_arg3) := by after_results_simp

theorem out1_v7 : after (ops1 (F := F)) W (Proc.devRef .tc main_v7)
    = val_main_v7 (F := F) (W (Proc.devRef .tc main_arg0)) (W (Proc.devRef .tc main_arg2)) (W (Proc.devRef .tc main_arg3)) := by
  after_results_simp <;> rfl
theorem out1_v9 : after (ops1 (F := F)) W (Proc.devRef .tc main_v9)
    = val_main_v9 (F := F) (W (Proc.devRef .tc main_arg0)) (W (Proc.devRef .tc main_arg2)) (W (Proc.devRef .tc main_arg3)) := by
  after_results_simp <;> rfl
theorem out1_v11 : after (ops1 (F := F)) W (Proc.devRef .tc main_v11)
    = val_main_v11 (F := F) (W (Proc.devRef .tc main_arg1)) := by
  after_results_simp <;> rfl

theorem stage1 : At1 (F := F) (W (Proc.devRef .tc main_arg0)) (W (Proc.devRef .tc main_arg1)) (W (Proc.devRef .tc main_arg2))
    (W (Proc.devRef .tc main_arg3)) (after ops1 W) :=
  { a0 := pass1_a0 W, a1 := pass1_a1 W, a2 := pass1_a2 W, a3 := pass1_a3 W,
    v7 := out1_v7 W, v9 := out1_v9 W, v11 := out1_v11 W }

end stage1

/-- Contents moved to a typed reference's buffer type and back are the contents. -/
theorem ofBuf_toBuf {Val : EltTy → Type} {T : BufTy} (x : TRef sig T) (v : T.Contents Val) : x.ofBuf (x.toBuf v) = v := by
  obtain ⟨r, rfl, _, _⟩ := x
  rfl

/-- After the second stretch: the log-softmax rows. -/
structure At2 (x0 x1 : (⟨S4x2048, .i32⟩ : BufTy).Contents (Elt F)) (x2 x3 : (⟨S32000x2048, .f32⟩ : BufTy).Contents (Elt F))
    (W : Valuation τ sig (Elt F)) : Prop extends Args x0 x1 x2 x3 W where
  v7 : W (Proc.devRef .tc main_v7) = val_main_v7 (F := F) x0 x2 x3
  v11 : W (Proc.devRef .tc main_v11) = val_main_v11 (F := F) x1
  v12 : W (Proc.devRef .tc main_v12) = val_main_v12 (F := F) x0 x2 x3

theorem stage2 {x0 x1 : (⟨S4x2048, .i32⟩ : BufTy).Contents (Elt F)} {x2 x3 : (⟨S32000x2048, .f32⟩ : BufTy).Contents (Elt F)} (W : Valuation τ sig (Elt F)) (h : At1 x0 x1 x2 x3 W) :
    At2 x0 x1 x2 x3 (after ops2 W) where
  a0 := (show after (ops2 (F := F)) W (Proc.devRef .tc main_arg0) = W (Proc.devRef .tc main_arg0) by after_results_simp).trans h.a0
  a1 := (show after (ops2 (F := F)) W (Proc.devRef .tc main_arg1) = W (Proc.devRef .tc main_arg1) by after_results_simp).trans h.a1
  a2 := (show after (ops2 (F := F)) W (Proc.devRef .tc main_arg2) = W (Proc.devRef .tc main_arg2) by after_results_simp).trans h.a2
  a3 := (show after (ops2 (F := F)) W (Proc.devRef .tc main_arg3) = W (Proc.devRef .tc main_arg3) by after_results_simp).trans h.a3
  v7 := (show after (ops2 (F := F)) W (Proc.devRef .tc main_v7) = W (Proc.devRef .tc main_v7) by after_results_simp).trans h.v7
  v11 := (show after (ops2 (F := F)) W (Proc.devRef .tc main_v11) = W (Proc.devRef .tc main_v11) by after_results_simp).trans h.v11
  v12 := by
    have h9 := h.v9
    after_results_simp
    simp only [ofBuf_toBuf]
    rw [h9]
    rfl

/-- After the third stretch: the mask and the masked labels as a column. -/
structure At3 (x0 x1 : (⟨S4x2048, .i32⟩ : BufTy).Contents (Elt F)) (x2 x3 : (⟨S32000x2048, .f32⟩ : BufTy).Contents (Elt F))
    (W : Valuation τ sig (Elt F)) : Prop extends Args x0 x1 x2 x3 W where
  v7 : W (Proc.devRef .tc main_v7) = val_main_v7 (F := F) x0 x2 x3
  v12 : W (Proc.devRef .tc main_v12) = val_main_v12 (F := F) x0 x2 x3
  v14 : W (Proc.devRef .tc main_v14) = val_main_v14 (F := F) x1
  v16 : W (Proc.devRef .tc main_v16) = val_main_v16 (F := F) x1

theorem stage3 {x0 x1 : (⟨S4x2048, .i32⟩ : BufTy).Contents (Elt F)} {x2 x3 : (⟨S32000x2048, .f32⟩ : BufTy).Contents (Elt F)} (W : Valuation τ sig (Elt F)) (h : At2 x0 x1 x2 x3 W) :
    At3 x0 x1 x2 x3 (after ops3 W) where
  a0 := (show after (ops3 (F := F)) W (Proc.devRef .tc main_arg0) = W (Proc.devRef .tc main_arg0) by after_results_simp).trans h.a0
  a1 := (show after (ops3 (F := F)) W (Proc.devRef .tc main_arg1) = W (Proc.devRef .tc main_arg1) by after_results_simp).trans h.a1
  a2 := (show after (ops3 (F := F)) W (Proc.devRef .tc main_arg2) = W (Proc.devRef .tc main_arg2) by after_results_simp).trans h.a2
  a3 := (show after (ops3 (F := F)) W (Proc.devRef .tc main_arg3) = W (Proc.devRef .tc main_arg3) by after_results_simp).trans h.a3
  v7 := (show after (ops3 (F := F)) W (Proc.devRef .tc main_v7) = W (Proc.devRef .tc main_v7) by after_results_simp).trans h.v7
  v12 := (show after (ops3 (F := F)) W (Proc.devRef .tc main_v12) = W (Proc.devRef .tc main_v12) by after_results_simp).trans h.v12
  v14 := by
    have h11 := h.v11
    after_results_simp
    rw [h11]
    rfl
  v16 := by
    have h11 := h.v11
    after_results_simp
    simp only [ofBuf_toBuf]
    rw [h11]
    rfl

/-- After the fourth stretch: the taken entries. -/
structure At4 (x0 x1 : (⟨S4x2048, .i32⟩ : BufTy).Contents (Elt F)) (x2 x3 : (⟨S32000x2048, .f32⟩ : BufTy).Contents (Elt F))
    (W : Valuation τ sig (Elt F)) : Prop extends Args x0 x1 x2 x3 W where
  v7 : W (Proc.devRef .tc main_v7) = val_main_v7 (F := F) x0 x2 x3
  v14 : W (Proc.devRef .tc main_v14) = val_main_v14 (F := F) x1
  v17 : W (Proc.devRef .tc main_v17) = val_main_v17 (F := F) x0 x1 x2 x3

theorem stage4 {x0 x1 : (⟨S4x2048, .i32⟩ : BufTy).Contents (Elt F)} {x2 x3 : (⟨S32000x2048, .f32⟩ : BufTy).Contents (Elt F)} (W : Valuation τ sig (Elt F)) (h : At3 x0 x1 x2 x3 W) :
    At4 x0 x1 x2 x3 (after ops4 W) where
  a0 := (show after (ops4 (F := F)) W (Proc.devRef .tc main_arg0) = W (Proc.devRef .tc main_arg0) by after_results_simp).trans h.a0
  a1 := (show after (ops4 (F := F)) W (Proc.devRef .tc main_arg1) = W (Proc.devRef .tc main_arg1) by after_results_simp).trans h.a1
  a2 := (show after (ops4 (F := F)) W (Proc.devRef .tc main_arg2) = W (Proc.devRef .tc main_arg2) by after_results_simp).trans h.a2
  a3 := (show after (ops4 (F := F)) W (Proc.devRef .tc main_arg3) = W (Proc.devRef .tc main_arg3) by after_results_simp).trans h.a3
  v7 := (show after (ops4 (F := F)) W (Proc.devRef .tc main_v7) = W (Proc.devRef .tc main_v7) by after_results_simp).trans h.v7
  v14 := (show after (ops4 (F := F)) W (Proc.devRef .tc main_v14) = W (Proc.devRef .tc main_v14) by after_results_simp).trans h.v14
  v17 := by
    have h12 := h.v12
    have h16 := h.v16
    after_results_simp
    simp only [ofBuf_toBuf]
    rw [h12, h16]
    rfl

/-- After the last stretch: the loss. -/
structure At5 (x0 x1 : (⟨S4x2048, .i32⟩ : BufTy).Contents (Elt F)) (x2 x3 : (⟨S32000x2048, .f32⟩ : BufTy).Contents (Elt F))
    (W : Valuation τ sig (Elt F)) : Prop extends Args x0 x1 x2 x3 W where
  v7 : W (Proc.devRef .tc main_v7) = val_main_v7 (F := F) x0 x2 x3
  v26 : W (Proc.devRef .tc main_v26) = val_main_v26 (F := F) x0 x1 x2 x3

theorem stage5 {x0 x1 : (⟨S4x2048, .i32⟩ : BufTy).Contents (Elt F)} {x2 x3 : (⟨S32000x2048, .f32⟩ : BufTy).Contents (Elt F)} (W : Valuation τ sig (Elt F)) (h : At4 x0 x1 x2 x3 W) :
    At5 x0 x1 x2 x3 (after ops5 W) where
  a0 := (show after (ops5 (F := F)) W (Proc.devRef .tc main_arg0) = W (Proc.devRef .tc main_arg0) by after_results_simp).trans h.a0
  a1 := (show after (ops5 (F := F)) W (Proc.devRef .tc main_arg1) = W (Proc.devRef .tc main_arg1) by after_results_simp).trans h.a1
  a2 := (show after (ops5 (F := F)) W (Proc.devRef .tc main_arg2) = W (Proc.devRef .tc main_arg2) by after_results_simp).trans h.a2
  a3 := (show after (ops5 (F := F)) W (Proc.devRef .tc main_arg3) = W (Proc.devRef .tc main_arg3) by after_results_simp).trans h.a3
  v7 := (show after (ops5 (F := F)) W (Proc.devRef .tc main_v7) = W (Proc.devRef .tc main_v7) by after_results_simp).trans h.v7
  v26 := by
    have h14 := h.v14
    have h17 := h.v17
    after_results_simp
    simp only [ofBuf_toBuf]
    rw [h17, h14]
    rfl

/-- Through the whole line: the five stretches in a row. -/
theorem whole (V : Valuation τ sig (Elt F)) :
    At5 (F := F) (V (Proc.devRef .tc main_arg0)) (V (Proc.devRef .tc main_arg1)) (V (Proc.devRef .tc main_arg2))
      (V (Proc.devRef .tc main_arg3)) (after ops V) := by
  have e : after (ops (F := F)) V = after ops5 (after ops4 (after ops3 (after ops2 (after ops1 V)))) := by
    rw [ops_eq, StableHlo.after_append, StableHlo.after_append, StableHlo.after_append, StableHlo.after_append]
  rw [e]
  exact stage5 _ (stage4 _ (stage3 _ (stage2 _ (stage1 V))))

/-- On every device, for any float values, from any memory with zero counters: every weakly fair execution of
    the program terminates with the loss and the scores at their staged values of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = val_main_v26 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v7) = val_main_v7 (F := F) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have w := whole (F := F) (launchContents m c)
      ⟨(h c main_v26).trans w.v26, (h c main_v7).trans w.v7, (h c main_arg0).trans w.a0, (h c main_arg1).trans w.a1,
        (h c main_arg2).trans w.a2, (h c main_arg3).trans w.a3⟩)
    (run_seq scopedRefs_eq scopedSems_eq defs main (fun _ => ops) main_eq (fun _ => ops_sub) m ρ)

end Cert.ReferenceIdeal.RefRun

end
-- ==== Proof.Finite.lean ====
/-
  Finiteness of the two float inputs under the certificate's precondition.

  The precondition compares, entry by entry, the absolute value of each of the two f32[32000, 2048]
  inputs against +∞ (the pattern 0x7F800000) with the strict order, takes the conjunction of all
  the comparisons of each input, and takes the conjunction of the two results. Over the extended reals
  the absolute value of x is max x (-x), so |x| < ⊤ excludes both x = ⊤ and x = ⊥ (the latter also
  being what an invalid pattern denotes): every entry of either input is then a real number.

  real_of_abs_lt_top : the scalar step, |x| < ⊤ gives a real r with x = r.
  real_of_pre        : the precondition being true gives that for every entry of both inputs.
-/
import proofs.«402826_j3624952398524_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic

/-- The shape of rank zero has exactly one index. -/
instance : Subsingleton Cert.Pre_finite_inputs.S_.Idx := ⟨fun a b => funext fun d => d.elim0⟩

/-- An extended real whose absolute value max x (-x) is strictly below +∞ is a real number:
    x = ⊤ gives max ⊤ ⊥ = ⊤ and x = ⊥ gives max ⊥ ⊤ = ⊤, neither of which is below ⊤. -/
theorem real_of_abs_lt_top (x : EReal)
    (h : Ideal.cmp .olt (max x (-x)) (Ideal.ofBits .f32 0x7F800000#32) = 1#1) : ∃ r : ℝ, x = (r : EReal) := by
  -- the pattern 0x7F800000 (sign 0, exponent all ones, significand 0) denotes +∞
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the two float inputs is a real number. -/
theorem real_of_pre (a0 a1 : IVec Cert.Pre_finite_inputs.S4x2048 32)
    (a2 a3 : FVec Ideal Cert.Pre_finite_inputs.S32000x2048 .f32)
    (h : Cert.Pre_finite_inputs.fn (F := Ideal) a0 a1 a2 a3 = fun _ => 1#1) :
    (∀ i, ∃ r : ℝ, a2 i = (r : EReal)) ∧ (∀ i, ∃ r : ℝ, a3 i = (r : EReal)) := by
  -- the result has one index; read the claim there
  have h0 := congrFun h ValueIdx.ix0
  dsimp only [Cert.Pre_finite_inputs.fn] at h0
  -- the final conjunction is 1, so each of the two all-conjunctions is 1
  obtain ⟨h2, h3⟩ := IntOp.andi_eq_one.1 h0
  constructor
  · intro i
    -- a conjunction over all entries that is 1 has a 1 at every entry
    have e := Host.reduce_andi_all _ _ _ _ _ h2 i
    exact real_of_abs_lt_top (a2 i) e
  · intro i
    have e := Host.reduce_andi_all _ _ _ _ _ h3 i
    exact real_of_abs_lt_top (a3 i) e

end Cert.Finite
-- ==== Proof.Assemble.lean ====
/-
  The two programs end with equal results.

  Under the precondition the embedding table and the output table hold real numbers, so the hidden rows
  (rows of the embedding table) are real, every score is a real sum Σ_h hidden · table, and both programs'
  results are the specification's: the scores themselves, and the loss of Spec.lean. On the kernel's side the
  launch leaves the scores and the row-wise log-sum-exp (the streaming pass, point by point), and the lines
  after it take each row's score at its label, subtract the log-sum-exp, negate, mask, sum and divide; on the
  reference's side the same quantities come from a two-pass log-softmax. Both are log Σ exp − score per counted
  row, +∞ for a counted row whose label is out of range, over the count.
-/
import proofs.«402826_j3624952398524_3_alg».proof.Defs
import proofs.«402826_j3624952398524_3_alg».proof.Proof.Gen.Kernel.Frame
import proofs.«402826_j3624952398524_3_alg».proof.Proof.Gen.KernelIdeal.Frame
import proofs.«402826_j3624952398524_3_alg».proof.Proof.Gen.Pre_finite_inputs
import proofs.«402826_j3624952398524_3_alg».proof.Proof.KHost
import proofs.«402826_j3624952398524_3_alg».proof.Proof.KInv
import proofs.«402826_j3624952398524_3_alg».proof.Proof.KFinal
import proofs.«402826_j3624952398524_3_alg».proof.Proof.KSpec
import proofs.«402826_j3624952398524_3_alg».proof.Proof.KBridge
import proofs.«402826_j3624952398524_3_alg».proof.Proof.RSpec
import proofs.«402826_j3624952398524_3_alg».proof.Proof.RefRun
import proofs.«402826_j3624952398524_3_alg».proof.Proof.Finite

set_option maxRecDepth 16384

noncomputable section

open Idealize.ShloMosaic Idealize.ShloMosaic.TcCoe Idealize.SL.Sem Idealize.ShloMosaic.ValueIdx

namespace Cert.Proof.Parts

open Cert.KernelIdeal Cert.KernelIdeal.Gen Cert.KernelIdeal.KV

/-- A row of the 8192 is row 2048·b + s for its quotient b and remainder s. -/
theorem row_split (r : Fin 8192) :
    r = Cert.Spec.row ⟨r.val / 2048, by have := r.isLt; omega⟩ ⟨r.val % 2048, Nat.mod_lt _ (by decide)⟩ :=
  Fin.ext (by show r.val = 2048 * (r.val / 2048) + r.val % 2048; omega)

/-- On one device, under the precondition: real hidden rows and a real output table, and the kernel program's two
    results as the specification's scores and loss of them. -/
theorem kernel_vals (m : (ℓ : Loc nD τ sig) → Buf (Elt Ideal) ℓ) (hpre : Cert.Pre_KernelIdeal m) (c : Dev nD) :
    ∃ (Hd : Fin 4 → Fin 2048 → Fin 2048 → ℝ) (Wr : Fin 32000 → Fin 2048 → ℝ),
      (∀ b s h, hidden (F := Ideal) (m ((c.tc : Thread nD τ).loc main_arg0)) (m ((c.tc : Thread nD τ).loc main_arg2)) (ix3 b s h) = ((Hd b s h : ℝ) : EReal))
      ∧ (∀ v h, m ((c.tc : Thread nD τ).loc main_arg3) (ix2 v h) = ((Wr v h : ℝ) : EReal))
      ∧ (∀ b s v, logitsOut (F := Ideal) (Xarr m c) (ix3 b s v) = ((Cert.Spec.lg Hd Wr b s v : ℝ) : EReal))
      ∧ tailLoss (F := Ideal) (Xarr m c) (Larr m c) (labFlat (m ((c.tc : Thread nD τ).loc main_arg1))) (validFlat (m ((c.tc : Thread nD τ).loc main_arg1))) ix0
          = Cert.Spec.loss (Cert.Spec.lg Hd Wr) (fun b s => m ((c.tc : Thread nD τ).loc main_arg1) (ix2 b s)) := by
  obtain ⟨hE, hW⟩ := Cert.Finite.real_of_pre _ _ _ _ (hpre c)
  choose Wr hWr using fun (v : Fin 32000) (h : Fin 2048) => hW (ix2 v h)
  choose Hd hHd using fun (b : Fin 4) (s : Fin 2048) (h : Fin 2048) =>
    Cert.Bridge.hidden_real (m ((c.tc : Thread nD τ).loc main_arg0)) (m ((c.tc : Thread nD τ).loc main_arg2)) hE (ix3 b s h)
  let A : Fin 8192 → Fin 2048 → ℝ := fun r h =>
    Hd ⟨r.val / 2048, by have := r.isLt; omega⟩ ⟨r.val % 2048, Nat.mod_lt _ (by decide)⟩ h
  have hArow : ∀ (b : Fin 4) (s : Fin 2048) (h : Fin 2048), A (Cert.Spec.row b s) h = Hd b s h := by
    intro b s h
    have hb : (Cert.Spec.row b s).val / 2048 = b.val := by
      show (2048 * b.val + s.val) / 2048 = b.val; have := s.isLt; omega
    have hs : (Cert.Spec.row b s).val % 2048 = s.val := by
      show (2048 * b.val + s.val) % 2048 = s.val; have := s.isLt; omega
    show Hd ⟨(Cert.Spec.row b s).val / 2048, _⟩ ⟨(Cert.Spec.row b s).val % 2048, _⟩ h = Hd b s h
    congr 1
    · exact Fin.ext hb
    · exact Fin.ext hs
  have hA : ∀ r h, (V m c main_call0_v8 : Vec Ideal S8192x2048 .bf16) (ix2 r h) = ((A r h : ℝ) : EReal) := by
    intro r h
    rw [V_h m c, row_split r, Cert.Bridge.hFlat_apply, hHd, hArow]
  have hB : ∀ v h, (V m c main_call0_v9 : Vec Ideal S32000x2048 .bf16) (ix2 v h) = ((Wr v h : ℝ) : EReal) := by
    intro v h
    rw [V_w m c, Cert.Bridge.wCast_apply, hWr]
  have hxr : ∀ b s v, xr A Wr (Cert.Spec.row b s) v = Cert.Spec.lg Hd Wr b s v := by
    intro b s v
    unfold xr Cert.Spec.lg
    exact Finset.sum_congr rfl fun h _ => by rw [hArow]
  have hX : ∀ (b : Fin 4) (s : Fin 2048) (v : Fin 32000),
      Xarr m c (ix2 (Cert.Spec.row b s) v) = ((Cert.Spec.lg Hd Wr b s v : ℝ) : EReal) := by
    intro b s v
    rw [← hxr]
    exact final_scores m c (fun r v => ((xr A Wr r v : ℝ) : EReal)) (fun t p q => outs_scores m c A Wr hA hB t p q) _ _
  have hL : ∀ (b : Fin 4) (s : Fin 2048),
      Larr m c (ix2 (Cert.Spec.row b s) (0 : Fin 1)) = ((Real.log (Cert.Spec.zsum (Cert.Spec.lg Hd Wr b s)) : ℝ) : EReal) := by
    intro b s
    have e : Cert.Spec.zsum (Cert.Spec.lg Hd Wr b s) = ∑ v : Fin 32000, Real.exp (xr A Wr (Cert.Spec.row b s) v) := by
      unfold Cert.Spec.zsum
      exact Finset.sum_congr rfl fun v _ => by rw [hxr]
    rw [e]
    exact final_lse m c (fun r => ((Real.log (∑ v : Fin 32000, Real.exp (xr A Wr r v)) : ℝ) : EReal))
      (fun t ht p => outs_lse m c A Wr hA hB t ht p) _
  exact ⟨Hd, Wr, hHd, hWr, fun b s v => Cert.KernelIdeal.KSpec.k_logits _ _ hX b s v,
    Cert.KernelIdeal.KSpec.k_loss _ _ _ _ hX hL⟩

end Cert.Proof.Parts

namespace Cert.Proof.Parts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both runs end with the same loss and the same scores: each side's are the specification's. -/
theorem algebraic : Cert.algebraic_KernelIdeal_ReferenceIdeal := by
  intro m ρ m' ρ' hpre hagree
  refine ⟨fun c => Cert.KernelIdeal.KV.tailLoss (F := Ideal) (Cert.KernelIdeal.KV.Xarr m c) (Cert.KernelIdeal.KV.Larr m c)
      (Cert.KernelIdeal.KV.labFlat (m ((c.tc : Thread Cert.KernelIdeal.nD Cert.KernelIdeal.τ).loc Cert.KernelIdeal.main_arg1)))
      (Cert.KernelIdeal.KV.validFlat (m ((c.tc : Thread Cert.KernelIdeal.nD Cert.KernelIdeal.τ).loc Cert.KernelIdeal.main_arg1))),
    fun c => Cert.KernelIdeal.KV.logitsOut (F := Ideal) (Cert.KernelIdeal.KV.Xarr m c),
    Cert.KernelIdeal.KV.run m ρ, ?_⟩
  refine (θ_run Cert.ReferenceIdeal.defs _ _).mono (fun r h c => ?_) (Cert.ReferenceIdeal.RefRun.run (F := Ideal) m' ρ')
  obtain ⟨h26, h7, ha0, ha1, ha2, ha3⟩ := h c
  obtain ⟨Hd, Wr, hHd, hWr, hlog, hloss⟩ := kernel_vals m hpre c
  obtain ⟨e0, e1, e2, e3⟩ := hagree c
  refine ⟨h26.trans ?_, h7.trans ?_, ha0, ha1, ha2, ha3⟩
  · rw [e0, e1, e2, e3]
    funext i
    obtain rfl : i = ix0 := funext fun a => a.elim0
    refine Eq.trans ?_ hloss.symm
    exact Cert.ReferenceIdeal.RSpec.ref_loss _ _ _ _ Hd Wr
      (fun b s h => by rw [← Cert.Bridge.hidden_eq_ref]; exact hHd b s h) hWr
  · rw [e0, e2, e3]
    funext j
    obtain ⟨b, s, v, rfl⟩ : ∃ (b : Fin 4) (s : Fin 2048) (v : Fin 32000), j = ix3 b s v := ⟨j 0, j 1, j 2, eq_ix3 j⟩
    refine Eq.trans ?_ (hlog b s v).symm
    exact Cert.ReferenceIdeal.RSpec.ref_logits _ _ _ Hd Wr
      (fun b s h => by rw [← Cert.Bridge.hidden_eq_ref]; exact hHd b s h) hWr b s v

end Cert.Proof.Parts

end
-- ==== Proof.lean ====
/-
  The certificate's claim: the three programs run without fault and leave their arguments unchanged; the
  idealized kernel is the kernel's own text read over the extended reals (the idealization rewrote nothing);
  and the idealized kernel and the idealized reference end with equal loss and equal scores. The last is the
  content: a streaming log-sum-exp over 25 vocabulary blocks of 1280 columns, two half updates each, against a
  two-pass log-softmax, joined through one expression of real data (Proof/Spec.lean, Proof/Assemble.lean).
-/
import proofs.«402826_j3624952398524_3_alg».proof.Defs
import proofs.«402826_j3624952398524_3_alg».proof.Proof.Assemble
import proofs.«402826_j3624952398524_3_alg».proof.Proof.Gen.Kernel
import proofs.«402826_j3624952398524_3_alg».proof.Proof.Gen.KernelIdeal
import proofs.«402826_j3624952398524_3_alg».proof.Proof.Gen.ReferenceIdeal
import proofs.«402826_j3624952398524_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
